-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.truncf_extf.Statement Cert.KernelIdeal.S2048x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S1024x256 : Shape := ⟨2, ![1024, 256]⟩
abbrev S1024x1024 : Shape := ⟨2, ![1024, 1024]⟩
abbrev S1024 : Shape := ⟨1, ![1024]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024x256 .f32) (main_arg5 : FVec F S1024 .f32) (main_arg6 : FVec F S1024 .f32) (main_arg7 : FVec F S1024 .f32) (main_arg8 : FVec F S1024 .f32) (main_arg9 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_v33

def fn {F : FTy → Type} [FloatOps F] (main_arg0 : FVec F S16384x256 .f32) (main_arg1 : FVec F S1024x256 .f32) (main_arg2 : FVec F S1024x1024 .f32) (main_arg3 : FVec F S1024 .f32) (main_arg4 : FVec F S1024x256 .f32) (main_arg5 : FVec F S1024 .f32) (main_arg6 : FVec F S1024 .f32) (main_arg7 : FVec F S1024 .f32) (main_arg8 : FVec F S1024 .f32) (main_arg9 : FVec F S1024 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S16384x256 : Shape := ⟨2, ![16384, 256]⟩
abbrev S1024x256 : Shape := ⟨2, ![1024, 256]⟩
abbrev S1024x1024 : Shape := ⟨2, ![1024, 1024]⟩
abbrev S1024 : Shape := ⟨1, ![1024]⟩
abbrev S256x1024 : Shape := ⟨2, ![256, 1024]⟩
abbrev S256x2048 : Shape := ⟨2, ![256, 2048]⟩
abbrev S_ : Shape := ⟨0, ![]⟩
abbrev S8x1024 : Shape := ⟨2, ![8, 1024]⟩
abbrev S1 : Shape := ⟨1, ![1]⟩
abbrev S2x256x256 : Shape := ⟨3, ![2, 256, 256]⟩
abbrev S2x8x256 : Shape := ⟨3, ![2, 8, 256]⟩
abbrev S2048x256 : Shape := ⟨2, ![2048, 256]⟩
abbrev S1x256x256 : Shape := ⟨3, ![1, 256, 256]⟩
abbrev S1x8x256 : Shape := ⟨3, ![1, 8, 256]⟩
abbrev S256x256 : Shape := ⟨2, ![256, 256]⟩
abbrev S8x256 : Shape := ⟨2, ![8, 256]⟩
abbrev S256x8x256 : Shape := ⟨3, ![256, 8, 256]⟩
abbrev S1x1024 : Shape := ⟨2, ![1, 1024]⟩
abbrev S16384x1024 : Shape := ⟨2, ![16384, 1024]⟩
abbrev S1024x2048 : Shape := ⟨2, ![1024, 2048]⟩
abbrev S1024x1 : Shape := ⟨2, ![1024, 1]⟩

abbrev nBuf : Space → Nat
  | .hbm => 38
  | .vmem => 18
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024x1024, .f32⟩
  | .hbm, ⟨3, _⟩ => ⟨S1024, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S256x1024, .f32⟩
  | .hbm, ⟨11, _⟩ => ⟨S256x1024, .f32⟩
  | .hbm, ⟨12, _⟩ => ⟨S256x2048, .f32⟩
  | .hbm, ⟨13, _⟩ => ⟨S256x2048, .bf16⟩
  | .hbm, ⟨14, _⟩ => ⟨S1024x1024, .f32⟩
  | .hbm, ⟨15, _⟩ => ⟨S1024x1024, .bf16⟩
  | .hbm, ⟨16, _⟩ => ⟨S_, .f32⟩
  | .hbm, ⟨17, _⟩ => ⟨S8x1024, .f32⟩
  | .hbm, ⟨18, _⟩ => ⟨S1024, .f32⟩
  | .hbm, ⟨19, _⟩ => ⟨S_, .i32⟩
  | .hbm, ⟨20, _⟩ => ⟨S1, .i32⟩
  | .hbm, ⟨21, _⟩ => ⟨S8x1024, .f32⟩
  | .hbm, ⟨22, _⟩ => ⟨S_, .i32⟩
  | .hbm, ⟨23, _⟩ => ⟨S1, .i32⟩
  | .hbm, ⟨24, _⟩ => ⟨S8x1024, .f32⟩
  | .hbm, ⟨25, _⟩ => ⟨S_, .i32⟩
  | .hbm, ⟨26, _⟩ => ⟨S1, .i32⟩
  | .hbm, ⟨27, _⟩ => ⟨S8x1024, .f32⟩
  | .hbm, ⟨28, _⟩ => ⟨S_, .i32⟩
  | .hbm, ⟨29, _⟩ => ⟨S1, .i32⟩
  | .hbm, ⟨30, _⟩ => ⟨S8x1024, .f32⟩
  | .hbm, ⟨31, _⟩ => ⟨S_, .i32⟩
  | .hbm, ⟨32, _⟩ => ⟨S1, .i32⟩
  | .hbm, ⟨33, _⟩ => ⟨S8x1024, .f32⟩
  | .hbm, ⟨34, _⟩ => ⟨S2x256x256, .f32⟩
  | .hbm, ⟨35, _⟩ => ⟨S2x8x256, .f32⟩
  | .hbm, ⟨36, _⟩ => ⟨S8x1024, .f32⟩
  | .hbm, ⟨37, _⟩ => ⟨S16384x1024, .f32⟩
  | .local _ .vmem, ⟨0, _⟩ => ⟨S2048x256, .f32⟩
  | .local _ .vmem, ⟨1, _⟩ => ⟨S2048x256, .f32⟩
  | .local _ .vmem, ⟨2, _⟩ => ⟨S1x256x256, .f32⟩
  | .local _ .vmem, ⟨3, _⟩ => ⟨S1x256x256, .f32⟩
  | .local _ .vmem, ⟨4, _⟩ => ⟨S1x8x256, .f32⟩
  | .local _ .vmem, ⟨5, _⟩ => ⟨S1x8x256, .f32⟩
  | .local _ .vmem, ⟨6, _⟩ => ⟨S2x256x256, .f32⟩
  | .local _ .vmem, ⟨7, _⟩ => ⟨S2x8x256, .f32⟩
  | .local _ .vmem, ⟨8, _⟩ => ⟨S256x1024, .bf16⟩
  | .local _ .vmem, ⟨9, _⟩ => ⟨S8x1024, .f32⟩
  | .local _ .vmem, ⟨10, _⟩ => ⟨S1024x256, .f32⟩
  | .local _ .vmem, ⟨11, _⟩ => ⟨S1024x256, .f32⟩
  | .local _ .vmem, ⟨12, _⟩ => ⟨S256x2048, .bf16⟩
  | .local _ .vmem, ⟨13, _⟩ => ⟨S1024x1024, .bf16⟩
  | .local _ .vmem, ⟨14, _⟩ => ⟨S8x1024, .f32⟩
  | .local _ .vmem, ⟨15, _⟩ => ⟨S8x1024, .f32⟩
  | .local _ .vmem, ⟨16, _⟩ => ⟨S1024x1024, .f32⟩
  | .local _ .vmem, ⟨17, _⟩ => ⟨S1024x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x8x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S1024x256_S256x1024_1_0 : S1024x256.Transposes [1, 0] S256x1024
  concatenates_S256x1024_S256x1024_S256x2048_d1 : Shape.Concatenates [S256x1024, S256x1024] S256x2048 1
  bitsLt_bf16_f32 : FTy.bits .bf16 < FTy.bits .f32
  transposes_S1024x1024_S1024x1024_1_0 : S1024x1024.Transposes [1, 0] S1024x1024
  bcast_S_S8x1024 : S_.BroadcastsInDim S8x1024 (![] : Fin 0 → Fin S8x1024.rank)
  bcast_S_S1 : S_.BroadcastsInDim S1 (![] : Fin 0 → Fin S1.rank)
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x8x256_S1x8x256_0_0_0 : ∀ a, (![0, 0, 0] : Fin 3 → Nat) a + S1x8x256.size a ≤ S1x8x256.size a
  h_S1x8x256 : 0 < S1x8x256.numel
  shapeCasts_S1x8x256_S8x256 : S1x8x256.ShapeCasts S8x256
  shapeCasts_S8x256_S1x8x256 : S8x256.ShapeCasts S1x8x256
  inb_S2048x256_S2048x256_0_0 : ∀ a, (![0, 0] : Fin 2 → Nat) a + S2048x256.size a ≤ S2048x256.size a
  h_S2048x256 : 0 < S2048x256.numel
  shapeCasts_S2048x256_S256x8x256 : S2048x256.ShapeCasts S256x8x256
  reduces_S256x8x256_S8x256 : S256x8x256.Reduces [0] S8x256
  inb_S2x256x256_S1x256x256_0_0_0 : ∀ a, (![0, 0, 0] : Fin 3 → Nat) a + S1x256x256.size a ≤ S2x256x256.size a
  inb_S2x256x256_S1x256x256_1_0_0 : ∀ a, (![1, 0, 0] : Fin 3 → Nat) a + S1x256x256.size a ≤ S2x256x256.size a
  inb_S2x8x256_S1x8x256_0_0_0 : ∀ a, (![0, 0, 0] : Fin 3 → Nat) a + S1x8x256.size a ≤ S2x8x256.size a
  inb_S2x8x256_S1x8x256_1_0_0 : ∀ a, (![1, 0, 0] : Fin 3 → Nat) a + S1x8x256.size a ≤ S2x8x256.size a
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S256x1024_S1024 : S256x1024.Reduces [0] S1024
  shapeCasts_S1024_S1x1024 : S1024.ShapeCasts S1x1024
  reduces_S8x1024_S1024 : S8x1024.Reduces [0] S1024
  inb_S8x1024_S8x1024_0_0 : ∀ a, (![0, 0] : Fin 2 → Nat) a + S8x1024.size a ≤ S8x1024.size a
  h_S8x1024 : 0 < S8x1024.numel
  inb_S8x1024_S1x1024_0_0 : ∀ a, (![0, 0] : Fin 2 → Nat) a + S1x1024.size a ≤ S8x1024.size a
  h_S1x1024 : 0 < S1x1024.numel
  inb_S8x1024_S1x1024_1_0 : ∀ a, (![1, 0] : Fin 2 → Nat) a + S1x1024.size a ≤ S8x1024.size a
  inb_S1024x256_S1024x256_0_0 : ∀ a, (![0, 0] : Fin 2 → Nat) a + S1024x256.size a ≤ S1024x256.size a
  h_S1024x256 : 0 < S1024x256.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  slices_S1024x2048_o0_0_S1024x1024 : S1024x2048.Slices ![0, 0] S1024x1024
  slices_S1024x2048_o0_1024_S1024x1024 : S1024x2048.Slices ![0, 1024] S1024x1024
  shapeCasts_S1x1024_S1x1024 : S1x1024.ShapeCasts S1x1024
  inb_S8x1024_S1x1024_2_0 : ∀ a, (![2, 0] : Fin 2 → Nat) a + S1x1024.size a ≤ S8x1024.size a
  inb_S8x1024_S1x1024_3_0 : ∀ a, (![3, 0] : Fin 2 → Nat) a + S1x1024.size a ≤ S8x1024.size a
  inb_S8x1024_S1x1024_4_0 : ∀ a, (![4, 0] : Fin 2 → Nat) a + S1x1024.size a ≤ S8x1024.size a
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  scatter_S8x1024_S1_S1024_0_0_0_0_wf : ScatterDims.WF S8x1024 S1 S1024 [0] [0] [0] 0
  dot_S2048x256_S2048x256_S256x256_0_0_1_1_n_n_wf : DotDims.WF S2048x256 S2048x256 S256x256 [0] [0] [1] [1] [] []
  dot_S256x256_S256x1024_S256x1024_1_0_0_1_n_n_wf : DotDims.WF S256x256 S256x1024 S256x1024 [1] [0] [0] [1] [] []
  dot_S8x256_S256x1024_S8x1024_1_0_0_1_n_n_wf : DotDims.WF S8x256 S256x1024 S8x1024 [1] [0] [0] [1] [] []
  dot_S1024x256_S256x2048_S1024x2048_1_0_0_1_n_n_wf : DotDims.WF S1024x256 S256x2048 S1024x2048 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S2x256x256.size a
  hwx0_1 : ∀ i : grid0.Coords, EltTy.bits .f32 = 32 ∨ (Rect.block (s := S2x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x256.size a ≤ S2x8x256.size a
  hwx0_2 : ∀ i : grid0.Coords, EltTy.bits .f32 = 32 ∨ (Rect.block (s := S2x8x256) S1x8x256.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x256x256.size a ≤ S2x256x256.size a
  hwx1_0 : ∀ i : grid1.Coords, EltTy.bits .f32 = 32 ∨ (Rect.block (s := S2x256x256) S2x256x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x8x256.size a ≤ S2x8x256.size a
  hwx1_1 : ∀ i : grid1.Coords, EltTy.bits .f32 = 32 ∨ (Rect.block (s := S2x8x256) S2x8x256.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S256x2048.size a
  hwx1_2 : ∀ i : grid1.Coords, EltTy.bits .bf16 = 32 ∨ (Rect.block (s := S256x2048) S256x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x1024.size a ≤ S8x1024.size a
  hwx1_3 : ∀ i : grid1.Coords, EltTy.bits .f32 = 32 ∨ (Rect.block (s := S8x1024) S8x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S16384x256.size a
  hwx2_0 : ∀ i : grid2.Coords, EltTy.bits .f32 = 32 ∨ (Rect.block (s := S16384x256) S1024x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x2048.size a ≤ S256x2048.size a
  hwx2_1 : ∀ i : grid2.Coords, EltTy.bits .bf16 = 32 ∨ (Rect.block (s := S256x2048) S256x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S1024x1024.size a
  hwx2_2 : ∀ i : grid2.Coords, EltTy.bits .bf16 = 32 ∨ (Rect.block (s := S1024x1024) S1024x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8x1024.size a ≤ S8x1024.size a
  hwx2_3 : ∀ i : grid2.Coords, EltTy.bits .f32 = 32 ∨ (Rect.block (s := S8x1024) S8x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S8x1024.size a ≤ S8x1024.size a
  hwx2_4 : ∀ i : grid2.Coords, EltTy.bits .f32 = 32 ∨ (Rect.block (s := S8x1024) S8x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S16384x1024.size a
  hwx2_5 : ∀ i : grid2.Coords, EltTy.bits .f32 = 32 ∨ (Rect.block (s := S16384x1024) S1024x1024.size (cc2_transform_5 i) (hinb2_5 i)).WholeWords (EltTy.packing .f32)

variable [Facts₀]

def scatter_S8x1024_S1_S1024_0_0_0_0 : ScatterDims S8x1024 S1 S1024 where
  updateWindowDims := [0]
  insertedWindowDims := [0]
  scatterDimsToOperandDims := [0]
  indexVectorDim := 0
  wf := scatter_S8x1024_S1_S1024_0_0_0_0_wf
def dot_S2048x256_S2048x256_S256x256_0_0_1_1_n_n : DotDims S2048x256 S2048x256 S256x256 where
  lhsContracting := [0]
  rhsContracting := [0]
  lhsNonContracting := [1]
  rhsNonContracting := [1]
  lhsBatch := []
  rhsBatch := []
  wf := dot_S2048x256_S2048x256_S256x256_0_0_1_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S8x256_S256x1024_S8x1024_1_0_0_1_n_n : DotDims S8x256 S256x1024 S8x1024 where
  lhsContracting := [1]
  rhsContracting := [0]
  lhsNonContracting := [0]
  rhsNonContracting := [1]
  lhsBatch := []
  rhsBatch := []
  wf := dot_S8x256_S256x1024_S8x1024_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18_0) S1x256x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18_1) S1x8x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18_0) S2x256x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v18_1) S2x8x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S256x1024.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S8x1024.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S256x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1024x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S8x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S8x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v20) S1024x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S16384x256 : Shape := ⟨2, ![16384, 256]⟩
abbrev S1024x256 : Shape := ⟨2, ![1024, 256]⟩
abbrev S1024x1024 : Shape := ⟨2, ![1024, 1024]⟩
abbrev S1024 : Shape := ⟨1, ![1024]⟩
abbrev S256x1024 : Shape := ⟨2, ![256, 1024]⟩
abbrev S256x2048 : Shape := ⟨2, ![256, 2048]⟩
abbrev S_ : Shape := ⟨0, ![]⟩
abbrev S8x1024 : Shape := ⟨2, ![8, 1024]⟩
abbrev S1 : Shape := ⟨1, ![1]⟩
abbrev S2x16x1024 : Shape := ⟨3, ![2, 16, 1024]⟩
abbrev S512x256 : Shape := ⟨2, ![512, 256]⟩
abbrev S1x16x1024 : Shape := ⟨3, ![1, 16, 1024]⟩
abbrev S16x1024 : Shape := ⟨2, ![16, 1024]⟩
abbrev S512x1024 : Shape := ⟨2, ![512, 1024]⟩
abbrev S64x8x1024 : Shape := ⟨3, ![64, 8, 1024]⟩
abbrev S1x8x1024 : Shape := ⟨3, ![1, 8, 1024]⟩
abbrev S16384x1024 : Shape := ⟨2, ![16384, 1024]⟩
abbrev S512x2048 : Shape := ⟨2, ![512, 2048]⟩
abbrev S1x1024 : Shape := ⟨2, ![1, 1024]⟩
abbrev S512 : Shape := ⟨1, ![512]⟩
abbrev S512x1 : Shape := ⟨2, ![512, 1]⟩

abbrev nBuf : Space → Nat
  | .hbm => 63
  | .vmem => 12
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024x1024, .f32⟩
  | .hbm, ⟨3, _⟩ => ⟨S1024, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S256x1024, .f32⟩
  | .hbm, ⟨11, _⟩ => ⟨S256x1024, .f32⟩
  | .hbm, ⟨12, _⟩ => ⟨S256x2048, .f32⟩
  | .hbm, ⟨13, _⟩ => ⟨S1024x1024, .f32⟩
  | .hbm, ⟨14, _⟩ => ⟨S_, .f32⟩
  | .hbm, ⟨15, _⟩ => ⟨S8x1024, .f32⟩
  | .hbm, ⟨16, _⟩ => ⟨S1024, .f32⟩
  | .hbm, ⟨17, _⟩ => ⟨S_, .i32⟩
  | .hbm, ⟨18, _⟩ => ⟨S1, .i32⟩
  | .hbm, ⟨19, _⟩ => ⟨S8x1024, .f32⟩
  | .hbm, ⟨20, _⟩ => ⟨S_, .i32⟩
  | .hbm, ⟨21, _⟩ => ⟨S1, .i32⟩
  | .hbm, ⟨22, _⟩ => ⟨S8x1024, .f32⟩
  | .hbm, ⟨23, _⟩ => ⟨S_, .i32⟩
  | .hbm, ⟨24, _⟩ => ⟨S1, .i32⟩
  | .hbm, ⟨25, _⟩ => ⟨S8x1024, .f32⟩
  | .hbm, ⟨26, _⟩ => ⟨S_, .i32⟩
  | .hbm, ⟨27, _⟩ => ⟨S1, .i32⟩
  | .hbm, ⟨28, _⟩ => ⟨S8x1024, .f32⟩
  | .hbm, ⟨29, _⟩ => ⟨S_, .i32⟩
  | .hbm, ⟨30, _⟩ => ⟨S1, .i32⟩
  | .hbm, ⟨31, _⟩ => ⟨S8x1024, .f32⟩
  | .hbm, ⟨32, _⟩ => ⟨S2x16x1024, .f32⟩
  | .hbm, ⟨33, _⟩ => ⟨S_, .f32⟩
  | .hbm, ⟨34, _⟩ => ⟨S16x1024, .f32⟩
  | .hbm, ⟨35, _⟩ => ⟨S8x1024, .f32⟩
  | .hbm, ⟨36, _⟩ => ⟨S_, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S8x1024, .f32⟩
  | .hbm, ⟨42, _⟩ => ⟨S_, .f32⟩
  | .hbm, ⟨43, _⟩ => ⟨S1024, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S_, .i32⟩
  | .hbm, ⟨57, _⟩ => ⟨S1, .i32⟩
  | .hbm, ⟨58, _⟩ => ⟨S8x1024, .f32⟩
  | .hbm, ⟨59, _⟩ => ⟨S_, .i32⟩
  | .hbm, ⟨60, _⟩ => ⟨S1, .i32⟩
  | .hbm, ⟨61, _⟩ => ⟨S8x1024, .f32⟩
  | .hbm, ⟨62, _⟩ => ⟨S16384x1024, .f32⟩
  | .local _ .vmem, ⟨0, _⟩ => ⟨S512x256, .f32⟩
  | .local _ .vmem, ⟨1, _⟩ => ⟨S512x256, .f32⟩
  | .local _ .vmem, ⟨2, _⟩ => ⟨S256x1024, .f32⟩
  | .local _ .vmem, ⟨3, _⟩ => ⟨S1x16x1024, .f32⟩
  | .local _ .vmem, ⟨4, _⟩ => ⟨S1x16x1024, .f32⟩
  | .local _ .vmem, ⟨5, _⟩ => ⟨S512x256, .f32⟩
  | .local _ .vmem, ⟨6, _⟩ => ⟨S512x256, .f32⟩
  | .local _ .vmem, ⟨7, _⟩ => ⟨S256x2048, .f32⟩
  | .local _ .vmem, ⟨8, _⟩ => ⟨S1024x1024, .f32⟩
  | .local _ .vmem, ⟨9, _⟩ => ⟨S8x1024, .f32⟩
  | .local _ .vmem, ⟨10, _⟩ => ⟨S512x1024, .f32⟩
  | .local _ .vmem, ⟨11, _⟩ => ⟨S512x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_cst_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_7 : Ref sig .tc := ⟨.hbm, 42, rfl⟩
abbrev main_v23 : Ref sig .tc := ⟨.hbm, 43, rfl⟩
abbrev main_cst_8 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_9 : Ref sig .tc := ⟨.hbm, 49, rfl⟩
abbrev main_v28 : Ref sig .tc := ⟨.hbm, 50, rfl⟩
abbrev main_v29 : Ref sig .tc := ⟨.hbm, 51, rfl⟩
abbrev main_cst_10 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_11 : Ref sig .tc := ⟨.hbm, 56, rfl⟩
abbrev main_v33 : Ref sig .tc := ⟨.hbm, 57, rfl⟩
abbrev main_v34 : Ref sig .tc := ⟨.hbm, 58, rfl⟩
abbrev main_c_12 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S1024x256_S256x1024_1_0 : S1024x256.Transposes [1, 0] S256x1024
  concatenates_S256x1024_S256x1024_S256x2048_d1 : Shape.Concatenates [S256x1024, S256x1024] S256x2048 1
  transposes_S1024x1024_S1024x1024_1_0 : S1024x1024.Transposes [1, 0] S1024x1024
  bcast_S_S8x1024 : S_.BroadcastsInDim S8x1024 (![] : Fin 0 → Fin S8x1024.rank)
  bcast_S_S1 : S_.BroadcastsInDim S1 (![] : Fin 0 → Fin S1.rank)
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  shapeCasts_S16x1024_S1x16x1024 : S16x1024.ShapeCasts S1x16x1024
  inb_S512x256_S512x256_0_0 : ∀ a, (![0, 0] : Fin 2 → Nat) a + S512x256.size a ≤ S512x256.size a
  h_S512x256 : 0 < S512x256.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S512x1024_S64x8x1024 : S512x1024.ShapeCasts S64x8x1024
  inb_S1x16x1024_S1x8x1024_0_0_0 : ∀ a, (![0, 0, 0] : Fin 3 → Nat) a + S1x8x1024.size a ≤ S1x16x1024.size a
  h_S1x8x1024 : 0 < S1x8x1024.numel
  shapeCasts_S1x8x1024_S8x1024 : S1x8x1024.ShapeCasts S8x1024
  reduces_S64x8x1024_S8x1024 : S64x8x1024.Reduces [0] S8x1024
  shapeCasts_S8x1024_S1x8x1024 : S8x1024.ShapeCasts S1x8x1024
  inb_S1x16x1024_S1x8x1024_0_8_0 : ∀ a, (![0, 8, 0] : Fin 3 → Nat) a + S1x8x1024.size a ≤ S1x16x1024.size a
  reducesTo_S2x16x1024_S16x1024_d0 : S2x16x1024.ReducesTo [0] S16x1024
  h_S_ : 0 < S_.numel
  slices_S16x1024_S8x1024_0_0 : S16x1024.Slices ![0, 0] S8x1024
  reducesTo_S8x1024_S1024_d0 : S8x1024.ReducesTo [0] S1024
  bcast_S_S1024 : S_.BroadcastsInDim S1024 (![] : Fin 0 → Fin S1024.rank)
  slices_S16x1024_S8x1024_8_0 : S16x1024.Slices ![8, 0] S8x1024
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  slices_S512x2048_o0_0_S512x1024 : S512x2048.Slices ![0, 0] S512x1024
  slices_S512x2048_o0_1024_S512x1024 : S512x2048.Slices ![0, 1024] S512x1024
  inb_S8x1024_S1x1024_0_0 : ∀ a, (![0, 0] : Fin 2 → Nat) a + S1x1024.size a ≤ S8x1024.size a
  h_S1x1024 : 0 < S1x1024.numel
  shapeCasts_S1x1024_S1x1024 : S1x1024.ShapeCasts S1x1024
  inb_S8x1024_S1x1024_1_0 : ∀ a, (![1, 0] : Fin 2 → Nat) a + S1x1024.size a ≤ S8x1024.size a
  inb_S8x1024_S1x1024_2_0 : ∀ a, (![2, 0] : Fin 2 → Nat) a + S1x1024.size a ≤ S8x1024.size a
  inb_S8x1024_S1x1024_3_0 : ∀ a, (![3, 0] : Fin 2 → Nat) a + S1x1024.size a ≤ S8x1024.size a
  inb_S8x1024_S1x1024_4_0 : ∀ a, (![4, 0] : Fin 2 → Nat) a + S1x1024.size a ≤ S8x1024.size a
  inb_S8x1024_S1x1024_5_0 : ∀ a, (![5, 0] : Fin 2 → Nat) a + S1x1024.size a ≤ S8x1024.size a
  inb_S8x1024_S1x1024_6_0 : ∀ a, (![6, 0] : Fin 2 → Nat) a + S1x1024.size a ≤ S8x1024.size a
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S512x1024_S512 : S512x1024.Reduces [1] S512
  shapeCasts_S512_S512x1 : S512.ShapeCasts S512x1
  broadcasts_S512x1_S512x1024 : S512x1.Broadcasts S512x1024
  inb_S512x1024_S512x1024_0_0 : ∀ a, (![0, 0] : Fin 2 → Nat) a + S512x1024.size a ≤ S512x1024.size a
  h_S512x1024 : 0 < S512x1024.numel
  scatter_S8x1024_S1_S1024_0_0_0_0_wf : ScatterDims.WF S8x1024 S1 S1024 [0] [0] [0] 0
  dot_S512x256_S256x1024_S512x1024_1_0_0_1_n_n_wf : DotDims.WF S512x256 S256x1024 S512x1024 [1] [0] [0] [1] [] []
  dot_S512x256_S256x2048_S512x2048_1_0_0_1_n_n_wf : DotDims.WF S512x256 S256x2048 S512x2048 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1024.size a ≤ S2x16x1024.size a
  hwx0_2 : ∀ i : grid0.Coords, EltTy.bits .f32 = 32 ∨ (Rect.block (s := S2x16x1024) S1x16x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S16384x256.size a
  hwx1_0 : ∀ i : grid1.Coords, EltTy.bits .f32 = 32 ∨ (Rect.block (s := S16384x256) S512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S256x2048.size a
  hwx1_1 : ∀ i : grid1.Coords, EltTy.bits .f32 = 32 ∨ (Rect.block (s := S256x2048) S256x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .f32 = 32 ∨ (Rect.block (s := S1024x1024) S1024x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x1024.size a ≤ S8x1024.size a
  hwx1_3 : ∀ i : grid1.Coords, EltTy.bits .f32 = 32 ∨ (Rect.block (s := S8x1024) S8x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S16384x1024.size a
  hwx1_4 : ∀ i : grid1.Coords, EltTy.bits .f32 = 32 ∨ (Rect.block (s := S16384x1024) S512x1024.size (cc1_transform_4 i) (hinb1_4 i)).WholeWords (EltTy.packing .f32)

variable [Facts₀]

def scatter_S8x1024_S1_S1024_0_0_0_0 : ScatterDims S8x1024 S1 S1024 where
  updateWindowDims := [0]
  insertedWindowDims := [0]
  scatterDimsToOperandDims := [0]
  indexVectorDim := 0
  wf := scatter_S8x1024_S1_S1024_0_0_0_0_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x16x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S256x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S8x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== Proof.Spec.lean ====
/-
  The mathematics of the block, stated once over the extended reals and shared by both programs.

  Input rows x_n (256 features).  Hidden pre-activations h[n,u] = Σ_f x[n,f]·w[f,u]; batch statistics over the
  16384 rows: the mean of h[·,u] and the mean of h[·,u]²; inverse standard deviation
  (max(E[h²] − mean², 0) + ε)^(−1/2); then per row: batch-norm, ReLU, the second linear layer plus the shortcut and
  the fused bias, and a layer normalisation over the 1024 units.

  The two programs differ only in how the two batch statistics are accumulated:
  * one accumulates, per half of the batch, the Gram matrix C[f,g] = Σ_n x[n,f]·x[n,g] and per-sublane row sums
    rs[s,f] = Σ_{n ≡ s (mod 8)} x[n,f], and afterwards forms Σ_f w[f,u]·Σ_g C[f,g]·w[g,u] and Σ_s Σ_f rs[s,f]·w[f,u],
    each times 2⁻¹⁴;
  * the other accumulates, per half and per sublane, Σ h[n,u] and Σ h[n,u]², and afterwards divides the sums by 16384.
  Over finite reals these are the same numbers (sums re-indexed, products distributed over sums); the rest of the
  computation is the same function of them.
-/
import Idealize.ShloMosaic.PureOps.Ideal
import Idealize.ShloMosaic.Lib.ValueIdx

noncomputable section

open scoped BigOperators

namespace Cert.Spec

open Idealize.ShloMosaic

/-- A matrix of extended reals, by coordinates. -/
abbrev Mat (a b : ℕ) : Type := Fin a → Fin b → EReal

/-- ε = 1e-5 as the f32 both programs carry. -/
abbrev epsW : EReal := Ideal.ofBits .f32 0x3727C5AC#32
/-- 2⁻¹⁴ = 1/16384, the factor one program multiplies by; -/
abbrev invNW : EReal := Ideal.ofBits .f32 0x38800000#32
/-- 16384, the divisor the other divides by; -/
abbrev nW : EReal := Ideal.ofBits .f32 0x46800000#32
/-- 1024, the layer normalisation's divisor. -/
abbrev dW : EReal := Ideal.ofBits .f32 0x44800000#32

/-! ## Columns of the fused weight matrix [W1ᵀ | Wsᵀ] -/

/-- Column u of the first half (the hidden layer's weights). -/
def colH (u : Fin 1024) : Fin 2048 := ⟨u.val, by have := u.isLt; omega⟩
/-- Column u of the second half (the shortcut's weights). -/
def colS (u : Fin 1024) : Fin 2048 := ⟨1024 + u.val, by have := u.isLt; omega⟩

/-! ## The per-row tail: batch-norm, ReLU, second layer, shortcut, bias, layer norm -/

/-- Batch-norm of one hidden value followed by ReLU. -/
def bnrelu (h mean istd g b : EReal) : EReal := max ((h - mean) * (istd * g) + b) 0

/-- The pre-normalisation row: Σ_k relu(bn(h_k))·w2t[k,u] + s_u + bias_u. -/
def fRow (hrow srow : Fin 1024 → EReal) (w2t : Mat 1024 1024) (bias bng bnb mean istd : Fin 1024 → EReal)
    (u : Fin 1024) : EReal :=
  (∑ k : Fin 1024, bnrelu (hrow k) (mean k) (istd k) (bng k) (bnb k) * w2t k u) + srow u + bias u

/-- Layer normalisation of a row f over its 1024 entries, then the affine map. -/
def lnRow (f lng lnb : Fin 1024 → EReal) (u : Fin 1024) : EReal :=
  (f u - Ideal.div (∑ v : Fin 1024, f v) dW)
    * Ideal.rsqrt (Ideal.div (∑ v : Fin 1024,
        (f v - Ideal.div (∑ v' : Fin 1024, f v') dW) * (f v - Ideal.div (∑ v' : Fin 1024, f v') dW)) dW + epsW)
    * lng u + lnb u

/-- One output row from one input row x (256 features), the packed weights, the per-unit vectors and the two batch
    statistics. -/
def applyOut (x : Fin 256 → EReal) (wfeat : Mat 256 2048) (w2t : Mat 1024 1024)
    (bias bng bnb lng lnb mean istd : Fin 1024 → EReal) (u : Fin 1024) : EReal :=
  lnRow (fRow (fun k => ∑ f : Fin 256, x f * wfeat f (colH k)) (fun k => ∑ f : Fin 256, x f * wfeat f (colS k))
    w2t bias bng bnb mean istd) lng lnb u

/-- Inverse standard deviation from the second moment and the mean. -/
def istdOf (e2 mean : EReal) : EReal := Ideal.rsqrt (max (e2 - mean * mean) 0 + epsW)

/-! ## Statistics through the Gram matrix (tiles of 2048 rows, two halves of four tiles) -/

/-- Row r of tile i of half cc. -/
def rowK (cc : Fin 2) (i : Fin 4) (r : Fin 2048) : Fin 16384 :=
  ⟨(cc.val * 4 + i.val) * 2048 + r.val, by have := cc.isLt; have := i.isLt; have := r.isLt; omega⟩
/-- Row q·8 + s of a tile: sublane s of vreg row q. -/
def subK (q : Fin 256) (s : Fin 8) : Fin 2048 := ⟨q.val * 8 + s.val, by have := q.isLt; have := s.isLt; omega⟩

/-- Half cc's Gram matrix. -/
def gramPart (feat : Mat 16384 256) (cc : Fin 2) (f g : Fin 256) : EReal :=
  ∑ i : Fin 4, ∑ r : Fin 2048, feat (rowK cc i r) f * feat (rowK cc i r) g
/-- Half cc's per-sublane row sums. -/
def rsPart (feat : Mat 16384 256) (cc : Fin 2) (s : Fin 8) (f : Fin 256) : EReal :=
  ∑ i : Fin 4, ∑ q : Fin 256, feat (rowK cc i (subK q s)) f

/-- The batch mean of h[·,u] from the row sums. -/
def meanK (rs : Fin 2 → Fin 8 → Fin 256 → EReal) (w : Mat 256 1024) (u : Fin 1024) : EReal :=
  (∑ s : Fin 8, ∑ f : Fin 256, (rs 0 s f + rs 1 s f) * w f u) * invNW
/-- The batch mean of h[·,u]² from the Gram matrices. -/
def e2K (C : Fin 2 → Fin 256 → Fin 256 → EReal) (w : Mat 256 1024) (u : Fin 1024) : EReal :=
  (∑ f : Fin 256, w f u * ∑ g : Fin 256, (C 0 f g + C 1 f g) * w g u) * invNW

/-! ## Statistics accumulated directly (tiles of 512 rows, two halves of sixteen tiles) -/

/-- Row r of tile i of half cc. -/
def rowR (cc : Fin 2) (i : Fin 16) (r : Fin 512) : Fin 16384 :=
  ⟨(cc.val * 16 + i.val) * 512 + r.val, by have := cc.isLt; have := i.isLt; have := r.isLt; omega⟩
/-- Row q·8 + s of a tile. -/
def subR (q : Fin 64) (s : Fin 8) : Fin 512 := ⟨q.val * 8 + s.val, by have := q.isLt; have := s.isLt; omega⟩
/-- Rows 0–7 of the sixteen-row accumulator hold sums, -/
def lo (s : Fin 8) : Fin 16 := ⟨s.val, by have := s.isLt; omega⟩
/-- rows 8–15 sums of squares. -/
def hi (s : Fin 8) : Fin 16 := ⟨8 + s.val, by have := s.isLt; omega⟩

/-- The hidden pre-activation. -/
def hidden (feat : Mat 16384 256) (w : Mat 256 1024) (n : Fin 16384) (u : Fin 1024) : EReal :=
  ∑ f : Fin 256, feat n f * w f u

/-- Half cc's per-sublane sums of h, -/
def sumPartR (feat : Mat 16384 256) (w : Mat 256 1024) (cc : Fin 2) (s : Fin 8) (u : Fin 1024) : EReal :=
  ∑ i : Fin 16, ∑ q : Fin 64, hidden feat w (rowR cc i (subR q s)) u
/-- and of h². -/
def sqPartR (feat : Mat 16384 256) (w : Mat 256 1024) (cc : Fin 2) (s : Fin 8) (u : Fin 1024) : EReal :=
  ∑ i : Fin 16, ∑ q : Fin 64, hidden feat w (rowR cc i (subR q s)) u * hidden feat w (rowR cc i (subR q s)) u

/-- The halves and sublanes summed and divided by the batch size. -/
def avgR (P : Fin 2 → Fin 8 → Fin 1024 → EReal) (u : Fin 1024) : EReal :=
  Ideal.div (∑ s : Fin 8, ∑ cc : Fin 2, P cc s u) nW

end Cert.Spec

end
-- ==== Proof.K0Value.lean ====
import proofs.«160323_g2000403857960831_pallasbulk_229_4_alg».proof.Proof.Gen.KernelIdeal.Frame
import proofs.«160323_g2000403857960831_pallasbulk_229_4_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)
open Cert.Spec

namespace Cert.KernelIdeal.GramValue

open Cert.KernelIdeal Cert.KernelIdeal.Gen

/-!
# The Gram kernel's two arrays after its region

The region runs over eight points t = 4·cc + i, two halves cc of four tiles i; tile t is rows 2048·t … 2048·t + 2047 of the
input x. Each half carries one 256 × 256 block C and one 8 × 256 block rs through its four points: the half's first point
zeroes both and adds its tile's contribution, each later point adds its tile's contribution to what the point before left, and
the half's last point writes both blocks back. A tile's contribution to C at (f, g) is Σ_r x[r,f]·x[r,g] over its rows, and to
rs at (s, f) it is Σ_q x[8q+s, f]. So block cc of the first array ends as Σ_i Σ_r x[row,f]·x[row,g] over the half's rows, and
block cc of the second as Σ_i Σ_q x[row 8q+s of tile i, f]: sums in the extended reals, where 0 + a = a and + is associative
and commutative, so no finiteness of the entries is used.
-/

section Pieces

variable {F : FTy → Type} [FloatOps F]

/-- Zero offsets on three axes, and on two. -/
theorem hz3 : (![0, 0, 0] : Fin 3 → Nat) = fun _ => 0 := funext fun a => by fin_cases a <;> rfl
theorem hz2 : (![0, 0] : Fin 2 → Nat) = fun _ => 0 := funext fun a => by fin_cases a <;> rfl

/-- At a point that does not reset, the Gram block is left at the update computed from the tile and from what the block held; -/
theorem pieceB1 (c : Dev nD) (i : grid0.Coords) (a2 : Memref sig .tc .vmem S2048x256 .f32) (h2 : a2.IsWhole)
    (a3 : Memref sig .tc .vmem S1x256x256 .f32) (h3 : a3.IsWhole) (a4 : Memref sig .tc .vmem S1x8x256 .f32) (h4 : a4.IsWhole)
    (hc : ¬cond0_0 i) (x : Vec F S2048x256 .f32) (xo1 : Vec F S1x256x256 .f32) (xo2 : Vec F S1x8x256 .f32) :
    out0_B_1 c i a2 h2 a3 h3 a4 h4 hc x xo1 xo2 = k0_pay3 x xo1 := by
  unfold out0_B_1
  rw [View.read_writes_eq_canon _ _ _ (cover0_B_1 c i a2 h2 a3 h3 a4 h4 hc x xo1 xo2)]
  unfold kernelRun0_B
  dsimp only
  sl_unfold_words
  rw [View.canon_unit_zero hz3]
  simp only [View.readAt_eq_ld, h2.read_unread, h3.read_unread, View.ld_unit_zero (S := S2048x256) hz2,
    View.ld_unit_zero (S := S1x256x256) hz3]

/-- the row-sum block likewise. -/
theorem pieceB2 (c : Dev nD) (i : grid0.Coords) (a2 : Memref sig .tc .vmem S2048x256 .f32) (h2 : a2.IsWhole)
    (a3 : Memref sig .tc .vmem S1x256x256 .f32) (h3 : a3.IsWhole) (a4 : Memref sig .tc .vmem S1x8x256 .f32) (h4 : a4.IsWhole)
    (hc : ¬cond0_0 i) (x : Vec F S2048x256 .f32) (xo1 : Vec F S1x256x256 .f32) (xo2 : Vec F S1x8x256 .f32) :
    out0_B_2 c i a2 h2 a3 h3 a4 h4 hc x xo1 xo2 = k0_pay4 x xo2 := by
  unfold out0_B_2
  rw [View.read_writes_eq_canon _ _ _ (cover0_B_2 c i a2 h2 a3 h3 a4 h4 hc x xo1 xo2)]
  unfold kernelRun0_B
  dsimp only
  sl_unfold_words
  rw [View.canon_unit_zero hz3]
  simp only [View.readAt_eq_ld, h2.read_unread, h4.read_unread, View.ld_unit_zero (S := S2048x256) hz2,
    View.ld_unit_zero (S := S1x8x256) hz3]

/-- At a point that resets, the block is first zeroed and the update is computed from the tile and the zero block: the Gram block, -/
theorem pieceA1 (c : Dev nD) (i : grid0.Coords) (a2 : Memref sig .tc .vmem S2048x256 .f32) (h2 : a2.IsWhole)
    (a3 : Memref sig .tc .vmem S1x256x256 .f32) (h3 : a3.IsWhole) (a4 : Memref sig .tc .vmem S1x8x256 .f32) (h4 : a4.IsWhole)
    (hc : cond0_0 i) (x : Vec F S2048x256 .f32) :
    out0_A_1 c i a2 h2 a3 h3 a4 h4 hc x = k0_pay3 x (k0_pay1 (F := F)) := by
  unfold out0_A_1
  rw [View.read_writes_eq_canon _ _ _ (cover0_A_1 c i a2 h2 a3 h3 a4 h4 hc x)]
  unfold kernelRun0_A
  dsimp only
  sl_unfold_words
  rw [View.canon_cons_unit_zero (S := S1x256x256) hz3, View.readCov_unit_zero (S := S1x256x256) _ hz3]
  simp only [View.readAt_eq_ld, h2.read_unread, View.ld_unit_zero (S := S2048x256) hz2]

/-- and the row-sum block. -/
theorem pieceA2 (c : Dev nD) (i : grid0.Coords) (a2 : Memref sig .tc .vmem S2048x256 .f32) (h2 : a2.IsWhole)
    (a3 : Memref sig .tc .vmem S1x256x256 .f32) (h3 : a3.IsWhole) (a4 : Memref sig .tc .vmem S1x8x256 .f32) (h4 : a4.IsWhole)
    (hc : cond0_0 i) (x : Vec F S2048x256 .f32) :
    out0_A_2 c i a2 h2 a3 h3 a4 h4 hc x = k0_pay4 x (k0_pay2 (F := F)) := by
  unfold out0_A_2
  rw [View.read_writes_eq_canon _ _ _ (cover0_A_2 c i a2 h2 a3 h3 a4 h4 hc x)]
  unfold kernelRun0_A
  dsimp only
  sl_unfold_words
  rw [View.canon_cons_unit_zero (S := S1x8x256) hz3, View.readCov_unit_zero (S := S1x8x256) _ hz3]
  simp only [View.readAt_eq_ld, h2.read_unread, View.ld_unit_zero (S := S2048x256) hz2]

end Pieces

/-! ## The updates read at an index, over the extended reals

The product contracts axis 0 of both operands: output index (f, g) and contraction index r read the left operand at (r, f)
and the right one at (r, g). -/

/-- The left operand's index: the contraction coordinate on axis 0, -/
theorem lhs_0 (i : S256x256.Idx) (q : dot_S2048x256_S2048x256_S256x256_0_0_1_1_n_n.contr.Idx) :
    (dot_S2048x256_S2048x256_S256x256_0_0_1_1_n_n.lhsIdx i q 0).val = (q ⟨0, by decide⟩).val :=
  dot_S2048x256_S2048x256_S256x256_0_0_1_1_n_n.lhsIdx_val_of_single rfl i q
/-- the output's first coordinate on axis 1. -/
theorem lhs_1 (i : S256x256.Idx) (q : dot_S2048x256_S2048x256_S256x256_0_0_1_1_n_n.contr.Idx) :
    (dot_S2048x256_S2048x256_S256x256_0_0_1_1_n_n.lhsIdx i q 1).val = (i 0).val := by
  unfold DotDims.lhsIdx
  rw [dif_neg (show ¬(1 : Fin S2048x256.rank) ∈ dot_S2048x256_S2048x256_S256x256_0_0_1_1_n_n.lhsBatch by decide),
    dif_pos (show (1 : Fin S2048x256.rank) ∈ dot_S2048x256_S2048x256_S256x256_0_0_1_1_n_n.lhsNonContracting by decide)]
  rfl
/-- The right operand's index: the contraction coordinate on axis 0, -/
theorem rhs_0 (i : S256x256.Idx) (q : dot_S2048x256_S2048x256_S256x256_0_0_1_1_n_n.contr.Idx) :
    (dot_S2048x256_S2048x256_S256x256_0_0_1_1_n_n.rhsIdx i q 0).val = (q ⟨0, by decide⟩).val :=
  dot_S2048x256_S2048x256_S256x256_0_0_1_1_n_n.rhsIdx_val_of_single rfl i q
/-- the output's second coordinate on axis 1. -/
theorem rhs_1 (i : S256x256.Idx) (q : dot_S2048x256_S2048x256_S256x256_0_0_1_1_n_n.contr.Idx) :
    (dot_S2048x256_S2048x256_S256x256_0_0_1_1_n_n.rhsIdx i q 1).val = (i 1).val := by
  unfold DotDims.rhsIdx
  rw [dif_neg (show ¬(1 : Fin S2048x256.rank) ∈ dot_S2048x256_S2048x256_S256x256_0_0_1_1_n_n.rhsBatch by decide),
    dif_pos (show (1 : Fin S2048x256.rank) ∈ dot_S2048x256_S2048x256_S256x256_0_0_1_1_n_n.rhsNonContracting by decide)]
  rfl

/-- The product of the transposed block with the block, at (f, g): the sum over the block's rows. -/
theorem gram_apply (x : FVec Ideal S2048x256 .bf16) (f g : Fin 256) :
    matmul dot_S2048x256_S2048x256_S256x256_0_0_1_1_n_n none x x (constant S256x256 .f32 0x00000000#32) (ix2 f g)
      = ∑ r : Fin 2048, x (ix2 r f) * x (ix2 r g) := by
  refine (Ideal.matmul_constant_zero_apply dot_S2048x256_S2048x256_S256x256_0_0_1_1_n_n none x x (ix2 f g)).trans ?_
  rw [← Equiv.sum_comp (contrEquiv1 dot_S2048x256_S2048x256_S256x256_0_0_1_1_n_n 2048 rfl rfl).symm]
  refine Finset.sum_congr rfl fun k _ => ?_
  have hk := contrEquiv1_symm_val dot_S2048x256_S2048x256_S256x256_0_0_1_1_n_n 2048 rfl rfl k
  have el : dot_S2048x256_S2048x256_S256x256_0_0_1_1_n_n.lhsIdx (ix2 f g)
      ((contrEquiv1 dot_S2048x256_S2048x256_S256x256_0_0_1_1_n_n 2048 rfl rfl).symm k) = ix2 k f :=
    funext fun a => Fin.ext (by
      match a with
      | ⟨0, _⟩ => exact (lhs_0 _ _).trans hk
      | ⟨1, _⟩ => exact lhs_1 _ _)
  have er : dot_S2048x256_S2048x256_S256x256_0_0_1_1_n_n.rhsIdx (ix2 f g)
      ((contrEquiv1 dot_S2048x256_S2048x256_S256x256_0_0_1_1_n_n 2048 rfl rfl).symm k) = ix2 k g :=
    funext fun a => Fin.ext (by
      match a with
      | ⟨0, _⟩ => exact (rhs_0 _ _).trans hk
      | ⟨1, _⟩ => exact rhs_1 _ _)
  rw [el, er]

/-- The updated Gram block at (0, f, g): what was there plus the sum over the tile's rows of the products. -/
theorem pay3_apply (x : Vec Ideal S2048x256 .f32) (xo1 : Vec Ideal S1x256x256 .f32) (f g : Fin 256) :
    k0_pay3 (F := Ideal) x xo1 (ix3 (0 : Fin 1) f g) = xo1 (ix3 (0 : Fin 1) f g) + ∑ r : Fin 2048, x (ix2 r f) * x (ix2 r g) := by
  unfold k0_pay3
  refine (shapeCast_apply _ _ (ix3 (0 : Fin 1) f g) (ix2 f g) ?_).trans ?_
  · rw [Shape.rowMajor_val_two, Shape.rowMajor_val_three]
    show f.val * 256 + g.val = ((0 : ℕ) * 256 + f.val) * 256 + g.val
    omega
  refine congrArg₂ (· + ·) ?_ ?_
  · refine shapeCast_apply _ _ (ix2 f g) (ix3 (0 : Fin 1) f g) ?_
    rw [Shape.rowMajor_val_two, Shape.rowMajor_val_three]
    show ((0 : ℕ) * 256 + f.val) * 256 + g.val = f.val * 256 + g.val
    omega
  · exact gram_apply _ f g

/-- The updated row-sum block at (0, s, f): what was there plus the sum over q of the tile's row 8q + s, the tile reshaped
    to (256, 8, 256) reading (q, s, f) at row 8q + s. -/
theorem pay4_apply (x : Vec Ideal S2048x256 .f32) (xo2 : Vec Ideal S1x8x256 .f32) (s : Fin 8) (f : Fin 256) :
    k0_pay4 (F := Ideal) x xo2 (ix3 (0 : Fin 1) s f) = xo2 (ix3 (0 : Fin 1) s f) + ∑ q : Fin 256, x (ix2 (subK q s) f) := by
  unfold k0_pay4
  refine (shapeCast_apply _ _ (ix3 (0 : Fin 1) s f) (ix2 s f) ?_).trans ?_
  · rw [Shape.rowMajor_val_two, Shape.rowMajor_val_three]
    show s.val * 256 + f.val = ((0 : ℕ) * 8 + s.val) * 256 + f.val
    omega
  refine congrArg₂ (· + ·) ?_ ?_
  · refine shapeCast_apply _ _ (ix2 s f) (ix3 (0 : Fin 1) s f) ?_
    rw [Shape.rowMajor_val_two, Shape.rowMajor_val_three]
    show ((0 : ℕ) * 8 + s.val) * 256 + f.val = s.val * 256 + f.val
    omega
  · refine (Ideal.multiReduction_add_single _ _ _ _ _ (ix2 s f)).trans ?_
    refine Finset.sum_congr rfl fun q _ => ?_
    refine shapeCast_apply _ _ _ (ix2 (subK q s) f) ?_
    rw [Shape.rowMajor_val_two, Shape.rowMajor_val_three]
    show (q.val * 8 + s.val) * 256 + f.val = (q.val * 8 + s.val) * 256 + f.val
    rfl
/-- The reset Gram block is zero everywhere. -/
theorem pay1_apply (f g : Fin 256) : k0_pay1 (F := Ideal) (ix3 (0 : Fin 1) f g) = 0 := by
  unfold k0_pay1
  refine (shapeCast_apply _ _ (ix3 (0 : Fin 1) f g) (ix2 f g) ?_).trans ?_
  · rw [Shape.rowMajor_val_two, Shape.rowMajor_val_three]
    show f.val * 256 + g.val = ((0 : ℕ) * 256 + f.val) * 256 + g.val
    omega
  exact Ideal.ofBits_zero_f32

/-- The reset row-sum block is zero everywhere. -/
theorem pay2_apply (s : Fin 8) (f : Fin 256) : k0_pay2 (F := Ideal) (ix3 (0 : Fin 1) s f) = 0 := by
  unfold k0_pay2
  refine (shapeCast_apply _ _ (ix3 (0 : Fin 1) s f) (ix2 s f) ?_).trans ?_
  · rw [Shape.rowMajor_val_two, Shape.rowMajor_val_three]
    show s.val * 256 + f.val = ((0 : ℕ) * 8 + s.val) * 256 + f.val
    omega
  exact Ideal.ofBits_zero_f32

/-! ## The tiles of the input -/

variable (V : (c : Dev nD) → (b : Ref sig .tc) → Buf (Elt Ideal) ((c : Thread nD τ).loc b))

/-- The input rows as the region finds them. -/
abbrev featOf (c : Dev nD) : Mat 16384 256 := fun n f => (V c main_arg0 : Vec Ideal S16384x256 .f32) (ix2 n f)

/-- The tile the body sees at point t. -/
abbrev tile (c : Dev nD) (t : Fin cfg0.N) : Vec Ideal S2048x256 .f32 := iblk0 V c 0 t

/-- The input window's block index at point t is (t, 0); -/
theorem idx0 : ∀ t : Fin cfg0.N, win0_0.index t (0 : Fin 2) = t.val ∧ win0_0.index t (1 : Fin 2) = 0 :=
  (by decide +kernel : ∀ t : Fin grid0.N, _)
/-- the Gram window's is (t / 4, 0, 0); -/
theorem idx1 : ∀ t : Fin cfg0.N, win0_1.index t (0 : Fin 3) = t.val / 4 ∧ win0_1.index t (1 : Fin 3) = 0
    ∧ win0_1.index t (2 : Fin 3) = 0 :=
  (by decide +kernel : ∀ t : Fin grid0.N, _)
/-- the row-sum window's is (t / 4, 0, 0). -/
theorem idx2 : ∀ t : Fin cfg0.N, win0_2.index t (0 : Fin 3) = t.val / 4 ∧ win0_2.index t (1 : Fin 3) = 0
    ∧ win0_2.index t (2 : Fin 3) = 0 :=
  (by decide +kernel : ∀ t : Fin grid0.N, _)

/-- Row r of the tile at point t is row 2048·t + r of the input. -/
theorem tile_apply (c : Dev nD) (t : Fin cfg0.N) (r : Fin 2048) (f : Fin 256) (n : Fin 16384)
    (hn : n.val = t.val * 2048 + r.val) : tile V c t (ix2 r f) = featOf V c n f := by
  have hi := idx0 t
  unfold tile iblk0
  rw [View.read_apply]
  show V c main_arg0 _ = V c main_arg0 _
  refine congrArg _ (funext fun a => Fin.ext ?_)
  match a with
  | ⟨0, _⟩ => show win0_0.index t 0 * 2048 + 1 * r.val = n.val; rw [hi.1, hn]; omega
  | ⟨1, _⟩ => show win0_0.index t 1 * 256 + 1 * f.val = f.val; rw [hi.2]; omega

/-! ## One point's step -/

/-- The tile's Gram matrix at (f, g), -/
abbrev tileGram (c : Dev nD) (t : Fin cfg0.N) (f g : Fin 256) : EReal :=
  ∑ r : Fin 2048, tile V c t (ix2 r f) * tile V c t (ix2 r g)
/-- and its per-sublane row sums at (s, f). -/
abbrev tileRs (c : Dev nD) (t : Fin cfg0.N) (s : Fin 8) (f : Fin 256) : EReal :=
  ∑ q : Fin 256, tile V c t (ix2 (subK q s) f)

/-- A half's first point leaves its tile's Gram matrix, -/
theorem gram_first (c : Dev nD) (t : Fin cfg0.N) (h0 : t.val % 4 = 0) (f g : Fin 256) :
    (outsAt0 V c t.val t.isLt).1 (ix3 (0 : Fin 1) f g) = tileGram V c t f g := by
  rw [outsAt0_A V c t h0]
  dsimp only
  refine (congrFun (pieceA1 (F := Ideal) c (grid0.coords t) (ms0_0 t) (hs0_0 t) (ms0_1 t) (hs0_1 t) (ms0_2 t) (hs0_2 t)
    ((hcond0_0 t).mpr h0) (iblk0 V c 0 t)) (ix3 (0 : Fin 1) f g)).trans ?_
  refine (pay3_apply _ _ f g).trans ?_
  rw [pay1_apply, zero_add]

/-- and its tile's row sums; -/
theorem rs_first (c : Dev nD) (t : Fin cfg0.N) (h0 : t.val % 4 = 0) (s : Fin 8) (f : Fin 256) :
    (outsAt0 V c t.val t.isLt).2 (ix3 (0 : Fin 1) s f) = tileRs V c t s f := by
  rw [outsAt0_A V c t h0]
  dsimp only
  refine (congrFun (pieceA2 (F := Ideal) c (grid0.coords t) (ms0_0 t) (hs0_0 t) (ms0_1 t) (hs0_1 t) (ms0_2 t) (hs0_2 t)
    ((hcond0_0 t).mpr h0) (iblk0 V c 0 t)) (ix3 (0 : Fin 1) s f)).trans ?_
  refine (pay4_apply _ _ s f).trans ?_
  rw [pay2_apply, zero_add]

/-- every later point adds its tile's to what the point before left. -/
theorem gram_next (c : Dev nD) (t : Fin cfg0.N) (h0 : ¬t.val % 4 = 0) (f g : Fin 256) :
    (outsAt0 V c t.val t.isLt).1 (ix3 (0 : Fin 1) f g)
      = (outsAt0 V c (t.val - 1) (Nat.lt_of_le_of_lt (Nat.sub_le _ _) t.isLt)).1 (ix3 (0 : Fin 1) f g)
        + tileGram V c t f g := by
  rw [outsAt0_B V c t h0]
  dsimp only
  exact (congrFun (pieceB1 (F := Ideal) c (grid0.coords t) (ms0_0 t) (hs0_0 t) (ms0_1 t) (hs0_1 t) (ms0_2 t) (hs0_2 t)
    (fun h => h0 ((hcond0_0 t).mp h)) (iblk0 V c 0 t)
    (outsAt0 V c (t.val - 1) (Nat.lt_of_le_of_lt (Nat.sub_le _ _) t.isLt)).1
    (outsAt0 V c (t.val - 1) (Nat.lt_of_le_of_lt (Nat.sub_le _ _) t.isLt)).2) (ix3 (0 : Fin 1) f g)).trans
    (pay3_apply _ _ f g)

theorem rs_next (c : Dev nD) (t : Fin cfg0.N) (h0 : ¬t.val % 4 = 0) (s : Fin 8) (f : Fin 256) :
    (outsAt0 V c t.val t.isLt).2 (ix3 (0 : Fin 1) s f)
      = (outsAt0 V c (t.val - 1) (Nat.lt_of_le_of_lt (Nat.sub_le _ _) t.isLt)).2 (ix3 (0 : Fin 1) s f)
        + tileRs V c t s f := by
  rw [outsAt0_B V c t h0]
  dsimp only
  exact (congrFun (pieceB2 (F := Ideal) c (grid0.coords t) (ms0_0 t) (hs0_0 t) (ms0_1 t) (hs0_1 t) (ms0_2 t) (hs0_2 t)
    (fun h => h0 ((hcond0_0 t).mp h)) (iblk0 V c 0 t)
    (outsAt0 V c (t.val - 1) (Nat.lt_of_le_of_lt (Nat.sub_le _ _) t.isLt)).1
    (outsAt0 V c (t.val - 1) (Nat.lt_of_le_of_lt (Nat.sub_le _ _) t.isLt)).2) (ix3 (0 : Fin 1) s f)).trans
    (pay4_apply _ _ s f)

/-! ## A half's accumulation -/

/-- What the outputs hold after a point depends on the point's number only. -/
theorem outs_congr (c : Dev nD) {u v : ℕ} (hu : u < cfg0.N) (hv : v < cfg0.N) (e : u = v) :
    outsAt0 V c u hu = outsAt0 V c v hv := by
  subst e; rfl

/-- After point 4q + i of half q the Gram block holds the sum of the Gram matrices of the half's first i + 1 tiles, -/
theorem gram_acc (c : Dev nD) (q : ℕ) (f g : Fin 256) : ∀ (i : ℕ) (hi : i < 4) (h : 4 * q + i < cfg0.N),
    (outsAt0 V c (4 * q + i) h).1 (ix3 (0 : Fin 1) f g)
      = ∑ s : Fin (i + 1), tileGram V c ⟨4 * q + s.val, by have := s.isLt; omega⟩ f g
  | 0, _, h => by
    refine (gram_first V c ⟨4 * q + 0, h⟩ (by show (4 * q + 0) % 4 = 0; omega) f g).trans ?_
    rw [Fin.sum_univ_castSucc (n := 0), Fin.sum_univ_zero, zero_add]
    rfl
  | i + 1, hi, h => by
    have hB : ¬(⟨4 * q + (i + 1), h⟩ : Fin cfg0.N).val % 4 = 0 := by
      show ¬(4 * q + (i + 1)) % 4 = 0
      omega
    refine (gram_next V c ⟨4 * q + (i + 1), h⟩ hB f g).trans ?_
    rw [Fin.sum_univ_castSucc (n := i + 1)]
    refine congrArg₂ (· + ·) ?_ rfl
    have e := outs_congr V c (Nat.lt_of_le_of_lt (Nat.sub_le _ _) (⟨4 * q + (i + 1), h⟩ : Fin cfg0.N).isLt)
      (Nat.lt_of_succ_lt h) (show 4 * q + (i + 1) - 1 = 4 * q + i by omega)
    refine (congrArg (fun p => p.1 (ix3 (0 : Fin 1) f g)) e).trans ?_
    exact gram_acc c q f g i (by omega) (Nat.lt_of_succ_lt h)

/-- and the row-sum block the sum of their row sums. -/
theorem rs_acc (c : Dev nD) (q : ℕ) (s : Fin 8) (f : Fin 256) : ∀ (i : ℕ) (hi : i < 4) (h : 4 * q + i < cfg0.N),
    (outsAt0 V c (4 * q + i) h).2 (ix3 (0 : Fin 1) s f)
      = ∑ k : Fin (i + 1), tileRs V c ⟨4 * q + k.val, by have := k.isLt; omega⟩ s f
  | 0, _, h => by
    refine (rs_first V c ⟨4 * q + 0, h⟩ (by show (4 * q + 0) % 4 = 0; omega) s f).trans ?_
    rw [Fin.sum_univ_castSucc (n := 0), Fin.sum_univ_zero, zero_add]
    rfl
  | i + 1, hi, h => by
    have hB : ¬(⟨4 * q + (i + 1), h⟩ : Fin cfg0.N).val % 4 = 0 := by
      show ¬(4 * q + (i + 1)) % 4 = 0
      omega
    refine (rs_next V c ⟨4 * q + (i + 1), h⟩ hB s f).trans ?_
    rw [Fin.sum_univ_castSucc (n := i + 1)]
    refine congrArg₂ (· + ·) ?_ rfl
    have e := outs_congr V c (Nat.lt_of_le_of_lt (Nat.sub_le _ _) (⟨4 * q + (i + 1), h⟩ : Fin cfg0.N).isLt)
      (Nat.lt_of_succ_lt h) (show 4 * q + (i + 1) - 1 = 4 * q + i by omega)
    refine (congrArg (fun p => p.2 (ix3 (0 : Fin 1) s f)) e).trans ?_
    exact rs_acc c q s f i (by omega) (Nat.lt_of_succ_lt h)

/-- At a half's last point the Gram block is the half's Gram matrix, -/
theorem gram_last (c : Dev nD) (t : Fin cfg0.N) (h3 : t.val % 4 = 3) (cc : Fin 2) (hcc : cc.val = t.val / 4)
    (f g : Fin 256) : (outsAt0 V c t.val t.isLt).1 (ix3 (0 : Fin 1) f g) = gramPart (featOf V c) cc f g := by
  have ht : t.val = 4 * cc.val + 3 := by omega
  have h' : 4 * cc.val + 3 < cfg0.N := by rw [← ht]; exact t.isLt
  refine (congrArg (fun p => p.1 (ix3 (0 : Fin 1) f g)) (outs_congr V c t.isLt h' ht)).trans ?_
  refine (gram_acc V c cc.val f g 3 (by omega) h').trans ?_
  unfold gramPart
  refine Finset.sum_congr rfl fun k _ => Finset.sum_congr rfl fun r _ => ?_
  have hrow : (rowK cc k r).val = (4 * cc.val + k.val) * 2048 + r.val := by
    show (cc.val * 4 + k.val) * 2048 + r.val = (4 * cc.val + k.val) * 2048 + r.val
    omega
  exact congrArg₂ (· * ·) (tile_apply V c _ r f _ hrow) (tile_apply V c _ r g _ hrow)

/-- and the row-sum block the half's row sums. -/
theorem rs_last (c : Dev nD) (t : Fin cfg0.N) (h3 : t.val % 4 = 3) (cc : Fin 2) (hcc : cc.val = t.val / 4)
    (s : Fin 8) (f : Fin 256) : (outsAt0 V c t.val t.isLt).2 (ix3 (0 : Fin 1) s f) = rsPart (featOf V c) cc s f := by
  have ht : t.val = 4 * cc.val + 3 := by omega
  have h' : 4 * cc.val + 3 < cfg0.N := by rw [← ht]; exact t.isLt
  refine (congrArg (fun p => p.2 (ix3 (0 : Fin 1) s f)) (outs_congr V c t.isLt h' ht)).trans ?_
  refine (rs_acc V c cc.val s f 3 (by omega) h').trans ?_
  unfold rsPart
  refine Finset.sum_congr rfl fun k _ => Finset.sum_congr rfl fun q _ => ?_
  have hrow : (rowK cc k (subK q s)).val = (4 * cc.val + k.val) * 2048 + (subK q s).val := by
    show (cc.val * 4 + k.val) * 2048 + (subK q s).val = (4 * cc.val + k.val) * 2048 + (subK q s).val
    omega
  exact tile_apply V c _ (subK q s) f _ hrow

/-! ## The two arrays after the region -/

/-- The Gram array: half cc's Gram matrix in block cc. -/
abbrev gramArr (c : Dev nD) : Vec Ideal S2x256x256 .f32 := fun j => gramPart (featOf V c) (j 0) (j 1) (j 2)
/-- The row-sum array: half cc's row sums in block cc. -/
abbrev rsArr (c : Dev nD) : Vec Ideal S2x8x256 .f32 := fun j => rsPart (featOf V c) (j 0) (j 1) (j 2)

/-- What a half's last point writes back is block t / 4 of the Gram array, -/
theorem flushed1_eq (c : Dev nD) (t : Fin cfg0.N) (hf : (cfg0.win 1).flush t = true) :
    (dat0 V c).flushed 1 t = ((cfg0.win 1).blk t).view.read (Elt Ideal) (gramArr V c) := by
  have hN : cfg0.N = 8 := N_0
  have h3 : t.val % 4 = 3 := (flush0_1 t).mp hf
  have hi := idx1 t
  funext j
  have hj0 : (j 0).val < 1 := (j 0).isLt
  have hj1 : (j 1).val < 256 := (j 1).isLt
  have hj2 : (j 2).val < 256 := (j 2).isLt
  have hcc : t.val / 4 < 2 := by have := t.isLt; omega
  have eL : (cfg0.win 1).xinj (grid0.coords t) j = ix3 (0 : Fin 1) ⟨(j 1).val, hj1⟩ ⟨(j 2).val, hj2⟩ :=
    funext fun a => Fin.ext (by
      match a with
      | ⟨0, _⟩ => show (j 0).val = 0; omega
      | ⟨1, _⟩ => rfl
      | ⟨2, _⟩ => rfl)
  have eR : ((cfg0.win 1).blk t).view.emb j = ix3 (⟨t.val / 4, hcc⟩ : Fin 2) ⟨(j 1).val, hj1⟩ ⟨(j 2).val, hj2⟩ :=
    funext fun a => Fin.ext (by
      match a with
      | ⟨0, _⟩ => show win0_1.index t 0 * 1 + 1 * (j 0).val = t.val / 4; rw [hi.1]; omega
      | ⟨1, _⟩ => show win0_1.index t 1 * 256 + 1 * (j 1).val = (j 1).val; rw [hi.2.1]; omega
      | ⟨2, _⟩ => show win0_1.index t 2 * 256 + 1 * (j 2).val = (j 2).val; rw [hi.2.2]; omega)
  show (dat0 V c).after 1 t ((cfg0.win 1).xinj (grid0.coords t) j) = gramArr V c (((cfg0.win 1).blk t).view.emb j)
  rw [eL, eR, after0_1]
  exact gram_last V c t h3 ⟨t.val / 4, hcc⟩ rfl _ _

/-- and block t / 4 of the row-sum array. -/
theorem flushed2_eq (c : Dev nD) (t : Fin cfg0.N) (hf : (cfg0.win 2).flush t = true) :
    (dat0 V c).flushed 2 t = ((cfg0.win 2).blk t).view.read (Elt Ideal) (rsArr V c) := by
  have hN : cfg0.N = 8 := N_0
  have h3 : t.val % 4 = 3 := (flush0_2 t).mp hf
  have hi := idx2 t
  funext j
  have hj0 : (j 0).val < 1 := (j 0).isLt
  have hj1 : (j 1).val < 8 := (j 1).isLt
  have hj2 : (j 2).val < 256 := (j 2).isLt
  have hcc : t.val / 4 < 2 := by have := t.isLt; omega
  have eL : (cfg0.win 2).xinj (grid0.coords t) j = ix3 (0 : Fin 1) ⟨(j 1).val, hj1⟩ ⟨(j 2).val, hj2⟩ :=
    funext fun a => Fin.ext (by
      match a with
      | ⟨0, _⟩ => show (j 0).val = 0; omega
      | ⟨1, _⟩ => rfl
      | ⟨2, _⟩ => rfl)
  have eR : ((cfg0.win 2).blk t).view.emb j = ix3 (⟨t.val / 4, hcc⟩ : Fin 2) ⟨(j 1).val, hj1⟩ ⟨(j 2).val, hj2⟩ :=
    funext fun a => Fin.ext (by
      match a with
      | ⟨0, _⟩ => show win0_2.index t 0 * 1 + 1 * (j 0).val = t.val / 4; rw [hi.1]; omega
      | ⟨1, _⟩ => show win0_2.index t 1 * 8 + 1 * (j 1).val = (j 1).val; rw [hi.2.1]; omega
      | ⟨2, _⟩ => show win0_2.index t 2 * 256 + 1 * (j 2).val = (j 2).val; rw [hi.2.2]; omega)
  show (dat0 V c).after 2 t ((cfg0.win 2).xinj (grid0.coords t) j) = rsArr V c (((cfg0.win 2).blk t).view.emb j)
  rw [eL, eR, after0_2]
  exact rs_last V c t h3 ⟨t.val / 4, hcc⟩ rfl _ _

/-- Block cc of either array is written back at point 4·cc + 3, so the blocks written back fill the arrays. -/
theorem gram_final (c : Dev nD) : (dat0 V c).arrAt 1 cfg0.N = gramArr V c :=
  (dat0 V c).arrAt_eq_of_cover 1 (gramArr V c) (flushed1_eq V c) fun i => by
    have hN : cfg0.N = 8 := N_0
    have hi0 : (i 0).val < 2 := (i 0).isLt
    have hi1 : (i 1).val < 256 := (i 1).isLt
    have hi2 : (i 2).val < 256 := (i 2).isLt
    have ht : 4 * (i 0).val + 3 < cfg0.N := by omega
    have hx := idx1 ⟨4 * (i 0).val + 3, ht⟩
    have hx0 : win0_1.index ⟨4 * (i 0).val + 3, ht⟩ 0 = (i 0).val := by rw [hx.1]; show (4 * (i 0).val + 3) / 4 = _; omega
    refine ⟨⟨4 * (i 0).val + 3, ht⟩, (flush0_1 _).mpr (by show (4 * (i 0).val + 3) % 4 = 3; omega), ?_⟩
    show i ∈ ((View.whole main_v18_0).slice (win0_1.rect ⟨4 * (i 0).val + 3, ht⟩)).set
    rw [View.set_slice_whole, Rect.mem_set_unit]
    intro a
    match a with
    | ⟨0, _⟩ =>
      show win0_1.index ⟨4 * (i 0).val + 3, ht⟩ 0 * 1 ≤ (i 0).val ∧ (i 0).val < win0_1.index ⟨4 * (i 0).val + 3, ht⟩ 0 * 1 + 1
      rw [hx0]; omega
    | ⟨1, _⟩ =>
      show win0_1.index ⟨4 * (i 0).val + 3, ht⟩ 1 * 256 ≤ (i 1).val ∧ (i 1).val < win0_1.index ⟨4 * (i 0).val + 3, ht⟩ 1 * 256 + 256
      rw [hx.2.1]; omega
    | ⟨2, _⟩ =>
      show win0_1.index ⟨4 * (i 0).val + 3, ht⟩ 2 * 256 ≤ (i 2).val ∧ (i 2).val < win0_1.index ⟨4 * (i 0).val + 3, ht⟩ 2 * 256 + 256
      rw [hx.2.2]; omega

theorem rs_final (c : Dev nD) : (dat0 V c).arrAt 2 cfg0.N = rsArr V c :=
  (dat0 V c).arrAt_eq_of_cover 2 (rsArr V c) (flushed2_eq V c) fun i => by
    have hN : cfg0.N = 8 := N_0
    have hi0 : (i 0).val < 2 := (i 0).isLt
    have hi1 : (i 1).val < 8 := (i 1).isLt
    have hi2 : (i 2).val < 256 := (i 2).isLt
    have ht : 4 * (i 0).val + 3 < cfg0.N := by omega
    have hx := idx2 ⟨4 * (i 0).val + 3, ht⟩
    have hx0 : win0_2.index ⟨4 * (i 0).val + 3, ht⟩ 0 = (i 0).val := by rw [hx.1]; show (4 * (i 0).val + 3) / 4 = _; omega
    refine ⟨⟨4 * (i 0).val + 3, ht⟩, (flush0_2 _).mpr (by show (4 * (i 0).val + 3) % 4 = 3; omega), ?_⟩
    show i ∈ ((View.whole main_v18_1).slice (win0_2.rect ⟨4 * (i 0).val + 3, ht⟩)).set
    rw [View.set_slice_whole, Rect.mem_set_unit]
    intro a
    match a with
    | ⟨0, _⟩ =>
      show win0_2.index ⟨4 * (i 0).val + 3, ht⟩ 0 * 1 ≤ (i 0).val ∧ (i 0).val < win0_2.index ⟨4 * (i 0).val + 3, ht⟩ 0 * 1 + 1
      rw [hx0]; omega
    | ⟨1, _⟩ =>
      show win0_2.index ⟨4 * (i 0).val + 3, ht⟩ 1 * 8 ≤ (i 1).val ∧ (i 1).val < win0_2.index ⟨4 * (i 0).val + 3, ht⟩ 1 * 8 + 8
      rw [hx.2.1]; omega
    | ⟨2, _⟩ =>
      show win0_2.index ⟨4 * (i 0).val + 3, ht⟩ 2 * 256 ≤ (i 2).val ∧ (i 2).val < win0_2.index ⟨4 * (i 0).val + 3, ht⟩ 2 * 256 + 256
      rw [hx.2.2]; omega

theorem gram (c : Dev nD) (cc : Fin 2) (f g : Fin 256) :
    ((dat0 V c).arrAt 1 cfg0.N : Vec Ideal S2x256x256 .f32) (ix3 cc f g) = gramPart (featOf V c) cc f g := by
  rw [gram_final V c]

theorem rowsums (c : Dev nD) (cc : Fin 2) (s : Fin 8) (f : Fin 256) :
    ((dat0 V c).arrAt 2 cfg0.N : Vec Ideal S2x8x256 .f32) (ix3 cc s f) = rsPart (featOf V c) cc s f := by
  rw [rs_final V c]

end Cert.KernelIdeal.GramValue

end
-- ==== Proof.K1Value.lean ====
/-
  The batch statistics the second kernel computes, read off the statistics array after its region.

  The region has one grid point. Its body adds the two halves of the Gram matrix C[f,g] and of the per-sublane row sums
  rs[s,f], multiplies both into the hidden layer's weight block w (256 features × 1024 units, the first 1024 columns of
  the fused weight matrix), and forms per unit u
    mean[u]    = (Σ_s Σ_f rs[s,f]·w[f,u]) · 2⁻¹⁴,
    e2[u]      = (Σ_f w[f,u]·Σ_g C[f,g]·w[g,u]) · 2⁻¹⁴,
    inv_std[u] = (max(e2[u] − mean[u]², 0) + ε)^(−1/2).
  It zeroes the 8×1024 statistics buffer, then stores the mean into row 0 and the inverse standard deviation into row 1;
  the buffer is written back whole. So entry (0,u) of the array is the spec's `meanK` and entry (1,u) its `istdOf` of
  `e2K` and `meanK`, of the arrays as the region finds them.

  Over the extended reals the widening of the bf16 weights is the identity, a matrix product into the zero accumulator is
  the sum over the contracted index, and a sum over an axis is the sum over its coordinates: nothing here needs finiteness.
-/
import proofs.«160323_g2000403857960831_pallasbulk_229_4_alg».proof.Proof.Gen.KernelIdeal.Frame
import proofs.«160323_g2000403857960831_pallasbulk_229_4_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)
open Cert.Spec

namespace Cert.KernelIdeal.StatsValue

open Cert.KernelIdeal Cert.KernelIdeal.Gen

variable (V : (c : Dev nD) → (b : Ref sig .tc) → Buf (Elt Ideal) ((c : Thread nD τ).loc b))

/-- The two halves' row sums, Gram matrices and the hidden layer's weights as the region finds them. -/
abbrev rsOf (c : Dev nD) : Fin 2 → Fin 8 → Fin 256 → EReal := fun cc s f => (V c main_v18_1 : Vec Ideal S2x8x256 .f32) (ix3 cc s f)
abbrev gramOf (c : Dev nD) : Fin 2 → Fin 256 → Fin 256 → EReal := fun cc f g => (V c main_v18_0 : Vec Ideal S2x256x256 .f32) (ix3 cc f g)
abbrev w1tOf (c : Dev nD) : Mat 256 1024 := fun f u => (V c main_v3 : Vec Ideal S256x2048 .bf16) (ix2 f (colH u))

/-! ## The two matrix products at an index

Both contract the left operand's columns with the weight block's rows; the operand indices at an output entry and a
contraction position are read off the dimension numbers axis by axis. -/

theorem d8_lhs_0 (j : S8x1024.Idx) (k : dot_S8x256_S256x1024_S8x1024_1_0_0_1_n_n.contr.Idx) :
    (dot_S8x256_S256x1024_S8x1024_1_0_0_1_n_n.lhsIdx j k 0).val = (j 0).val := by
  unfold DotDims.lhsIdx
  rw [dif_neg (show ¬(0 : Fin S8x256.rank) ∈ dot_S8x256_S256x1024_S8x1024_1_0_0_1_n_n.lhsBatch by decide),
    dif_pos (show (0 : Fin S8x256.rank) ∈ dot_S8x256_S256x1024_S8x1024_1_0_0_1_n_n.lhsNonContracting by decide)]
  rfl

theorem d8_lhs_1 (j : S8x1024.Idx) (k : dot_S8x256_S256x1024_S8x1024_1_0_0_1_n_n.contr.Idx) :
    (dot_S8x256_S256x1024_S8x1024_1_0_0_1_n_n.lhsIdx j k 1).val = (k ⟨0, by decide⟩).val :=
  DotDims.lhsIdx_val_of_single _ (cl := 1) rfl j k

theorem d8_rhs_0 (j : S8x1024.Idx) (k : dot_S8x256_S256x1024_S8x1024_1_0_0_1_n_n.contr.Idx) :
    (dot_S8x256_S256x1024_S8x1024_1_0_0_1_n_n.rhsIdx j k 0).val = (k ⟨0, by decide⟩).val :=
  DotDims.rhsIdx_val_of_single _ (cr := 0) rfl j k

theorem d8_rhs_1 (j : S8x1024.Idx) (k : dot_S8x256_S256x1024_S8x1024_1_0_0_1_n_n.contr.Idx) :
    (dot_S8x256_S256x1024_S8x1024_1_0_0_1_n_n.rhsIdx j k 1).val = (j 1).val := by
  unfold DotDims.rhsIdx
  rw [dif_neg (show ¬(1 : Fin S256x1024.rank) ∈ dot_S8x256_S256x1024_S8x1024_1_0_0_1_n_n.rhsBatch by decide),
    dif_pos (show (1 : Fin S256x1024.rank) ∈ dot_S8x256_S256x1024_S8x1024_1_0_0_1_n_n.rhsNonContracting by decide)]
  rfl

theorem d256_lhs_0 (j : S256x1024.Idx) (k : dot_S256x256_S256x1024_S256x1024_1_0_0_1_n_n.contr.Idx) :
    (dot_S256x256_S256x1024_S256x1024_1_0_0_1_n_n.lhsIdx j k 0).val = (j 0).val := by
  unfold DotDims.lhsIdx
  rw [dif_neg (show ¬(0 : Fin S256x256.rank) ∈ dot_S256x256_S256x1024_S256x1024_1_0_0_1_n_n.lhsBatch by decide),
    dif_pos (show (0 : Fin S256x256.rank) ∈ dot_S256x256_S256x1024_S256x1024_1_0_0_1_n_n.lhsNonContracting by decide)]
  rfl

theorem d256_lhs_1 (j : S256x1024.Idx) (k : dot_S256x256_S256x1024_S256x1024_1_0_0_1_n_n.contr.Idx) :
    (dot_S256x256_S256x1024_S256x1024_1_0_0_1_n_n.lhsIdx j k 1).val = (k ⟨0, by decide⟩).val :=
  DotDims.lhsIdx_val_of_single _ (cl := 1) rfl j k

theorem d256_rhs_0 (j : S256x1024.Idx) (k : dot_S256x256_S256x1024_S256x1024_1_0_0_1_n_n.contr.Idx) :
    (dot_S256x256_S256x1024_S256x1024_1_0_0_1_n_n.rhsIdx j k 0).val = (k ⟨0, by decide⟩).val :=
  DotDims.rhsIdx_val_of_single _ (cr := 0) rfl j k

theorem d256_rhs_1 (j : S256x1024.Idx) (k : dot_S256x256_S256x1024_S256x1024_1_0_0_1_n_n.contr.Idx) :
    (dot_S256x256_S256x1024_S256x1024_1_0_0_1_n_n.rhsIdx j k 1).val = (j 1).val := by
  unfold DotDims.rhsIdx
  rw [dif_neg (show ¬(1 : Fin S256x1024.rank) ∈ dot_S256x256_S256x1024_S256x1024_1_0_0_1_n_n.rhsBatch by decide),
    dif_pos (show (1 : Fin S256x1024.rank) ∈ dot_S256x256_S256x1024_S256x1024_1_0_0_1_n_n.rhsNonContracting by decide)]
  rfl

/-- The 8×256 by 256×1024 product into the zero accumulator, entry (s, u): the sum over the 256 features. -/
theorem matmul8_apply (A : FVec Ideal S8x256 .f32) (B : FVec Ideal S256x1024 .f32) (s : Fin 8) (u : Fin 1024) :
    matmul dot_S8x256_S256x1024_S8x1024_1_0_0_1_n_n none A B (constant S8x1024 .f32 0x00000000#32) (ix2 s u)
      = ∑ f : Fin 256, A (ix2 s f) * B (ix2 f u) := by
  refine (Ideal.matmul_constant_zero_apply dot_S8x256_S256x1024_S8x1024_1_0_0_1_n_n none A B (ix2 s u)).trans ?_
  rw [← Equiv.sum_comp (contrEquiv1 dot_S8x256_S256x1024_S8x1024_1_0_0_1_n_n 256 rfl rfl).symm]
  refine Finset.sum_congr rfl fun f _ => ?_
  have hk := contrEquiv1_symm_val dot_S8x256_S256x1024_S8x1024_1_0_0_1_n_n 256 rfl rfl f
  have l : dot_S8x256_S256x1024_S8x1024_1_0_0_1_n_n.lhsIdx (ix2 s u) ((contrEquiv1 dot_S8x256_S256x1024_S8x1024_1_0_0_1_n_n 256 rfl rfl).symm f) = ix2 s f := by
    funext a; apply Fin.ext
    match a with
    | ⟨0, _⟩ => exact d8_lhs_0 _ _
    | ⟨1, _⟩ => exact (d8_lhs_1 _ _).trans hk
  have r : dot_S8x256_S256x1024_S8x1024_1_0_0_1_n_n.rhsIdx (ix2 s u) ((contrEquiv1 dot_S8x256_S256x1024_S8x1024_1_0_0_1_n_n 256 rfl rfl).symm f) = ix2 f u := by
    funext a; apply Fin.ext
    match a with
    | ⟨0, _⟩ => exact (d8_rhs_0 _ _).trans hk
    | ⟨1, _⟩ => exact d8_rhs_1 _ _
  rw [l, r]

/-- The 256×256 by 256×1024 product into the zero accumulator, entry (f, u): the sum over the 256 features g. -/
theorem matmul256_apply (A : FVec Ideal S256x256 .f32) (B : FVec Ideal S256x1024 .f32) (s : Fin 256) (u : Fin 1024) :
    matmul dot_S256x256_S256x1024_S256x1024_1_0_0_1_n_n none A B (constant S256x1024 .f32 0x00000000#32) (ix2 s u)
      = ∑ f : Fin 256, A (ix2 s f) * B (ix2 f u) := by
  refine (Ideal.matmul_constant_zero_apply dot_S256x256_S256x1024_S256x1024_1_0_0_1_n_n none A B (ix2 s u)).trans ?_
  rw [← Equiv.sum_comp (contrEquiv1 dot_S256x256_S256x1024_S256x1024_1_0_0_1_n_n 256 rfl rfl).symm]
  refine Finset.sum_congr rfl fun f _ => ?_
  have hk := contrEquiv1_symm_val dot_S256x256_S256x1024_S256x1024_1_0_0_1_n_n 256 rfl rfl f
  have l : dot_S256x256_S256x1024_S256x1024_1_0_0_1_n_n.lhsIdx (ix2 s u) ((contrEquiv1 dot_S256x256_S256x1024_S256x1024_1_0_0_1_n_n 256 rfl rfl).symm f) = ix2 s f := by
    funext a; apply Fin.ext
    match a with
    | ⟨0, _⟩ => exact d256_lhs_0 _ _
    | ⟨1, _⟩ => exact (d256_lhs_1 _ _).trans hk
  have r : dot_S256x256_S256x1024_S256x1024_1_0_0_1_n_n.rhsIdx (ix2 s u) ((contrEquiv1 dot_S256x256_S256x1024_S256x1024_1_0_0_1_n_n 256 rfl rfl).symm f) = ix2 f u := by
    funext a; apply Fin.ext
    match a with
    | ⟨0, _⟩ => exact (d256_rhs_0 _ _).trans hk
    | ⟨1, _⟩ => exact d256_rhs_1 _ _
  rw [l, r]

/-! ## The two column sums -/

/-- The sum over the 8 rows of an 8×1024 array, at column u. -/
theorem colsum8_apply (X : FVec Ideal S8x1024 .f32) (hφ : FKind.Formats .f32)
    (hacc : (0x00000000#32 : BitVec 32) = FKind.add.neutral .f32 hφ) (u : Fin 1024) :
    multiReduction .add [0] S1024 X 0x00000000#32 Facts₀.reduces_S8x1024_S1024 hφ hacc (ix1 u) = ∑ s : Fin 8, X (ix2 s u) := by
  refine (Ideal.multiReduction_add_single X _ Facts₀.reduces_S8x1024_S1024 hφ hacc (ix1 u)).trans ?_
  refine Finset.sum_congr rfl fun s _ => congrArg X ?_
  funext a
  match a with
  | ⟨0, _⟩ => rfl
  | ⟨1, _⟩ => rfl

/-- The sum over the 256 rows of a 256×1024 array, at column u. -/
theorem colsum256_apply (X : FVec Ideal S256x1024 .f32) (hφ : FKind.Formats .f32)
    (hacc : (0x00000000#32 : BitVec 32) = FKind.add.neutral .f32 hφ) (u : Fin 1024) :
    multiReduction .add [0] S1024 X 0x00000000#32 Facts₀.reduces_S256x1024_S1024 hφ hacc (ix1 u) = ∑ s : Fin 256, X (ix2 s u) := by
  refine (Ideal.multiReduction_add_single X _ Facts₀.reduces_S256x1024_S1024 hφ hacc (ix1 u)).trans ?_
  refine Finset.sum_congr rfl fun s _ => congrArg X ?_
  funext a
  match a with
  | ⟨0, _⟩ => rfl
  | ⟨1, _⟩ => rfl

/-! ## The body's arithmetic at a column

The weight block widened from bf16 is the block itself over the extended reals; the mean is the row sums of the two
halves added, multiplied into the weights, summed over the 8 sublanes and scaled by 2⁻¹⁴; the inverse standard deviation
is the spec's function of the second moment (the Gram matrices of the two halves added, w·(C w) summed over the features,
scaled by 2⁻¹⁴) and of that mean. -/

theorem rsqrt_apply {s : Shape} {φ : FTy} (a : FVec Ideal s φ) (i : s.Idx) : rsqrt a i = Ideal.rsqrt (a i) := rfl

/-- The widened weight block, entry by entry. -/
theorem pay1_apply (v10 : Vec Ideal S256x1024 .bf16) (f : Fin 256) (u : Fin 1024) :
    k1_pay1 (F := Ideal) v10 (ix2 f u) = v10 (ix2 f u) := by
  unfold k1_pay1
  exact congrFun (shapeCast_self v10 Facts₀.shapeCasts_S256x1024_S256x1024) (ix2 f u)

/-- The mean's payload at column u, over the loaded halves of the row sums and the weight block. -/
theorem pay2_apply (v5 v7 : Vec Ideal S1x8x256 .f32) (v10 : Vec Ideal S256x1024 .bf16) (u : Fin 1024) :
    k1_pay2 (F := Ideal) v5 v7 v10 (ix2 (0 : Fin 1) u)
      = (∑ s : Fin 8, ∑ f : Fin 256, ((v5 (ix3 (0 : Fin 1) s f) : EReal) + v7 (ix3 (0 : Fin 1) s f)) * v10 (ix2 f u)) * invNW := by
  unfold k1_pay2
  dsimp only
  refine (mulf_apply _ _ (ix2 (0 : Fin 1) u)).trans (congrArg₂ (· * ·) ?_ rfl)
  refine (shapeCast_a_1a_apply _ Facts₀.shapeCasts_S1024_S1x1024 (0 : Fin 1) u).trans ?_
  refine (colsum8_apply _ _ _ u).trans ?_
  refine Finset.sum_congr rfl fun s _ => ?_
  refine (matmul8_apply _ _ s u).trans ?_
  refine Finset.sum_congr rfl fun f _ => ?_
  refine congrArg₂ (· * ·) ?_ (pay1_apply v10 f u)
  exact congrArg₂ (· + ·) (shapeCast_1ab_ab_apply v5 Facts₀.shapeCasts_S1x8x256_S8x256 s f)
    (shapeCast_1ab_ab_apply v7 Facts₀.shapeCasts_S1x8x256_S8x256 s f)

/-- The inverse standard deviation's payload at column u, over the loaded halves of the Gram matrices, the mean's
    payload and the weight block. -/
theorem pay3_apply (v0 v2 : Vec Ideal S1x256x256 .f32) (v5 v7 : Vec Ideal S1x8x256 .f32)
    (v10 : Vec Ideal S256x1024 .bf16) (u : Fin 1024) :
    k1_pay3 (F := Ideal) v0 v2 v5 v7 v10 (ix2 (0 : Fin 1) u)
      = istdOf ((∑ f : Fin 256, (v10 (ix2 f u) : EReal)
            * ∑ g : Fin 256, ((v0 (ix3 (0 : Fin 1) f g) : EReal) + v2 (ix3 (0 : Fin 1) f g)) * v10 (ix2 g u)) * invNW)
          (k1_pay2 (F := Ideal) v5 v7 v10 (ix2 (0 : Fin 1) u)) := by
  unfold k1_pay3 istdOf
  dsimp only
  refine (rsqrt_apply _ _).trans (congrArg Ideal.rsqrt ?_)
  refine (addf_apply _ _ _).trans (congrArg₂ (· + ·) ?_ rfl)
  refine (maximumf_apply _ _ _).trans (congrArg₂ max ?_ Ideal.ofBits_zero_f32)
  refine (subf_apply _ _ _).trans (congrArg₂ (· - ·) ?_ rfl)
  refine (mulf_apply _ _ _).trans (congrArg₂ (· * ·) ?_ rfl)
  refine (shapeCast_a_1a_apply _ Facts₀.shapeCasts_S1024_S1x1024 (0 : Fin 1) u).trans ?_
  refine (colsum256_apply _ _ _ u).trans ?_
  refine Finset.sum_congr rfl fun f _ => ?_
  refine (mulf_apply _ _ _).trans (congrArg₂ (· * ·) (pay1_apply v10 f u) ?_)
  refine (matmul256_apply _ _ f u).trans ?_
  refine Finset.sum_congr rfl fun g _ => ?_
  refine congrArg₂ (· * ·) ?_ (pay1_apply v10 g u)
  exact congrArg₂ (· + ·) (shapeCast_1ab_ab_apply v0 Facts₀.shapeCasts_S1x256x256_S256x256 f g)
    (shapeCast_1ab_ab_apply v2 Facts₀.shapeCasts_S1x256x256_S256x256 f g)

/-! ## What the body leaves in rows 0 and 1 of the statistics buffer

The body stores the zero block, then the mean into row 0 and the inverse standard deviation into row 1: read back,
row 1 is the last store's payload, row 0 the one before (the last store does not touch it). -/

theorem hz2 : (![0, 0] : Fin 2 → Nat) = fun _ => 0 := funext fun a => by fin_cases a <;> rfl

/-- Column u of the one-row block stored at row 0 is entry (0, u) of the buffer; -/
theorem row0_emb (u : Fin 1024) :
    (Rect.unit (s := S8x1024) ![0, 0] S1x1024.size Facts₀.inb_S8x1024_S1x1024_0_0).emb (ix2 (0 : Fin 1) u) = ix2 (0 : Fin 8) u := by
  funext a; apply Fin.ext
  match a with
  | ⟨0, _⟩ => rfl
  | ⟨1, _⟩ => show 0 + 1 * u.val = u.val; omega

/-- of the one stored at row 1, entry (1, u); -/
theorem row1_emb (u : Fin 1024) :
    (Rect.unit (s := S8x1024) ![1, 0] S1x1024.size Facts₀.inb_S8x1024_S1x1024_1_0).emb (ix2 (0 : Fin 1) u) = ix2 (1 : Fin 8) u := by
  funext a; apply Fin.ext
  match a with
  | ⟨0, _⟩ => rfl
  | ⟨1, _⟩ => show 0 + 1 * u.val = u.val; omega

/-- and row 0 is outside the block stored at row 1. -/
theorem row0_not_mem_row1 (u : Fin 1024) :
    ix2 (0 : Fin 8) u ∉ (Rect.unit (s := S8x1024) ![1, 0] S1x1024.size Facts₀.inb_S8x1024_S1x1024_1_0).set := fun h => by
  have h0 := (Rect.mem_set_unit.mp h 0).1
  exact absurd (show (1 : ℕ) ≤ 0 from h0) (by decide)

/-- The contents a list of stores leaves, off the newest store's rectangle: those of the earlier stores (the rectangle and
    the payload named apart). -/
theorem canon_skip {Val : EltTy → Type} [∀ e, Nonempty (Val e)] {S : Shape} {e : EltTy} (r : Rect S)
    (w : r.shape.Idx → Val e) (L : List (View.Piece Val S e)) {y : S.Idx} (h : y ∉ r.set) :
    View.canon (⟨r, w⟩ :: L) y = View.canon L y :=
  View.canon_cons_of_not_mem ⟨r, w⟩ L h

/-- Row 0 holds the mean's payload of the loaded halves of the row sums and the weight block. -/
theorem out_row0 (c : Dev nD) (i : grid1.Coords) (a1 : Memref sig .tc .vmem S2x256x256 .f32) (h1 : a1.IsWhole)
    (a2 : Memref sig .tc .vmem S2x8x256 .f32) (h2 : a2.IsWhole) (a3 : Memref sig .tc .vmem S256x1024 .bf16) (h3 : a3.IsWhole)
    (a4 : Memref sig .tc .vmem S8x1024 .f32) (h4 : a4.IsWhole)
    (x0 : Vec Ideal S2x256x256 .f32) (x1 : Vec Ideal S2x8x256 .f32) (x2 : Vec Ideal S256x1024 .bf16) (u : Fin 1024) :
    out1_A_3 (F := Ideal) c i a1 h1 a2 h2 a3 h3 a4 h4 x0 x1 x2 (ix2 (0 : Fin 8) u)
      = k1_pay2 (F := Ideal) (View.ld x1 (Rect.unit (s := S2x8x256) ![0, 0, 0] S1x8x256.size Facts₀.inb_S2x8x256_S1x8x256_0_0_0)) (View.ld x1 (Rect.unit (s := S2x8x256) ![1, 0, 0] S1x8x256.size Facts₀.inb_S2x8x256_S1x8x256_1_0_0)) (View.ld x2 (Rect.unit (s := S256x1024) ![0, 0] S256x1024.size Facts₀.inb_S256x1024_S256x1024_0_0)) (ix2 (0 : Fin 1) u) := by
  unfold out1_A_3
  rw [View.read_writes_eq_canon _ _ _ (cover1_A_3 c i a1 h1 a2 h2 a3 h3 a4 h4 x0 x1 x2)]
  unfold kernelRun1_A
  dsimp only
  sl_unfold_words
  refine (canon_skip (Rect.unit (s := S8x1024) ![1, 0] S1x1024.size Facts₀.inb_S8x1024_S1x1024_1_0) _ _ (row0_not_mem_row1 u)).trans ?_
  refine (congrArg (View.canon _) (row0_emb u).symm).trans ?_
  refine (View.canon_cons_emb (Rect.unit (s := S8x1024) ![0, 0] S1x1024.size Facts₀.inb_S8x1024_S1x1024_0_0) _ _ (ix2 (0 : Fin 1) u)).trans ?_
  simp only [View.readAt_eq_ld, h2.read_unread, h3.read_unread]

/-- Row 1 holds the inverse standard deviation's payload of the loaded halves and the weight block. -/
theorem out_row1 (c : Dev nD) (i : grid1.Coords) (a1 : Memref sig .tc .vmem S2x256x256 .f32) (h1 : a1.IsWhole)
    (a2 : Memref sig .tc .vmem S2x8x256 .f32) (h2 : a2.IsWhole) (a3 : Memref sig .tc .vmem S256x1024 .bf16) (h3 : a3.IsWhole)
    (a4 : Memref sig .tc .vmem S8x1024 .f32) (h4 : a4.IsWhole)
    (x0 : Vec Ideal S2x256x256 .f32) (x1 : Vec Ideal S2x8x256 .f32) (x2 : Vec Ideal S256x1024 .bf16) (u : Fin 1024) :
    out1_A_3 (F := Ideal) c i a1 h1 a2 h2 a3 h3 a4 h4 x0 x1 x2 (ix2 (1 : Fin 8) u)
      = k1_pay3 (F := Ideal) (View.ld x0 (Rect.unit (s := S2x256x256) ![0, 0, 0] S1x256x256.size Facts₀.inb_S2x256x256_S1x256x256_0_0_0)) (View.ld x0 (Rect.unit (s := S2x256x256) ![1, 0, 0] S1x256x256.size Facts₀.inb_S2x256x256_S1x256x256_1_0_0)) (View.ld x1 (Rect.unit (s := S2x8x256) ![0, 0, 0] S1x8x256.size Facts₀.inb_S2x8x256_S1x8x256_0_0_0)) (View.ld x1 (Rect.unit (s := S2x8x256) ![1, 0, 0] S1x8x256.size Facts₀.inb_S2x8x256_S1x8x256_1_0_0)) (View.ld x2 (Rect.unit (s := S256x1024) ![0, 0] S256x1024.size Facts₀.inb_S256x1024_S256x1024_0_0)) (ix2 (0 : Fin 1) u) := by
  unfold out1_A_3
  rw [View.read_writes_eq_canon _ _ _ (cover1_A_3 c i a1 h1 a2 h2 a3 h3 a4 h4 x0 x1 x2)]
  unfold kernelRun1_A
  dsimp only
  sl_unfold_words
  refine (congrArg (View.canon _) (row1_emb u).symm).trans ?_
  refine (View.canon_cons_emb (Rect.unit (s := S8x1024) ![1, 0] S1x1024.size Facts₀.inb_S8x1024_S1x1024_1_0) _ _ (ix2 (0 : Fin 1) u)).trans ?_
  simp only [View.readAt_eq_ld, h1.read_unread, h2.read_unread, h3.read_unread]

/-! ## The loads: half cc of a stacked array, and the whole weight block -/

theorem ld_gram0 (X : Vec Ideal S2x256x256 .f32) (f g : Fin 256) :
    View.ld X (Rect.unit (s := S2x256x256) ![0, 0, 0] S1x256x256.size Facts₀.inb_S2x256x256_S1x256x256_0_0_0) (ix3 (0 : Fin 1) f g) = X (ix3 (0 : Fin 2) f g) := by
  show X _ = X _
  refine congrArg X ?_
  funext a; apply Fin.ext
  match a with
  | ⟨0, _⟩ => rfl
  | ⟨1, _⟩ => show 0 + 1 * f.val = f.val; omega
  | ⟨2, _⟩ => show 0 + 1 * g.val = g.val; omega

theorem ld_gram1 (X : Vec Ideal S2x256x256 .f32) (f g : Fin 256) :
    View.ld X (Rect.unit (s := S2x256x256) ![1, 0, 0] S1x256x256.size Facts₀.inb_S2x256x256_S1x256x256_1_0_0) (ix3 (0 : Fin 1) f g) = X (ix3 (1 : Fin 2) f g) := by
  show X _ = X _
  refine congrArg X ?_
  funext a; apply Fin.ext
  match a with
  | ⟨0, _⟩ => rfl
  | ⟨1, _⟩ => show 0 + 1 * f.val = f.val; omega
  | ⟨2, _⟩ => show 0 + 1 * g.val = g.val; omega

theorem ld_rs0 (X : Vec Ideal S2x8x256 .f32) (s : Fin 8) (f : Fin 256) :
    View.ld X (Rect.unit (s := S2x8x256) ![0, 0, 0] S1x8x256.size Facts₀.inb_S2x8x256_S1x8x256_0_0_0) (ix3 (0 : Fin 1) s f) = X (ix3 (0 : Fin 2) s f) := by
  show X _ = X _
  refine congrArg X ?_
  funext a; apply Fin.ext
  match a with
  | ⟨0, _⟩ => rfl
  | ⟨1, _⟩ => show 0 + 1 * s.val = s.val; omega
  | ⟨2, _⟩ => show 0 + 1 * f.val = f.val; omega

theorem ld_rs1 (X : Vec Ideal S2x8x256 .f32) (s : Fin 8) (f : Fin 256) :
    View.ld X (Rect.unit (s := S2x8x256) ![1, 0, 0] S1x8x256.size Facts₀.inb_S2x8x256_S1x8x256_1_0_0) (ix3 (0 : Fin 1) s f) = X (ix3 (1 : Fin 2) s f) := by
  show X _ = X _
  refine congrArg X ?_
  funext a; apply Fin.ext
  match a with
  | ⟨0, _⟩ => rfl
  | ⟨1, _⟩ => show 0 + 1 * s.val = s.val; omega
  | ⟨2, _⟩ => show 0 + 1 * f.val = f.val; omega

theorem ld_w (X : Vec Ideal S256x1024 .bf16) : View.ld X (Rect.unit (s := S256x1024) ![0, 0] S256x1024.size Facts₀.inb_S256x1024_S256x1024_0_0) = X :=
  View.ld_unit_zero (S := S256x1024) hz2 _ X

/-! ## Rows 0 and 1 as functions of the three input blocks -/

/-- The mean's payload over the loads is the spec's mean of the blocks. -/
theorem mean_of_blocks (x1 : Vec Ideal S2x8x256 .f32) (x2 : Vec Ideal S256x1024 .bf16) (u : Fin 1024) :
    k1_pay2 (F := Ideal) (View.ld x1 (Rect.unit (s := S2x8x256) ![0, 0, 0] S1x8x256.size Facts₀.inb_S2x8x256_S1x8x256_0_0_0)) (View.ld x1 (Rect.unit (s := S2x8x256) ![1, 0, 0] S1x8x256.size Facts₀.inb_S2x8x256_S1x8x256_1_0_0)) (View.ld x2 (Rect.unit (s := S256x1024) ![0, 0] S256x1024.size Facts₀.inb_S256x1024_S256x1024_0_0)) (ix2 (0 : Fin 1) u)
      = (∑ s : Fin 8, ∑ f : Fin 256, ((x1 (ix3 (0 : Fin 2) s f) : EReal) + x1 (ix3 (1 : Fin 2) s f)) * x2 (ix2 f u)) * invNW := by
  refine (pay2_apply _ _ _ u).trans ?_
  refine congrArg (· * invNW) (Finset.sum_congr rfl fun s _ => Finset.sum_congr rfl fun f _ => ?_)
  exact congrArg₂ (· * ·) (congrArg₂ (· + ·) (ld_rs0 x1 s f) (ld_rs1 x1 s f)) (congrFun (ld_w x2) (ix2 f u))

theorem row0_value (c : Dev nD) (i : grid1.Coords) (a1 : Memref sig .tc .vmem S2x256x256 .f32) (h1 : a1.IsWhole)
    (a2 : Memref sig .tc .vmem S2x8x256 .f32) (h2 : a2.IsWhole) (a3 : Memref sig .tc .vmem S256x1024 .bf16) (h3 : a3.IsWhole)
    (a4 : Memref sig .tc .vmem S8x1024 .f32) (h4 : a4.IsWhole)
    (x0 : Vec Ideal S2x256x256 .f32) (x1 : Vec Ideal S2x8x256 .f32) (x2 : Vec Ideal S256x1024 .bf16) (u : Fin 1024) :
    out1_A_3 (F := Ideal) c i a1 h1 a2 h2 a3 h3 a4 h4 x0 x1 x2 (ix2 (0 : Fin 8) u) = (∑ s : Fin 8, ∑ f : Fin 256, ((x1 (ix3 (0 : Fin 2) s f) : EReal) + x1 (ix3 (1 : Fin 2) s f)) * x2 (ix2 f u)) * invNW :=
  (out_row0 c i a1 h1 a2 h2 a3 h3 a4 h4 x0 x1 x2 u).trans (mean_of_blocks x1 x2 u)

theorem row1_value (c : Dev nD) (i : grid1.Coords) (a1 : Memref sig .tc .vmem S2x256x256 .f32) (h1 : a1.IsWhole)
    (a2 : Memref sig .tc .vmem S2x8x256 .f32) (h2 : a2.IsWhole) (a3 : Memref sig .tc .vmem S256x1024 .bf16) (h3 : a3.IsWhole)
    (a4 : Memref sig .tc .vmem S8x1024 .f32) (h4 : a4.IsWhole)
    (x0 : Vec Ideal S2x256x256 .f32) (x1 : Vec Ideal S2x8x256 .f32) (x2 : Vec Ideal S256x1024 .bf16) (u : Fin 1024) :
    out1_A_3 (F := Ideal) c i a1 h1 a2 h2 a3 h3 a4 h4 x0 x1 x2 (ix2 (1 : Fin 8) u)
      = istdOf ((∑ f : Fin 256, (x2 (ix2 f u) : EReal) * ∑ g : Fin 256, ((x0 (ix3 (0 : Fin 2) f g) : EReal) + x0 (ix3 (1 : Fin 2) f g)) * x2 (ix2 g u)) * invNW)
          ((∑ s : Fin 8, ∑ f : Fin 256, ((x1 (ix3 (0 : Fin 2) s f) : EReal) + x1 (ix3 (1 : Fin 2) s f)) * x2 (ix2 f u)) * invNW) := by
  refine (out_row1 c i a1 h1 a2 h2 a3 h3 a4 h4 x0 x1 x2 u).trans ?_
  refine (pay3_apply _ _ _ _ _ u).trans ?_
  refine congrArg₂ istdOf ?_ (mean_of_blocks x1 x2 u)
  refine congrArg (· * invNW) (Finset.sum_congr rfl fun f _ => ?_)
  refine congrArg₂ (· * ·) (congrFun (ld_w x2) (ix2 f u)) (Finset.sum_congr rfl fun g _ => ?_)
  exact congrArg₂ (· * ·) (congrArg₂ (· + ·) (ld_gram0 x0 f g) (ld_gram1 x0 f g)) (congrFun (ld_w x2) (ix2 g u))

/-! ## The input blocks at the one grid point

Every window's block index is zero on every axis: the two stacked arrays are fetched whole, and the weight block is
the first 1024 columns of the fused weight matrix. -/

theorem idx_facts1 : ∀ t : Fin cfg1.N,
    win1_0.index t (0 : Fin 3) = 0 ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0 :=
  (by decide +kernel : ∀ t : Fin grid1.N, _)

/-- The Gram block is the Gram array. -/
theorem gram_block (c : Dev nD) (t : Fin cfg1.N) (cc : Fin 2) (f g : Fin 256) :
    (iblk1 V c 0 t : Vec Ideal S2x256x256 .f32) (ix3 cc f g) = gramOf V c cc f g := by
  obtain ⟨e0, e1, e2, -⟩ := idx_facts1 t
  unfold iblk1
  rw [View.read_apply]
  show V c main_v18_0 (((cfg1.win 0).blk t).view.emb (ix3 cc f g)) = V c main_v18_0 (ix3 cc f g)
  refine congrArg (V c main_v18_0) ?_
  funext a; apply Fin.ext
  match a with
  | ⟨0, _⟩ => show win1_0.index t (0 : Fin 3) * 2 + 1 * cc.val = cc.val; omega
  | ⟨1, _⟩ => show win1_0.index t (1 : Fin 3) * 256 + 1 * f.val = f.val; omega
  | ⟨2, _⟩ => show win1_0.index t (2 : Fin 3) * 256 + 1 * g.val = g.val; omega

/-- The row-sum block is the row-sum array. -/
theorem rs_block (c : Dev nD) (t : Fin cfg1.N) (cc : Fin 2) (s : Fin 8) (f : Fin 256) :
    (iblk1 V c 1 t : Vec Ideal S2x8x256 .f32) (ix3 cc s f) = rsOf V c cc s f := by
  obtain ⟨-, -, -, e0, e1, e2, -⟩ := idx_facts1 t
  unfold iblk1
  rw [View.read_apply]
  show V c main_v18_1 (((cfg1.win 1).blk t).view.emb (ix3 cc s f)) = V c main_v18_1 (ix3 cc s f)
  refine congrArg (V c main_v18_1) ?_
  funext a; apply Fin.ext
  match a with
  | ⟨0, _⟩ => show win1_1.index t (0 : Fin 3) * 2 + 1 * cc.val = cc.val; omega
  | ⟨1, _⟩ => show win1_1.index t (1 : Fin 3) * 8 + 1 * s.val = s.val; omega
  | ⟨2, _⟩ => show win1_1.index t (2 : Fin 3) * 256 + 1 * f.val = f.val; omega

/-- The weight block is the hidden layer's half of the fused weight matrix: column u of the block is column u of
    the first 1024. -/
theorem w_block (c : Dev nD) (t : Fin cfg1.N) (f : Fin 256) (u : Fin 1024) :
    (iblk1 V c 2 t : Vec Ideal S256x1024 .bf16) (ix2 f u) = w1tOf V c f u := by
  obtain ⟨-, -, -, -, -, -, e0, e1⟩ := idx_facts1 t
  unfold iblk1
  rw [View.read_apply]
  show V c main_v3 (((cfg1.win 2).blk t).view.emb (ix2 f u)) = V c main_v3 (ix2 f (colH u))
  refine congrArg (V c main_v3) ?_
  funext a; apply Fin.ext
  match a with
  | ⟨0, _⟩ => show win1_2.index t (0 : Fin 2) * 256 + 1 * f.val = f.val; omega
  | ⟨1, _⟩ => show win1_2.index t (1 : Fin 2) * 1024 + 1 * u.val = u.val; omega

/-! ## The statistics array after the region

The one grid point writes its whole staging buffer back to the whole array. -/

/-- What the statistics buffer holds after the body at the one point. -/
abbrev stats (c : Dev nD) : Buf (Elt Ideal) ((c : Thread nD τ).loc main_v19) := outsAt1 V c t1_0

theorem blk3_facts : ∀ (t : Fin cfg1.N) (a : Fin 2),
    win1_3.index t a * win1_3.size a = 0 ∧ win1_3.xsize (grid1.coords t) a = S8x1024.size a :=
  (by decide +kernel : ∀ (t : Fin grid1.N) (a : Fin 2), _)

/-- The write-back writes that buffer: block (0, 0) of the 8×1024 array, read through zero offsets, is the array. -/
theorem flushed_eq (c : Dev nD) (t : Fin cfg1.N) (hf : (cfg1.win 3).flush t = true) :
    (dat1 V c).flushed 3 t = ((cfg1.win 3).blk t).view.read (Elt Ideal) (stats V c) := by
  obtain rfl : t = t1_0 := fin_N1 t
  show (cfg1.win 3).cut (grid1.coords t1_0) ((dat1 V c).after 3 t1_0) = _
  rw [after1_3]
  have hz' : (fun a => win1_3.index t1_0 a * main_v19.ty.shape.size a) = fun _ => 0 :=
    funext fun a => (blk3_facts t1_0 a).1
  exact (Memref.read_access_unit_zero (Elt Ideal) main_v19 hz' (fun a => by rw [congrFun hz' a]; simp) (stats V c)).symm

/-- So the statistics array ends holding it: the one block covers the array. -/
theorem final_stats (c : Dev nD) : (dat1 V c).arrAt 3 cfg1.N = stats V c :=
  (dat1 V c).arrAt_eq_of_cover 3 (stats V c) (flushed_eq V c) fun i =>
    ⟨t1_0, flush1_3 t1_0, by
      show i ∈ ((View.whole main_v19).slice (win1_3.rect t1_0)).set
      rw [View.set_slice_whole, Rect.mem_set_unit]
      intro a
      obtain ⟨e0, e1⟩ := blk3_facts t1_0 a
      show win1_3.index t1_0 a * win1_3.size a ≤ (i a : Nat)
        ∧ (i a : Nat) < win1_3.index t1_0 a * win1_3.size a + win1_3.xsize (grid1.coords t1_0) a
      rw [e0, e1, Nat.zero_add]
      exact ⟨Nat.zero_le _, (i a).isLt⟩⟩

/-! ## The two rows of the statistics array -/

theorem mean_row (c : Dev nD) (u : Fin 1024) :
    ((dat1 V c).arrAt 3 cfg1.N : Vec Ideal S8x1024 .f32) (ix2 (0 : Fin 8) u) = meanK (rsOf V c) (w1tOf V c) u := by
  refine (congrFun (final_stats V c) (ix2 (0 : Fin 8) u)).trans ?_
  show outsAt1 V c t1_0 (ix2 (0 : Fin 8) u) = _
  unfold outsAt1
  refine (row0_value c (grid1.coords t1_0) (ms1_0 t1_0) (hs1_0 t1_0) (ms1_1 t1_0) (hs1_1 t1_0) (ms1_2 t1_0) (hs1_2 t1_0) (ms1_3 t1_0) (hs1_3 t1_0)
      (iblk1 V c 0 t1_0) (iblk1 V c 1 t1_0) (iblk1 V c 2 t1_0) u).trans ?_
  unfold meanK
  refine congrArg (· * invNW) (Finset.sum_congr rfl fun s _ => Finset.sum_congr rfl fun f _ => ?_)
  exact congrArg₂ (· * ·) (congrArg₂ (· + ·) (rs_block V c t1_0 0 s f) (rs_block V c t1_0 1 s f)) (w_block V c t1_0 f u)

theorem istd_row (c : Dev nD) (u : Fin 1024) :
    ((dat1 V c).arrAt 3 cfg1.N : Vec Ideal S8x1024 .f32) (ix2 (1 : Fin 8) u)
      = istdOf (e2K (gramOf V c) (w1tOf V c) u) (meanK (rsOf V c) (w1tOf V c) u) := by
  refine (congrFun (final_stats V c) (ix2 (1 : Fin 8) u)).trans ?_
  show outsAt1 V c t1_0 (ix2 (1 : Fin 8) u) = _
  unfold outsAt1
  refine (row1_value c (grid1.coords t1_0) (ms1_0 t1_0) (hs1_0 t1_0) (ms1_1 t1_0) (hs1_1 t1_0) (ms1_2 t1_0) (hs1_2 t1_0) (ms1_3 t1_0) (hs1_3 t1_0)
      (iblk1 V c 0 t1_0) (iblk1 V c 1 t1_0) (iblk1 V c 2 t1_0) u).trans ?_
  unfold meanK e2K
  refine congrArg₂ istdOf ?_ ?_
  · refine congrArg (· * invNW) (Finset.sum_congr rfl fun f _ => ?_)
    refine congrArg₂ (· * ·) (w_block V c t1_0 f u) (Finset.sum_congr rfl fun g _ => ?_)
    exact congrArg₂ (· * ·) (congrArg₂ (· + ·) (gram_block V c t1_0 0 f g) (gram_block V c t1_0 1 f g)) (w_block V c t1_0 g u)
  · refine congrArg (· * invNW) (Finset.sum_congr rfl fun s _ => Finset.sum_congr rfl fun f _ => ?_)
    exact congrArg₂ (· * ·) (congrArg₂ (· + ·) (rs_block V c t1_0 0 s f) (rs_block V c t1_0 1 s f)) (w_block V c t1_0 f u)

end Cert.KernelIdeal.StatsValue

end
-- ==== Proof.K2Value.lean ====
/-
  The apply region of the idealized kernel, read as mathematics.

  Each of the sixteen grid points takes 1024 rows of the input, multiplies them by the fused weight matrix, splits the
  product into the hidden pre-activations and the shortcut, batch-normalises and rectifies the hidden half with the two
  batch statistics, multiplies by the second layer's weights, adds the shortcut and the fused bias, and layer-normalises
  each row over its 1024 units.  Read at an entry (n, u) of the output this is the specification's row function of row n
  of the input: the tile's arithmetic is read index by index, then the sixteen tiles are seen to fill the output array.
-/
import proofs.«160323_g2000403857960831_pallasbulk_229_4_alg».proof.Proof.Gen.KernelIdeal.Frame
import proofs.«160323_g2000403857960831_pallasbulk_229_4_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)
open Cert.Spec

namespace Cert.KernelIdeal.ApplyValue

open Cert.KernelIdeal Cert.KernelIdeal.Gen

/-! ## Reading the layout operations of the body at an index -/

theorem hz : (![0, 0] : Fin 2 → Nat) = fun _ => 0 := funext fun a => by fin_cases a <;> rfl

/-- A product of an m×k by a k×n matrix into a zero accumulator, read at (a, b): the sum over the contracted
    coordinate of the products of the entries. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec HostSchedule.single A B (ix2 a b)).symm.trans
      (StackMember.dotGeneral_plain_apply prec A B a b))

/-- The two contractions of the body are plain matrix products. -/
theorem dot1_eq : dot_S1024x256_S256x2048_S1024x2048_1_0_0_1_n_n = DotDims.plain 1024 256 2048 := rfl
theorem dot2_eq : dot_S1024x1024_S1024x1024_S1024x1024_1_0_0_1_n_n = DotDims.plain 1024 1024 1024 := rfl

/-- A vector of length a seen as a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column [a, 1] broadcast to [a, b] reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a 1024×1024 array, read at row r. -/
theorem rowsum_apply (a : Fin S1024x1024.rank) (ha : a.val = 1) (src : FVec Ideal S1024x1024 .f32) (h : S1024x1024.Reduces [a] S1024)
    (hφ : FTy.f32 = FTy.f32 ∨ FTy.f32 = FTy.bf16) (hacc : @Eq (BitVec FTy.f32.bits) 0x00000000#32 0x00000000#32) (r : Fin 1024) :
    multiReduction (F := Ideal) .add [a] S1024 src 0x00000000#32 h hφ hacc (ix1 r) = ∑ v : Fin 1024, src (ix2 r v) := by
  obtain rfl : a = 1 := Fin.ext ha
  refine (Ideal.multiReduction_add_single src 0x00000000#32 h hφ hacc (ix1 r)).trans ?_
  refine Finset.sum_congr rfl fun v _ => congrArg src ?_
  funext a; apply Fin.ext
  match a with
  | ⟨0, _⟩ => rfl
  | ⟨1, _⟩ => rfl

/-- Row o of an 8×1024 buffer, loaded as a 1×1024 vector, reads at (0, v) the buffer at (o, v). -/
theorem ld_row (X : Vec Ideal S8x1024 .f32) (o : ℕ) (inb : ∀ a, (![o, 0] : Fin 2 → Nat) a + S1x1024.size a ≤ S8x1024.size a)
    (p : Fin 8) (hp : p.val = o) (v : Fin 1024) :
    (View.ld X (Rect.unit (s := S8x1024) ![o, 0] S1x1024.size inb) : Vec Ideal S1x1024 .f32) (ix2 (0 : Fin 1) v) = X (ix2 p v) := by
  refine congrArg X (funext fun a => Fin.ext ?_)
  match a with
  | ⟨0, _⟩ => show o + 1 * 0 = p.val; omega
  | ⟨1, _⟩ => show 0 + 1 * v.val = v.val; omega

/-! ## The body's arithmetic, read at an index -/

theorem rsqrt_apply {s : Shape} {φ : FTy} (a : FVec Ideal s φ) (i : s.Idx) : rsqrt a i = Ideal.rsqrt (a i) := rfl

/-- The identity casts of the loaded rows. -/
theorem pay2_eq (v13 : Vec Ideal S1x1024 .f32) : k2_pay2 (F := Ideal) v13 = v13 := by
  unfold k2_pay2; exact shapeCast_self _ _
theorem pay3_eq (v15 : Vec Ideal S1x1024 .f32) : k2_pay3 (F := Ideal) v15 = v15 := by
  unfold k2_pay3; exact shapeCast_self _ _

/-- The bias row broadcast over the rows of the tile. -/
theorem pay5_apply (v7 : Vec Ideal S1x1024 .f32) (r u : Fin 1024) :
    k2_pay5 (F := Ideal) v7 (ix2 r u) = v7 (ix2 (0 : Fin 1) u) := by
  unfold k2_pay5
  simp only [shapeCast_self, broadcastTo_1b_ab_apply]

/-- The layer normalisation of a row of the sum of the two 1024×1024 operands, then the affine map by the two rows. -/
theorem pay1_apply (v14 v16 : FVec Ideal S1x1024 .f32) (v34 v35 : FVec Ideal S1024x1024 .f32) (r u : Fin 1024) :
    k2_pay1 (F := Ideal) v14 v16 v34 v35 (ix2 r u)
      = lnRow (fun v => v34 (ix2 r v) + v35 (ix2 r v)) (fun v => v14 (ix2 (0 : Fin 1) v)) (fun v => v16 (ix2 (0 : Fin 1) v)) u := by
  unfold k2_pay1 lnRow
  simp only [addf_apply, mulf_apply, subf_apply, divf_apply, rsqrt_apply, broadcast_apply, broadcastTo_1b_ab_apply,
    broadcastTo_a1_ab_apply, shapeCast_a_a1_apply]
  rw [rowsum_apply 1 rfl (addf v34 v35)]
  rw [rowsum_apply 1 rfl]
  simp only [addf_apply, mulf_apply, subf_apply, divf_apply, broadcast_apply, broadcastTo_a1_ab_apply, shapeCast_a_a1_apply]
  rw [rowsum_apply 1 rfl (addf v34 v35)]
  simp only [addf_apply]
  rfl

/-- The hidden half and the shortcut half of the fused product's columns. -/
theorem sliceH_apply (X : FVec Ideal S1024x2048 .f32) (h : S1024x2048.Slices ![0, 0] S1024x1024) (a k : Fin 1024) :
    extractStridedSlice S1024x1024 ![0, 0] X h (ix2 a k) = X (ix2 a (colH k)) :=
  slice2_axis1_apply 0 X h a k (colH k) (by show k.val = 0 + k.val; omega)
theorem sliceS_apply (X : FVec Ideal S1024x2048 .f32) (h : S1024x2048.Slices ![0, 1024] S1024x1024) (a k : Fin 1024) :
    extractStridedSlice S1024x1024 ![0, 1024] X h (ix2 a k) = X (ix2 a (colS k)) :=
  slice2_axis1_apply 1024 X h a k (colS k) rfl

/-- The second layer's product of the batch-normalised, rectified hidden row, plus the shortcut's product. -/
theorem pay4_apply (v0 : Vec Ideal S1024x256 .f32) (v2 : Vec Ideal S256x2048 .bf16) (v9 v11 v17 v19 : Vec Ideal S1x1024 .f32)
    (v31 : Vec Ideal S1024x1024 .bf16) (r u : Fin 1024) :
    k2_pay4 (F := Ideal) v0 v2 v9 v11 v17 v19 v31 (ix2 r u)
      = (∑ k : Fin 1024, bnrelu (∑ f : Fin 256, v0 (ix2 r f) * v2 (ix2 f (colH k))) (v17 (ix2 (0 : Fin 1) k)) (v19 (ix2 (0 : Fin 1) k))
            (v9 (ix2 (0 : Fin 1) k)) (v11 (ix2 (0 : Fin 1) k)) * v31 (ix2 k u))
        + ∑ f : Fin 256, v0 (ix2 r f) * v2 (ix2 f (colS u)) := by
  unfold k2_pay4 bnrelu
  simp only [dot1_eq, dot2_eq, matmul, shapeCast_self, addf_apply, matmul_plain_zero_apply, truncf_apply, maximumf_apply,
    mulf_apply, subf_apply, broadcast_apply, broadcastTo_1b_ab_apply, sliceH_apply, sliceS_apply, Ideal.ofBits_def,
    Ideal.ofBits_zero_f32]

/-- What the body stores at (r, u) of its tile: the block's row r through the whole computation. -/
theorem out_apply (x0 : Vec Ideal S1024x256 .f32) (x1 : Vec Ideal S256x2048 .bf16) (x2 : Vec Ideal S1024x1024 .bf16)
    (x3 x4 : Vec Ideal S8x1024 .f32) (r u : Fin 1024) :
    out2_5 (F := Ideal) x0 x1 x2 x3 x4 (ix2 r u)
      = applyOut (fun f => x0 (ix2 r f)) (fun f k => x1 (ix2 f k)) (fun k v => x2 (ix2 k v))
          (fun v => x3 (ix2 0 v)) (fun v => x3 (ix2 1 v)) (fun v => x3 (ix2 2 v)) (fun v => x3 (ix2 3 v)) (fun v => x3 (ix2 4 v))
          (fun v => x4 (ix2 0 v)) (fun v => x4 (ix2 1 v)) u := by
  unfold out2_5
  rw [View.canon_unit_zero hz, pay1_apply]
  unfold applyOut fRow
  simp only [pay2_eq, pay3_eq, pay4_apply, pay5_apply, View.ld_unit_zero (S := S1024x256) hz,
    View.ld_unit_zero (S := S256x2048) hz, View.ld_unit_zero (S := S1024x1024) hz,
    ld_row x3 0 _ 0 rfl, ld_row x3 1 _ 1 rfl, ld_row x3 2 _ 2 rfl, ld_row x3 3 _ 3 rfl, ld_row x3 4 _ 4 rfl,
    ld_row x4 0 _ 0 rfl, ld_row x4 1 _ 1 rfl]

/-! ## From the tiles to the array

Point t of the sixteen writes rows 1024·t … 1024·t + 1023 of the output; it reads the same rows of the input and the
other four arrays whole. So each output row is the specification's row function of the same input row, and the sixteen
tiles fill the array. -/

variable (V : (c : Dev nD) → (b : Ref sig .tc) → Buf (Elt Ideal) ((c : Thread nD τ).loc b))

/-- Row r of the packed per-unit vectors, and of the statistics array, as the region finds them. -/
abbrev pvecOf (c : Dev nD) (r : Fin 8) : Fin 1024 → EReal := fun v => (V c main_v17 : Vec Ideal S8x1024 .f32) (ix2 r v)
abbrev statOf (c : Dev nD) (r : Fin 8) : Fin 1024 → EReal := fun v => (V c main_v19 : Vec Ideal S8x1024 .f32) (ix2 r v)

/-- The output array, row by row, from the arrays the region finds. -/
def outArr (c : Dev nD) : Vec Ideal S16384x1024 .f32 := fun i =>
  applyOut (fun f => (V c main_arg0 : Vec Ideal S16384x256 .f32) (ix2 ⟨(i 0).val, idx2_lt0 i⟩ f))
    (fun f k => (V c main_v3 : Vec Ideal S256x2048 .bf16) (ix2 f k))
    (fun k v => (V c main_v5 : Vec Ideal S1024x1024 .bf16) (ix2 k v))
    (pvecOf V c 0) (pvecOf V c 1) (pvecOf V c 2) (pvecOf V c 3) (pvecOf V c 4)
    (statOf V c 0) (statOf V c 1) ⟨(i 1).val, idx2_lt1 i⟩

/-- The windows' block indices at point t: the input and the output move down one tile per point, the others stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row r of the input's tile at point t is row 1024·t + r of the input. -/
theorem iblk0_apply (c : Dev nD) (t : Fin cfg2.N) (r : Fin 1024) (f : Fin 256) (n : Fin 16384) (hn : n.val = t.val * 1024 + r.val) :
    (iblk2 V c 0 t : Vec Ideal S1024x256 .f32) (ix2 r f) = (V c main_arg0 : Vec Ideal S16384x256 .f32) (ix2 n f) := by
  obtain ⟨e0, e1, -⟩ := idx_facts t
  show V c main_arg0 (((cfg2.win 0).blk t).view.emb (ix2 r f)) = V c main_arg0 (ix2 n f)
  refine congrArg _ (funext fun a => Fin.ext ?_)
  match a with
  | ⟨0, _⟩ => show win2_0.index t (0 : Fin 2) * 1024 + 1 * r.val = n.val; rw [e0, hn]; omega
  | ⟨1, _⟩ => show win2_0.index t (1 : Fin 2) * 256 + 1 * f.val = f.val; rw [e1]; omega

/-- The other four windows' blocks are their whole arrays. -/
theorem iblk1_eq (c : Dev nD) (t : Fin cfg2.N) :
    (iblk2 V c 1 t : Vec Ideal S256x2048 .bf16) = (V c main_v3 : Vec Ideal S256x2048 .bf16) := by
  obtain ⟨-, -, e0, e1, -⟩ := idx_facts t
  funext y
  show V c main_v3 (((cfg2.win 1).blk t).view.emb y) = V c main_v3 y
  refine congrArg _ (funext fun a => Fin.ext ?_)
  match a with
  | ⟨0, _⟩ => show win2_1.index t (0 : Fin 2) * 256 + 1 * (y 0).val = (y 0).val; rw [e0]; omega
  | ⟨1, _⟩ => show win2_1.index t (1 : Fin 2) * 2048 + 1 * (y 1).val = (y 1).val; rw [e1]; omega
theorem iblk2_eq (c : Dev nD) (t : Fin cfg2.N) :
    (iblk2 V c 2 t : Vec Ideal S1024x1024 .bf16) = (V c main_v5 : Vec Ideal S1024x1024 .bf16) := by
  obtain ⟨-, -, -, -, e0, e1, -⟩ := idx_facts t
  funext y
  show V c main_v5 (((cfg2.win 2).blk t).view.emb y) = V c main_v5 y
  refine congrArg _ (funext fun a => Fin.ext ?_)
  match a with
  | ⟨0, _⟩ => show win2_2.index t (0 : Fin 2) * 1024 + 1 * (y 0).val = (y 0).val; rw [e0]; omega
  | ⟨1, _⟩ => show win2_2.index t (1 : Fin 2) * 1024 + 1 * (y 1).val = (y 1).val; rw [e1]; omega
theorem iblk3_eq (c : Dev nD) (t : Fin cfg2.N) :
    (iblk2 V c 3 t : Vec Ideal S8x1024 .f32) = (V c main_v17 : Vec Ideal S8x1024 .f32) := by
  obtain ⟨-, -, -, -, -, -, e0, e1, -⟩ := idx_facts t
  funext y
  show V c main_v17 (((cfg2.win 3).blk t).view.emb y) = V c main_v17 y
  refine congrArg _ (funext fun a => Fin.ext ?_)
  match a with
  | ⟨0, _⟩ => show win2_3.index t (0 : Fin 2) * 8 + 1 * (y 0).val = (y 0).val; rw [e0]; omega
  | ⟨1, _⟩ => show win2_3.index t (1 : Fin 2) * 1024 + 1 * (y 1).val = (y 1).val; rw [e1]; omega
theorem iblk4_eq (c : Dev nD) (t : Fin cfg2.N) :
    (iblk2 V c 4 t : Vec Ideal S8x1024 .f32) = (V c main_v19 : Vec Ideal S8x1024 .f32) := by
  obtain ⟨-, -, -, -, -, -, -, -, e0, e1, -⟩ := idx_facts t
  funext y
  show V c main_v19 (((cfg2.win 4).blk t).view.emb y) = V c main_v19 y
  refine congrArg _ (funext fun a => Fin.ext ?_)
  match a with
  | ⟨0, _⟩ => show win2_4.index t (0 : Fin 2) * 8 + 1 * (y 0).val = (y 0).val; rw [e0]; omega
  | ⟨1, _⟩ => show win2_4.index t (1 : Fin 2) * 1024 + 1 * (y 1).val = (y 1).val; rw [e1]; omega

/-- The specification's row function depends on the input row and the unit only through their values. -/
theorem applyOut_congr {x x' : Fin 256 → EReal} (hx : x = x') {u u' : Fin 1024} (hu : u = u') (wfeat : Mat 256 2048) (w2t : Mat 1024 1024)
    (bias bng bnb lng lnb mean istd : Fin 1024 → EReal) :
    applyOut x wfeat w2t bias bng bnb lng lnb mean istd u = applyOut x' wfeat w2t bias bng bnb lng lnb mean istd u' := by
  subst hx hu; rfl

/-- What point t writes back is tile t of the output array. -/
theorem flushed_eq (c : Dev nD) (t : Fin cfg2.N) :
    (dat2 V c).flushed 5 t = ((cfg2.win 5).blk t).view.read (Elt Ideal) (outArr V c) := by
  show (cfg2.win 5).cut (grid2.coords t) ((dat2 V c).after 5 t) = _
  rw [after2_5]
  obtain ⟨-, -, -, -, -, -, -, -, -, -, e0, e1⟩ := idx_facts t
  funext j
  obtain ⟨r, u, rfl⟩ : ∃ (r u : Fin 1024), j = ix2 r u := ⟨j 0, j 1, eq_ix2 j⟩
  show out2_5 (iblk2 V c 0 t) (iblk2 V c 1 t) (iblk2 V c 2 t) (iblk2 V c 3 t) (iblk2 V c 4 t) (ix2 r u)
    = outArr V c (((cfg2.win 5).blk t).view.emb (ix2 r u))
  rw [iblk1_eq V c t, iblk2_eq V c t, iblk3_eq V c t, iblk4_eq V c t]
  refine (out_apply (iblk2 V c 0 t) (V c main_v3) (V c main_v5) (V c main_v17) (V c main_v19) r u).trans ?_
  unfold outArr
  refine applyOut_congr (funext fun f => iblk0_apply V c t r f _ ?_) (Fin.ext ?_) _ _ _ _ _ _ _ _ _
  · show win2_5.index t (0 : Fin 2) * 1024 + 1 * r.val = t.val * 1024 + r.val
    rw [e0]; omega
  · show u.val = win2_5.index t (1 : Fin 2) * 1024 + 1 * u.val
    rw [e1]; omega

/-- An index of the output is in point t's tile iff each coordinate is in the tile's range. -/
theorem mem_blk (t : Fin cfg2.N) (i : S16384x1024.Idx) :
    i ∈ ((cfg2.win 5).blk t).view.set ↔ ∀ a : Fin 2, win2_5.index t a * S1024x1024.size a ≤ (i a).val
      ∧ (i a).val < win2_5.index t a * S1024x1024.size a + S1024x1024.size a := by
  show i ∈ ((View.whole main_v20).slice (win2_5.rect t)).set ↔ _
  rw [View.set_slice_whole, Rect.mem_set_unit]
  exact Iff.rfl

/-- Row n lies in the tile of point n / 1024. -/
theorem cover (i : S16384x1024.Idx) :
    ∃ t : Fin cfg2.N, (cfg2.win 5).flush t = true ∧ i ∈ ((cfg2.win 5).blk t).view.set := by
  have hi0 : (i 0).val < 16384 := (i 0).isLt
  have hi1 : (i 1).val < 1024 := (i 1).isLt
  obtain ⟨t, ht⟩ : ∃ t : Fin cfg2.N, t.val = (i 0).val / 1024 :=
    ⟨⟨(i 0).val / 1024, by rw [show cfg2.N = 16 from N_2]; omega⟩, rfl⟩
  obtain ⟨-, -, -, -, -, -, -, -, -, -, e0, e1⟩ := idx_facts t
  refine ⟨t, flush2_5 t, ?_⟩
  rw [mem_blk]
  intro a
  match a with
  | ⟨0, _⟩ =>
    show win2_5.index t (0 : Fin 2) * 1024 ≤ (i 0).val ∧ (i 0).val < win2_5.index t (0 : Fin 2) * 1024 + 1024
    rw [e0, ht]; omega
  | ⟨1, _⟩ =>
    show win2_5.index t (1 : Fin 2) * 1024 ≤ (i 1).val ∧ (i 1).val < win2_5.index t (1 : Fin 2) * 1024 + 1024
    rw [e1]; omega

/-- The output array after the region. -/
theorem final_arr (c : Dev nD) : (dat2 V c).arrAt 5 cfg2.N = outArr V c :=
  (dat2 V c).arrAt_eq_of_cover 5 (outArr V c) (fun t _ => flushed_eq V c t) cover

theorem final (c : Dev nD) (n : Fin 16384) (u : Fin 1024) :
    ((dat2 V c).arrAt 5 cfg2.N : Vec Ideal S16384x1024 .f32) (ix2 n u)
      = applyOut (fun f => (V c main_arg0 : Vec Ideal S16384x256 .f32) (ix2 n f))
          (fun f k => (V c main_v3 : Vec Ideal S256x2048 .bf16) (ix2 f k))
          (fun k v => (V c main_v5 : Vec Ideal S1024x1024 .bf16) (ix2 k v))
          (pvecOf V c 0) (pvecOf V c 1) (pvecOf V c 2) (pvecOf V c 3) (pvecOf V c 4)
          (statOf V c 0) (statOf V c 1) u :=
  (congrFun (final_arr V c) (ix2 n u)).trans (by unfold outArr; rfl)

end Cert.KernelIdeal.ApplyValue

end
-- ==== Proof.KHost.lean ====
import proofs.«160323_g2000403857960831_pallasbulk_229_4_alg».proof.Proof.Gen.KernelIdeal.Launch
import proofs.«160323_g2000403857960831_pallasbulk_229_4_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)
open Cert.Spec

namespace Cert.KernelIdeal.HostValue

open Cert.KernelIdeal Cert.KernelIdeal.Gen Idealize.ShloMosaic.StableHlo

/-! ## A host scatter whose body returns the update, read at an index

The scatter is the left fold, over the update indices in row-major order, of the step "write the update at the place
its index lands at". When every update index lands inside the operand, at a place `ρ j` of its own (`ρ` injective),
the fold reads, at `ρ j`, update `j`, and at an index that is no update's place, the operand. -/

section ScatterRead
variable {α : Type} {s si u : Shape} {w : Nat}

/-- One step of the scatter's fold when the body returns the update. -/
def scatStep (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

/-- The scatter is the fold of that step over the row-major positions of the updates. -/
theorem scatter_eq_foldl (d : ScatterDims s si u) (x : s.Idx → α) (idx : IVec si w) (upd : u.Idx → α) :
    Host.scatter d (fun _ b => b) x idx upd = (List.finRange u.numel).foldl (scatStep d idx upd) x := rfl

/-- A step whose update lands at `i` writes the update there and keeps every other element. -/
theorem scatStep_of_some (d : ScatterDims s si u) (idx : IVec si w) (upd : u.Idx → α) (r : s.Idx → α) (n : Fin u.numel)
    (i : s.Idx) (h : d.resultIdx? (u.rowMajor.symm n) idx = some i) (i' : s.Idx) :
    scatStep d idx upd r n i' = if i' = i then upd (u.rowMajor.symm n) else r i' := by
  unfold scatStep; rw [h]

/-- Steps none of which lands at `i'` keep the element at `i'`. -/
theorem foldl_scatStep_miss (d : ScatterDims s si u) (idx : IVec si w) (upd : u.Idx → α) (ρ : u.Idx → s.Idx)
    (hρ : ∀ j, d.resultIdx? j idx = some (ρ j)) (i' : s.Idx) :
    ∀ (l : List (Fin u.numel)) (x : s.Idx → α), (∀ n ∈ l, ρ (u.rowMajor.symm n) ≠ i') →
      (l.foldl (scatStep d idx upd) x) i' = x i'
  | [], _, _ => rfl
  | n :: l, x, h => by
    rw [List.foldl_cons, foldl_scatStep_miss d idx upd ρ hρ i' l _ (fun m hm => h m (List.mem_cons_of_mem _ hm)),
      scatStep_of_some d idx upd x n _ (hρ _)]
    exact if_neg (fun e => h n List.mem_cons_self e.symm)

/-- Steps over distinct positions, one of them `n0`, leave update `n0` at its place: the places being pairwise distinct,
    no later step lands there. -/
theorem foldl_scatStep_hit (d : ScatterDims s si u) (idx : IVec si w) (upd : u.Idx → α) (ρ : u.Idx → s.Idx)
    (hρ : ∀ j, d.resultIdx? j idx = some (ρ j)) (hinj : Function.Injective ρ) (n0 : Fin u.numel) :
    ∀ (l : List (Fin u.numel)) (x : s.Idx → α), l.Nodup → n0 ∈ l →
      (l.foldl (scatStep d idx upd) x) (ρ (u.rowMajor.symm n0)) = upd (u.rowMajor.symm n0)
  | [], _, _, h => absurd h List.not_mem_nil
  | n :: l, x, hnd, hmem => by
    rw [List.foldl_cons]
    rcases List.mem_cons.mp hmem with rfl | hin
    · rw [foldl_scatStep_miss d idx upd ρ hρ (ρ (u.rowMajor.symm n0)) l _ (fun m hm e => (List.nodup_cons.mp hnd).1
          (by have hmn := u.rowMajor.symm.injective (hinj e); rwa [hmn] at hm)),
        scatStep_of_some d idx upd x n0 _ (hρ _)]
      exact if_pos rfl
    · exact foldl_scatStep_hit d idx upd ρ hρ hinj n0 l _ (List.nodup_cons.mp hnd).2 hin

/-- The scatter at the place of update index `j` reads that update, -/
theorem scatter_set_hit (d : ScatterDims s si u) (x : s.Idx → α) (idx : IVec si w) (upd : u.Idx → α) (ρ : u.Idx → s.Idx)
    (hρ : ∀ j, d.resultIdx? j idx = some (ρ j)) (hinj : Function.Injective ρ) (j : u.Idx) :
    Host.scatter d (fun _ b => b) x idx upd (ρ j) = upd j := by
  rw [scatter_eq_foldl]
  have := foldl_scatStep_hit d idx upd ρ hρ hinj (u.rowMajor j) (List.finRange u.numel) x (List.nodup_finRange _) (List.mem_finRange _)
  rwa [Equiv.symm_apply_apply] at this

/-- and at an index that is no update's place it reads the operand. -/
theorem scatter_set_miss (d : ScatterDims s si u) (x : s.Idx → α) (idx : IVec si w) (upd : u.Idx → α) (ρ : u.Idx → s.Idx)
    (hρ : ∀ j, d.resultIdx? j idx = some (ρ j)) (i' : s.Idx) (hi : ∀ j, ρ j ≠ i') :
    Host.scatter d (fun _ b => b) x idx upd i' = x i' := by
  rw [scatter_eq_foldl]
  exact foldl_scatStep_miss d idx upd ρ hρ i' _ x (fun n _ => hi _)

end ScatterRead

/-! ## The scatter of one row into the 8 × 1024 array

Its dimension numbers: the one scatter index names the row (operand axis 0, an inserted window axis), the update's one
axis is the window along operand axis 1. With the index word reading `k`, update `c` lands at `(k, c)`. -/

/-- The place of update index `j` when the index word reads `k`. -/
abbrev rowPlace (k : Fin 8) (j : S1024.Idx) : S8x1024.Idx := ix2 k (⟨(j 0).val, (j 0).isLt⟩ : Fin 1024)

/-- Every update index lands inside the array, at its place in row `k`: start `(k, 0)` plus window coordinate `(0, c)`. -/
theorem resultIdx_row (idx : IVec S1 32) (k : Fin 8) (hidx : ∀ i, (idx i).toInt = (k.val : Int)) (j : S1024.Idx) :
    scatter_S8x1024_S1_S1024_0_0_0_0.resultIdx? j idx = some (rowPlace k j) := by
  have hst0 : scatter_S8x1024_S1_S1024_0_0_0_0.start j idx (0 : Fin 2) = (k.val : Int) := by
    unfold ScatterDims.start; rw [dif_pos (by decide)]; exact hidx _
  have hst1 : scatter_S8x1024_S1_S1024_0_0_0_0.start j idx (1 : Fin 2) = 0 := by
    unfold ScatterDims.start; rw [dif_neg (by decide)]
  have hw0 : scatter_S8x1024_S1_S1024_0_0_0_0.window j (0 : Fin 2) = 0 := by
    unfold ScatterDims.window; rw [dif_neg (by decide)]
  have hw1 : scatter_S8x1024_S1_S1024_0_0_0_0.window j (1 : Fin 2) = (j 0).val := by
    unfold ScatterDims.window; rw [dif_pos (by decide)]; rfl
  have hk := k.isLt
  have hj : (j 0).val < 1024 := (j 0).isLt
  unfold ScatterDims.resultIdx?
  have hin : ∀ a : Fin 2, 0 ≤ scatter_S8x1024_S1_S1024_0_0_0_0.start j idx a + (scatter_S8x1024_S1_S1024_0_0_0_0.window j a : Int) ∧
      scatter_S8x1024_S1_S1024_0_0_0_0.start j idx a + (scatter_S8x1024_S1_S1024_0_0_0_0.window j a : Int) < ((S8x1024.size a : Nat) : Int) := by
    refine Fin.forall_fin_two.2 ⟨?_, ?_⟩
    · rw [hst0, hw0]; show (0 : Int) ≤ (k.val : Int) + ((0 : Nat) : Int) ∧ (k.val : Int) + ((0 : Nat) : Int) < ((8 : Nat) : Int); omega
    · rw [hst1, hw1]; show (0 : Int) ≤ 0 + ((j 0).val : Int) ∧ 0 + ((j 0).val : Int) < ((1024 : Nat) : Int); omega
  rw [dif_pos hin]
  congr 1
  funext a
  apply Fin.ext
  show (scatter_S8x1024_S1_S1024_0_0_0_0.start j idx a + (scatter_S8x1024_S1_S1024_0_0_0_0.window j a : Int)).toNat = (rowPlace k j a).val
  match a with
  | ⟨0, _⟩ =>
    show (scatter_S8x1024_S1_S1024_0_0_0_0.start j idx (0 : Fin 2) + (scatter_S8x1024_S1_S1024_0_0_0_0.window j (0 : Fin 2) : Int)).toNat = k.val
    rw [hst0, hw0]; omega
  | ⟨1, _⟩ =>
    show (scatter_S8x1024_S1_S1024_0_0_0_0.start j idx (1 : Fin 2) + (scatter_S8x1024_S1_S1024_0_0_0_0.window j (1 : Fin 2) : Int)).toNat = (j 0).val
    rw [hst1, hw1]; omega

/-- Distinct update indices land at distinct places. -/
theorem rowPlace_inj (k : Fin 8) : Function.Injective (rowPlace k) := by
  intro j j' h
  have h1 := congrFun h (1 : Fin 2)
  funext a
  match a with
  | ⟨0, _⟩ => exact Fin.ext (by have := congrArg Fin.val h1; exact this)

/-- THE ONE-ROW SCATTER READ AT `(r, c)`: update `c` in row `k`, the operand in every other row. -/
theorem scatter_row_apply {α : Type} (x : S8x1024.Idx → α) (idx : IVec S1 32) (upd : S1024.Idx → α) (k : Fin 8)
    (hidx : ∀ i, (idx i).toInt = (k.val : Int)) (r : Fin 8) (c : Fin 1024) :
    Host.scatter scatter_S8x1024_S1_S1024_0_0_0_0 (fun _ b => b) x idx upd (ix2 r c) = if r = k then upd (ix1 c) else x (ix2 r c) := by
  by_cases hr : r = k
  · subst hr
    rw [if_pos rfl]
    exact scatter_set_hit _ x idx upd (rowPlace r) (resultIdx_row idx r hidx) (rowPlace_inj r) (ix1 c)
  · rw [if_neg hr]
    refine scatter_set_miss _ x idx upd (rowPlace k) (resultIdx_row idx k hidx) _ (fun j e => hr ?_)
    have := congrFun e (0 : Fin 2)
    exact this.symm

-- The core's buffer contents before the host operations that precede the first region.
variable (W : Valuation τ sig (Elt Ideal))

/-- A rank-1 array of 1024 numbers, by its coordinate. -/
abbrev vec1 (x : (⟨1, ![1024]⟩ : Shape).Idx → EReal) : Fin 1024 → EReal := fun u => x (ix1 u)

/-- What those operations leave in each buffer. -/
abbrev aft : Valuation τ sig (Elt Ideal) := StableHlo.after (hostOps0 (F := Ideal)) W

/-! ## The weight matrices

Both weight matrices are transposed (1024 × 256 to 256 × 1024) and laid side by side along the columns: columns
0 to 1023 the first, columns 1024 to 2047 the second. The narrowing to bf16 is the identity on extended reals. -/

/-- A transpose of a matrix read at `(a, b)` is the matrix at `(b, a)`. -/
theorem transpose2_apply {m n : Nat} {α : Type} (x : (⟨2, ![m, n]⟩ : Shape).Idx → α)
    (h : (⟨2, ![m, n]⟩ : Shape).Transposes [1, 0] ⟨2, ![n, m]⟩) (a : Fin n) (b : Fin m) :
    transpose ⟨2, ![n, m]⟩ [1, 0] x h (ix2 a b) = x (ix2 b a) :=
  transpose_apply [1, 0] x h (ix2 a b) (ix2 b a) (fun c => match c with | ⟨0, _⟩ => rfl | ⟨1, _⟩ => rfl)

theorem wfeat_h (f : Fin 256) (u : Fin 1024) :
    (aft W (Proc.devRef .tc main_v3) : Vec Ideal S256x2048 .bf16) (ix2 f (colH u))
      = (W (Proc.devRef .tc main_arg1) : Vec Ideal S1024x256 .f32) (ix2 u f) := by
  dsimp only [aft]
  after_results
  refine (truncf_apply (φ := .f32) (ψ := .bf16) _ bitsLt_bf16_f32 _).trans ?_
  refine (concatenate_pair_apply_left (t := S256x2048) (s₁ := S256x1024) (s₂ := S256x1024) _ _ _ _ (ix2 f (colH u)) rfl (ix2 f u)
    (fun b => match b with | ⟨0, _⟩ => rfl | ⟨1, _⟩ => rfl)).trans ?_
  exact transpose2_apply _ _ f u

theorem wfeat_s (f : Fin 256) (u : Fin 1024) :
    (aft W (Proc.devRef .tc main_v3) : Vec Ideal S256x2048 .bf16) (ix2 f (colS u))
      = (W (Proc.devRef .tc main_arg4) : Vec Ideal S1024x256 .f32) (ix2 u f) := by
  dsimp only [aft]
  after_results
  refine (truncf_apply (φ := .f32) (ψ := .bf16) _ bitsLt_bf16_f32 _).trans ?_
  refine (concatenate_pair_apply_right (t := S256x2048) (s₁ := S256x1024) (s₂ := S256x1024) _ _ _ _ (ix2 f (colS u)) rfl rfl (ix2 f u)
    (fun b hb => match b, hb with | ⟨0, _⟩, _ => rfl | ⟨1, _⟩, hb => absurd rfl hb)
    (by show u.val + 1024 = 1024 + u.val; omega)).trans ?_
  exact transpose2_apply _ _ f u

theorem w2t (k v : Fin 1024) :
    (aft W (Proc.devRef .tc main_v5) : Vec Ideal S1024x1024 .bf16) (ix2 k v)
      = (W (Proc.devRef .tc main_arg2) : Vec Ideal S1024x1024 .f32) (ix2 v k) := by
  dsimp only [aft]
  after_results
  refine (truncf_apply (φ := .f32) (ψ := .bf16) _ bitsLt_bf16_f32 _).trans ?_
  exact transpose2_apply _ _ k v

/-! ## The packed per-unit vectors

The 8 × 1024 array starts as zeros and receives five one-row scatters, rows 0 to 4 in turn; reading row `r`, the later
scatters (rows above `r`) miss and scatter `r` writes its update. -/

theorem pvec0 (u : Fin 1024) :
    (aft W (Proc.devRef .tc main_v17) : Vec Ideal S8x1024 .f32) (ix2 (0 : Fin 8) u)
      = vec1 (W (Proc.devRef .tc main_arg3)) u + vec1 (W (Proc.devRef .tc main_arg5)) u := by
  dsimp only [aft]
  after_results
  refine (scatter_row_apply _ _ _ (4 : Fin 8) (fun _ => rfl) 0 u).trans ?_
  rw [if_neg (by decide)]
  refine (scatter_row_apply _ _ _ (3 : Fin 8) (fun _ => rfl) 0 u).trans ?_
  rw [if_neg (by decide)]
  refine (scatter_row_apply _ _ _ (2 : Fin 8) (fun _ => rfl) 0 u).trans ?_
  rw [if_neg (by decide)]
  refine (scatter_row_apply _ _ _ (1 : Fin 8) (fun _ => rfl) 0 u).trans ?_
  rw [if_neg (by decide)]
  refine (scatter_row_apply _ _ _ (0 : Fin 8) (fun _ => rfl) 0 u).trans ?_
  rw [if_pos rfl]
  rfl

theorem pvec1 (u : Fin 1024) :
    (aft W (Proc.devRef .tc main_v17) : Vec Ideal S8x1024 .f32) (ix2 (1 : Fin 8) u) = vec1 (W (Proc.devRef .tc main_arg6)) u := by
  dsimp only [aft]
  after_results
  refine (scatter_row_apply _ _ _ (4 : Fin 8) (fun _ => rfl) 1 u).trans ?_
  rw [if_neg (by decide)]
  refine (scatter_row_apply _ _ _ (3 : Fin 8) (fun _ => rfl) 1 u).trans ?_
  rw [if_neg (by decide)]
  refine (scatter_row_apply _ _ _ (2 : Fin 8) (fun _ => rfl) 1 u).trans ?_
  rw [if_neg (by decide)]
  refine (scatter_row_apply _ _ _ (1 : Fin 8) (fun _ => rfl) 1 u).trans ?_
  rw [if_pos rfl]

theorem pvec2 (u : Fin 1024) :
    (aft W (Proc.devRef .tc main_v17) : Vec Ideal S8x1024 .f32) (ix2 (2 : Fin 8) u) = vec1 (W (Proc.devRef .tc main_arg7)) u := by
  dsimp only [aft]
  after_results
  refine (scatter_row_apply _ _ _ (4 : Fin 8) (fun _ => rfl) 2 u).trans ?_
  rw [if_neg (by decide)]
  refine (scatter_row_apply _ _ _ (3 : Fin 8) (fun _ => rfl) 2 u).trans ?_
  rw [if_neg (by decide)]
  refine (scatter_row_apply _ _ _ (2 : Fin 8) (fun _ => rfl) 2 u).trans ?_
  rw [if_pos rfl]

theorem pvec3 (u : Fin 1024) :
    (aft W (Proc.devRef .tc main_v17) : Vec Ideal S8x1024 .f32) (ix2 (3 : Fin 8) u) = vec1 (W (Proc.devRef .tc main_arg8)) u := by
  dsimp only [aft]
  after_results
  refine (scatter_row_apply _ _ _ (4 : Fin 8) (fun _ => rfl) 3 u).trans ?_
  rw [if_neg (by decide)]
  refine (scatter_row_apply _ _ _ (3 : Fin 8) (fun _ => rfl) 3 u).trans ?_
  rw [if_pos rfl]

theorem pvec4 (u : Fin 1024) :
    (aft W (Proc.devRef .tc main_v17) : Vec Ideal S8x1024 .f32) (ix2 (4 : Fin 8) u) = vec1 (W (Proc.devRef .tc main_arg9)) u := by
  dsimp only [aft]
  after_results
  refine (scatter_row_apply _ _ _ (4 : Fin 8) (fun _ => rfl) 4 u).trans ?_
  rw [if_pos rfl]

/-- The input rows are not written by those operations. -/
theorem keeps_feat : aft W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, Finset.mem_singleton]
    repeat' apply And.intro
    all_goals exact StableHlo.devRef_ne_of_ne (by decide)))

end Cert.KernelIdeal.HostValue

end
-- ==== Proof.KChain.lean ====
import proofs.«160323_g2000403857960831_pallasbulk_229_4_alg».proof.Proof.Gen.KernelIdeal.Frame
import proofs.«160323_g2000403857960831_pallasbulk_229_4_alg».proof.Proof.K0Value
import proofs.«160323_g2000403857960831_pallasbulk_229_4_alg».proof.Proof.K1Value
import proofs.«160323_g2000403857960831_pallasbulk_229_4_alg».proof.Proof.K2Value
import proofs.«160323_g2000403857960831_pallasbulk_229_4_alg».proof.Proof.KHost

set_option maxRecDepth 16384

noncomputable section

open scoped BigOperators
open Idealize.ShloMosaic Idealize.ShloMosaic.TcCoe Idealize.SL.Sem Idealize.ShloMosaic.ValueIdx
open Idealize.ShloMosaic.Pipeline (Dat)
open Cert.Spec

/-!
  The kernel's result array, entry by entry, as a function of the argument arrays: the three regions' values chained
  through the buffer contents at each boundary of @main. The statistics array the last region reads is what the
  second region wrote from the Gram matrices and row sums the first region accumulated over the input rows.
-/

namespace Cert.KernelIdeal.Chain

open Cert.KernelIdeal Cert.KernelIdeal.Gen

variable (m : (ℓ : Loc nD τ sig) → Buf (Elt Ideal) ℓ) (ρ : Dev nD → PrngReg)

/-- The input rows and the hidden layer's weights (transposed), by coordinates, as launched. -/
abbrev featM (c : Dev nD) : Mat 16384 256 := fun n f => (m ((c : Thread nD τ).loc main_arg0) : Vec Ideal S16384x256 .f32) (ix2 n f)
abbrev w1tM (c : Dev nD) : Mat 256 1024 := fun f u => (m ((c : Thread nD τ).loc main_arg1) : Vec Ideal S1024x256 .f32) (ix2 u f)

/-! ## The buffers each region finds -/

theorem V1_feat (c : Dev nD) : V1 m ρ c main_arg0 = m ((c : Thread nD τ).loc main_arg0) :=
  HostValue.keeps_feat (W0 m ρ c)

theorem V2_feat (c : Dev nD) : V2 m ρ c main_arg0 = m ((c : Thread nD τ).loc main_arg0) :=
  ((W2_arr m ρ c 0).trans (((dat0 (V1 m ρ) c).arrAt_in 0 rfl _).trans (A_eq0 (V1 m ρ) c 0))).trans (V1_feat m ρ c)

theorem V3_feat (c : Dev nD) : V3 m ρ c main_arg0 = m ((c : Thread nD τ).loc main_arg0) :=
  (W3_of_ne m ρ c main_arg0 (by decide)).trans (V2_feat m ρ c)

theorem V2_v3 (c : Dev nD) : V2 m ρ c main_v3 = HostValue.aft (W0 m ρ c) (Proc.devRef .tc main_v3) :=
  W2_of_ne m ρ c main_v3 (by decide)

theorem V3_v3 (c : Dev nD) : V3 m ρ c main_v3 = HostValue.aft (W0 m ρ c) (Proc.devRef .tc main_v3) :=
  ((W3_arr m ρ c 2).trans (((dat1 (V2 m ρ) c).arrAt_in 2 rfl _).trans (A_eq1 (V2 m ρ) c 2))).trans (V2_v3 m ρ c)

theorem V3_v5 (c : Dev nD) : V3 m ρ c main_v5 = HostValue.aft (W0 m ρ c) (Proc.devRef .tc main_v5) :=
  (W3_of_ne m ρ c main_v5 (by decide)).trans (W2_of_ne m ρ c main_v5 (by decide))

theorem V3_v17 (c : Dev nD) : V3 m ρ c main_v17 = HostValue.aft (W0 m ρ c) (Proc.devRef .tc main_v17) :=
  (W3_of_ne m ρ c main_v17 (by decide)).trans (W2_of_ne m ρ c main_v17 (by decide))

theorem V3_v19 (c : Dev nD) : V3 m ρ c main_v19 = (dat1 (V2 m ρ) c).arrAt 3 cfg1.N := W3_arr m ρ c 3

theorem V2_v18_0 (c : Dev nD) : V2 m ρ c main_v18_0 = (dat0 (V1 m ρ) c).arrAt 1 cfg0.N := W2_arr m ρ c 1

theorem V2_v18_1 (c : Dev nD) : V2 m ρ c main_v18_1 = (dat0 (V1 m ρ) c).arrAt 2 cfg0.N := W2_arr m ρ c 2

/-! ## The statistics -/

theorem feat1 (c : Dev nD) : GramValue.featOf (V1 m ρ) c = featM m c := by
  funext n f
  show (V1 m ρ c main_arg0 : Vec Ideal S16384x256 .f32) (ix2 n f) = _
  rw [V1_feat]

theorem rs_eq (c : Dev nD) : StatsValue.rsOf (V2 m ρ) c = rsPart (featM m c) := by
  funext cc s f
  show (V2 m ρ c main_v18_1 : Vec Ideal S2x8x256 .f32) (ix3 cc s f) = _
  rw [V2_v18_1, GramValue.rowsums, feat1]

theorem gram_eq (c : Dev nD) : StatsValue.gramOf (V2 m ρ) c = gramPart (featM m c) := by
  funext cc f g
  show (V2 m ρ c main_v18_0 : Vec Ideal S2x256x256 .f32) (ix3 cc f g) = _
  rw [V2_v18_0, GramValue.gram, feat1]

theorem w1t_eq (c : Dev nD) : StatsValue.w1tOf (V2 m ρ) c = w1tM m c := by
  funext f u
  show (V2 m ρ c main_v3 : Vec Ideal S256x2048 .bf16) (ix2 f (colH u)) = _
  rw [V2_v3, HostValue.wfeat_h]

/-- Row 0 of the statistics array the last region reads: the batch mean. -/
theorem mean_eq (c : Dev nD) (v : Fin 1024) :
    (V3 m ρ c main_v19 : Vec Ideal S8x1024 .f32) (ix2 (0 : Fin 8) v) = meanK (rsPart (featM m c)) (w1tM m c) v := by
  rw [V3_v19, StatsValue.mean_row, rs_eq, w1t_eq]

/-- Row 1: the inverse standard deviation. -/
theorem istd_eq (c : Dev nD) (v : Fin 1024) :
    (V3 m ρ c main_v19 : Vec Ideal S8x1024 .f32) (ix2 (1 : Fin 8) v)
      = istdOf (e2K (gramPart (featM m c)) (w1tM m c) v) (meanK (rsPart (featM m c)) (w1tM m c) v) := by
  rw [V3_v19, StatsValue.istd_row, rs_eq, gram_eq, w1t_eq]

/-! ## The result -/

/-- The result array at (n, u): one output entry of row n, from the region-entry arrays of the last region. -/
theorem result_eq (c : Dev nD) (n : Fin 16384) (u : Fin 1024) :
    (W4 m ρ c (Proc.devRef .tc main_v20) : Vec Ideal S16384x1024 .f32) (ix2 n u)
      = applyOut (fun f => (V3 m ρ c main_arg0 : Vec Ideal S16384x256 .f32) (ix2 n f))
          (fun f k => (V3 m ρ c main_v3 : Vec Ideal S256x2048 .bf16) (ix2 f k))
          (fun k v => (V3 m ρ c main_v5 : Vec Ideal S1024x1024 .bf16) (ix2 k v))
          (ApplyValue.pvecOf (V3 m ρ) c 0) (ApplyValue.pvecOf (V3 m ρ) c 1) (ApplyValue.pvecOf (V3 m ρ) c 2)
          (ApplyValue.pvecOf (V3 m ρ) c 3) (ApplyValue.pvecOf (V3 m ρ) c 4)
          (ApplyValue.statOf (V3 m ρ) c 0) (ApplyValue.statOf (V3 m ρ) c 1) u :=
  (congrFun (W4_arr m ρ c 5) (ix2 n u)).trans (ApplyValue.final (V3 m ρ) c n u)

/-! ## The last region's ingredients, from the arguments -/

theorem x_eq (c : Dev nD) (n : Fin 16384) (f : Fin 256) :
    (V3 m ρ c main_arg0 : Vec Ideal S16384x256 .f32) (ix2 n f) = featM m c n f := by
  rw [V3_feat]

theorem wh_eq (c : Dev nD) (f : Fin 256) (k : Fin 1024) :
    (V3 m ρ c main_v3 : Vec Ideal S256x2048 .bf16) (ix2 f (colH k))
      = (m ((c : Thread nD τ).loc main_arg1) : Vec Ideal S1024x256 .f32) (ix2 k f) := by
  rw [V3_v3, HostValue.wfeat_h]

theorem ws_eq (c : Dev nD) (f : Fin 256) (k : Fin 1024) :
    (V3 m ρ c main_v3 : Vec Ideal S256x2048 .bf16) (ix2 f (colS k))
      = (m ((c : Thread nD τ).loc main_arg4) : Vec Ideal S1024x256 .f32) (ix2 k f) := by
  rw [V3_v3, HostValue.wfeat_s]

theorem w2_eq (c : Dev nD) (k v : Fin 1024) :
    (V3 m ρ c main_v5 : Vec Ideal S1024x1024 .bf16) (ix2 k v)
      = (m ((c : Thread nD τ).loc main_arg2) : Vec Ideal S1024x1024 .f32) (ix2 v k) := by
  rw [V3_v5, HostValue.w2t]

theorem p0_eq (c : Dev nD) (v : Fin 1024) :
    ApplyValue.pvecOf (V3 m ρ) c 0 v
      = HostValue.vec1 (m ((c : Thread nD τ).loc main_arg3)) v + HostValue.vec1 (m ((c : Thread nD τ).loc main_arg5)) v := by
  show (V3 m ρ c main_v17 : Vec Ideal S8x1024 .f32) (ix2 (0 : Fin 8) v) = _
  rw [V3_v17, HostValue.pvec0]

theorem p1_eq (c : Dev nD) (v : Fin 1024) :
    ApplyValue.pvecOf (V3 m ρ) c 1 v = HostValue.vec1 (m ((c : Thread nD τ).loc main_arg6)) v := by
  show (V3 m ρ c main_v17 : Vec Ideal S8x1024 .f32) (ix2 (1 : Fin 8) v) = _
  rw [V3_v17, HostValue.pvec1]

theorem p2_eq (c : Dev nD) (v : Fin 1024) :
    ApplyValue.pvecOf (V3 m ρ) c 2 v = HostValue.vec1 (m ((c : Thread nD τ).loc main_arg7)) v := by
  show (V3 m ρ c main_v17 : Vec Ideal S8x1024 .f32) (ix2 (2 : Fin 8) v) = _
  rw [V3_v17, HostValue.pvec2]

theorem p3_eq (c : Dev nD) (v : Fin 1024) :
    ApplyValue.pvecOf (V3 m ρ) c 3 v = HostValue.vec1 (m ((c : Thread nD τ).loc main_arg8)) v := by
  show (V3 m ρ c main_v17 : Vec Ideal S8x1024 .f32) (ix2 (3 : Fin 8) v) = _
  rw [V3_v17, HostValue.pvec3]

theorem p4_eq (c : Dev nD) (v : Fin 1024) :
    ApplyValue.pvecOf (V3 m ρ) c 4 v = HostValue.vec1 (m ((c : Thread nD τ).loc main_arg9)) v := by
  show (V3 m ρ c main_v17 : Vec Ideal S8x1024 .f32) (ix2 (4 : Fin 8) v) = _
  rw [V3_v17, HostValue.pvec4]

end Cert.KernelIdeal.Chain

end
-- ==== Proof.R0Value.lean ====
import proofs.«160323_g2000403857960831_pallasbulk_229_4_alg».proof.Proof.Gen.ReferenceIdeal.Frame
import proofs.«160323_g2000403857960831_pallasbulk_229_4_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)
open Cert.Spec

namespace Cert.ReferenceIdeal.StatsValue

open Cert.ReferenceIdeal Cert.ReferenceIdeal.Gen

/-!
# The batch statistics the reference's first pass accumulates

The 16384 input rows are read in 32 blocks of 512; block `t = 16·cc + i` is tile `i` of half `cc`. For a block `x` and
the weights `w` the pass forms the hidden values `h[r,u] = ∑ f, x[r,f]·w[f,u]` of the block's rows, regroups the rows as
64 groups of 8 sublanes (row `q·8 + s`), and adds, to a 16×1024 accumulator kept per half, `∑ q, h[q·8+s, u]` into row `s`
and `∑ q, h[q·8+s, u]²` into row `8 + s`. The accumulator is zeroed at the first tile of a half and written to the half's
block of the 2×16×1024 result after the last. So the result holds, at (cc, s, u), the sum over the half's sixteen tiles
and 64 groups of the hidden values of sublane `s`, and at (cc, 8 + s, u) the sum of their squares: sums re-associated
only, which the extended reals allow without any finiteness.
-/

variable (V : (c : Dev nD) → (b : Ref sig .tc) → Buf (Elt Ideal) ((c : Thread nD τ).loc b))

/-- The input rows and the hidden layer's weights as the region finds them. -/
abbrev featOf (c : Dev nD) : Mat 16384 256 := fun n f => (V c main_arg0 : Vec Ideal S16384x256 .f32) (ix2 n f)
abbrev w1tOf (c : Dev nD) : Mat 256 1024 := fun f u => (V c main_v0 : Vec Ideal S256x1024 .f32) (ix2 f u)

/-! ## The body's arithmetic at an index

A block `x` of 512 input rows and the weights `w`: the hidden value of row `r` at unit `u` is `∑ f, x[r,f]·w[f,u]`.
The body forms all 512×1024 of them by one product, regroups the rows as 64 groups of 8 (row `q·8 + s` is sublane `s`
of group `q`), and adds, per sublane, the sum over the groups of the values and of their squares to the two halves
of the sixteen-row accumulator. -/

/-- The hidden value of row `r` of a block at unit `u`. -/
abbrev hid (x : Vec Ideal S512x256 .f32) (w : Vec Ideal S256x1024 .f32) (r : Fin 512) (u : Fin 1024) : EReal :=
  ∑ f : Fin 256, x (ix2 r f) * w (ix2 f u)

/-- The product into the zero accumulator, read at (r, u): the sum over the contracted feature axis. -/
theorem product_apply (x : FVec Ideal S512x256 .f32) (w : FVec Ideal S256x1024 .f32) (r : Fin 512) (u : Fin 1024) :
    matmul dot_S512x256_S256x1024_S512x1024_1_0_0_1_n_n none x w (constant (F := Ideal) S512x1024 .f32 0x00000000#32) (ix2 r u)
      = hid x w r u := by
  show FloatOps.matmul dot_S512x256_S256x1024_S512x1024_1_0_0_1_n_n none x w
    (constant (F := Ideal) S512x1024 .f32 0x00000000#32) (ix2 r u) = _
  rw [Ideal.matmul_constant_zero_apply,
    ← Equiv.sum_comp (contrEquiv1 dot_S512x256_S256x1024_S512x1024_1_0_0_1_n_n 256 rfl rfl).symm]
  refine Finset.sum_congr rfl fun f _ => ?_
  have cf := contrEquiv1_symm_val dot_S512x256_S256x1024_S512x1024_1_0_0_1_n_n 256 rfl rfl f
  have hl : dot_S512x256_S256x1024_S512x1024_1_0_0_1_n_n.lhsIdx (ix2 r u) ((contrEquiv1 _ 256 rfl rfl).symm f) = ix2 r f := by
    funext ax; apply Fin.ext
    match ax with
    | ⟨0, _⟩ => simp [DotDims.lhsIdx, dot_S512x256_S256x1024_S512x1024_1_0_0_1_n_n]; rfl
    | ⟨1, _⟩ => simp [DotDims.lhsIdx, dot_S512x256_S256x1024_S512x1024_1_0_0_1_n_n]; exact cf
  have hr : dot_S512x256_S256x1024_S512x1024_1_0_0_1_n_n.rhsIdx (ix2 r u) ((contrEquiv1 _ 256 rfl rfl).symm f) = ix2 f u := by
    funext ax; apply Fin.ext
    match ax with
    | ⟨0, _⟩ => simp [DotDims.rhsIdx, dot_S512x256_S256x1024_S512x1024_1_0_0_1_n_n]; exact cf
    | ⟨1, _⟩ => simp [DotDims.rhsIdx, dot_S512x256_S256x1024_S512x1024_1_0_0_1_n_n]; rfl
  rw [hl, hr]

/-- The regrouped product at (q, s, u) is the hidden value of row q·8 + s. -/
theorem pay2_apply (x : Vec Ideal S512x256 .f32) (w : Vec Ideal S256x1024 .f32) (q : Fin 64) (s : Fin 8) (u : Fin 1024) :
    k0_pay2 (F := Ideal) x w (ix3 q s u) = hid x w (subR q s) u := by
  unfold k0_pay2
  refine (shapeCast_apply _ _ (ix3 q s u) (ix2 (subR q s) u) (by
    rw [Shape.rowMajor_val_two, Shape.rowMajor_val_three]; rfl)).trans ?_
  rw [shapeCast_self]
  exact product_apply x w (subR q s) u

/-- The group axis summed away: at (s, u) the sum over the 64 groups. -/
theorem groupSum_apply (src : FVec Ideal S64x8x1024 .f32) (hφ : FKind.Formats .f32)
    (hacc : (0x00000000#32 : BitVec 32) = FKind.add.neutral .f32 hφ) (s : Fin 8) (u : Fin 1024) :
    multiReduction .add [0] S8x1024 src 0x00000000#32 reduces_S64x8x1024_S8x1024 hφ hacc (ix2 s u)
      = ∑ q : Fin 64, src (ix3 q s u) := by
  refine (Ideal.multiReduction_add_single src 0x00000000#32 reduces_S64x8x1024_S8x1024 hφ hacc (ix2 s u)).trans ?_
  refine Finset.sum_congr rfl fun (q : Fin 64) _ => congrArg src ?_
  funext a
  match a with
  | ⟨0, _⟩ => exact Fin.ext rfl
  | ⟨1, _⟩ => exact Fin.ext rfl
  | ⟨2, _⟩ => exact Fin.ext rfl

/-- What the store to rows 0–7 writes, at sublane s and unit u: the row it loaded plus the sum over the groups. -/
theorem pay3_apply (x : Vec Ideal S512x256 .f32) (w : Vec Ideal S256x1024 .f32) (v : Vec Ideal S1x8x1024 .f32)
    (s : Fin 8) (u : Fin 1024) :
    k0_pay3 (F := Ideal) x w v (ix3 (0 : Fin 1) s u) = v (ix3 (0 : Fin 1) s u) + ∑ q : Fin 64, hid x w (subR q s) u := by
  unfold k0_pay3
  dsimp only
  refine (shapeCast_apply _ _ (ix3 (0 : Fin 1) s u) (ix2 s u) (by
    rw [Shape.rowMajor_val_two, Shape.rowMajor_val_three]; show s.val * 1024 + u.val = (0 * 8 + s.val) * 1024 + u.val; omega)).trans ?_
  refine (addf_apply _ _ _).trans ?_
  refine congrArg₂ (· + ·) ?_ ?_
  · exact shapeCast_apply v _ (ix2 s u) (ix3 (0 : Fin 1) s u) (by
      rw [Shape.rowMajor_val_two, Shape.rowMajor_val_three]; show (0 * 8 + s.val) * 1024 + u.val = s.val * 1024 + u.val; omega)
  · refine (groupSum_apply _ _ _ s u).trans ?_
    exact Finset.sum_congr rfl fun q _ => pay2_apply x w q s u

/-- What the store to rows 8–15 writes: the row it loaded plus the sum over the groups of the squares. -/
theorem pay4_apply (x : Vec Ideal S512x256 .f32) (w : Vec Ideal S256x1024 .f32) (v : Vec Ideal S1x8x1024 .f32)
    (s : Fin 8) (u : Fin 1024) :
    k0_pay4 (F := Ideal) x w v (ix3 (0 : Fin 1) s u)
      = v (ix3 (0 : Fin 1) s u) + ∑ q : Fin 64, hid x w (subR q s) u * hid x w (subR q s) u := by
  unfold k0_pay4
  dsimp only
  refine (shapeCast_apply _ _ (ix3 (0 : Fin 1) s u) (ix2 s u) (by
    rw [Shape.rowMajor_val_two, Shape.rowMajor_val_three]; show s.val * 1024 + u.val = (0 * 8 + s.val) * 1024 + u.val; omega)).trans ?_
  refine (addf_apply _ _ _).trans ?_
  refine congrArg₂ (· + ·) ?_ ?_
  · exact shapeCast_apply v _ (ix2 s u) (ix3 (0 : Fin 1) s u) (by
      rw [Shape.rowMajor_val_two, Shape.rowMajor_val_three]; show (0 * 8 + s.val) * 1024 + u.val = s.val * 1024 + u.val; omega)
  · refine (groupSum_apply _ _ _ s u).trans ?_
    refine Finset.sum_congr rfl fun q _ => ?_
    refine (mulf_apply _ _ _).trans ?_
    rw [pay2_apply]

/-- The reset stores zero everywhere. -/
theorem pay1_apply (j : S1x16x1024.Idx) : k0_pay1 (F := Ideal) j = 0 := by
  unfold k0_pay1
  unfold shapeCast
  exact Ideal.ofBits_zero_f32

/-! ## What the stores leave in the sixteen-row buffer

The body stores rows 0–7 and then rows 8–15 of the 1×16×1024 buffer (after the whole of it, at the first point of a
half). Row `lo s` is under the first of these stores only, row `hi s` under the second. -/

theorem hz2 : (![0, 0] : Fin 2 → Nat) = fun _ => 0 := funext fun a => by fin_cases a <;> rfl
theorem hz3 : (![0, 0, 0] : Fin 3 → Nat) = fun _ => 0 := funext fun a => by fin_cases a <;> rfl

/-- Rows 0–7, rows 8–15, and the whole of the buffer. -/
abbrev rLo : Rect S1x16x1024 := Rect.unit (s := S1x16x1024) ![0, 0, 0] S1x8x1024.size inb_S1x16x1024_S1x8x1024_0_0_0
abbrev rHi : Rect S1x16x1024 := Rect.unit (s := S1x16x1024) ![0, 8, 0] S1x8x1024.size inb_S1x16x1024_S1x8x1024_0_8_0
abbrev rAll : Rect S1x16x1024 := Rect.unit (s := S1x16x1024) ![0, 0, 0] S1x16x1024.size inb_S1x16x1024_S1x16x1024_0_0_0

theorem emb_lo (s : Fin 8) (u : Fin 1024) : rLo.emb (ix3 (0 : Fin 1) s u) = ix3 (0 : Fin 1) (lo s) u := by
  funext a; apply Fin.ext
  match a with
  | ⟨0, _⟩ => rfl
  | ⟨1, _⟩ => show 0 + 1 * s.val = s.val; omega
  | ⟨2, _⟩ => show 0 + 1 * u.val = u.val; omega

theorem emb_hi (s : Fin 8) (u : Fin 1024) : rHi.emb (ix3 (0 : Fin 1) s u) = ix3 (0 : Fin 1) (hi s) u := by
  funext a; apply Fin.ext
  match a with
  | ⟨0, _⟩ => rfl
  | ⟨1, _⟩ => show 8 + 1 * s.val = 8 + s.val; omega
  | ⟨2, _⟩ => show 0 + 1 * u.val = u.val; omega

theorem lo_not_mem_hi (s : Fin 8) (u : Fin 1024) : ix3 (0 : Fin 1) (lo s) u ∉ rHi.set := fun hm => by
  have h := Rect.mem_set_unit.mp hm
  have h1 : 8 ≤ s.val := (h 1).1
  have := s.isLt
  omega

theorem hi_not_mem_lo (s : Fin 8) (u : Fin 1024) : ix3 (0 : Fin 1) (hi s) u ∉ rLo.set := fun hm => by
  have h := Rect.mem_set_unit.mp hm
  have h1 : 8 + s.val < 0 + 8 := (h 1).2
  omega

/-- Under the store to rows 8–15, made last, row `hi s` reads that store's payload; -/
theorem canon_hi (P : S1x8x1024.Idx → Elt Ideal .f32) (L : List (View.Piece (Elt Ideal) S1x16x1024 .f32))
    (s : Fin 8) (u : Fin 1024) :
    View.canon ((⟨rHi, P⟩ : View.Piece (Elt Ideal) S1x16x1024 .f32) :: L) (ix3 (0 : Fin 1) (hi s) u) = P (ix3 (0 : Fin 1) s u) := by
  rw [← emb_hi s u]; exact View.canon_cons_emb rHi P L _

/-- row `lo s` is off it and reads the payload of the store to rows 0–7 made before. -/
theorem canon_lo (P8 P0 : S1x8x1024.Idx → Elt Ideal .f32) (L : List (View.Piece (Elt Ideal) S1x16x1024 .f32))
    (s : Fin 8) (u : Fin 1024) :
    View.canon ((⟨rHi, P8⟩ : View.Piece (Elt Ideal) S1x16x1024 .f32) :: ⟨rLo, P0⟩ :: L) (ix3 (0 : Fin 1) (lo s) u)
      = P0 (ix3 (0 : Fin 1) s u) := by
  refine (View.canon_cons_of_not_mem (⟨rHi, P8⟩ : View.Piece (Elt Ideal) S1x16x1024 .f32) (⟨rLo, P0⟩ :: L)
    (lo_not_mem_hi s u)).trans ?_
  rw [← emb_lo s u]; exact View.canon_cons_emb rLo P0 L _

/-- Rows 0–7 read back after the whole-buffer store `Z` alone: `Z` there. -/
theorem readback_lo {sig' : RefSig} {κ : Kind} {sp : Space} (v : View sig' κ sp S1x16x1024 .f32)
    (Z : S1x16x1024.Idx → Elt Ideal .f32) (s : Fin 8) (u : Fin 1024) :
    v.readCov [(⟨rAll, Z⟩ : View.Piece (Elt Ideal) S1x16x1024 .f32)] rLo.toLoadRect (ix3 (0 : Fin 1) s u)
      = Z (ix3 (0 : Fin 1) (lo s) u) := by
  rw [View.readCov_eq_canon']
  show View.canon _ (rLo.emb (ix3 (0 : Fin 1) s u)) = _
  rw [emb_lo, View.canon_unit_zero hz3]

/-- Rows 8–15 read back after the whole-buffer store `Z` and a store to rows 0–7: still `Z` there. -/
theorem readback_hi {sig' : RefSig} {κ : Kind} {sp : Space} (v : View sig' κ sp S1x16x1024 .f32)
    (P0 : S1x8x1024.Idx → Elt Ideal .f32) (Z : S1x16x1024.Idx → Elt Ideal .f32) (s : Fin 8) (u : Fin 1024) :
    v.readCov [(⟨rLo, P0⟩ : View.Piece (Elt Ideal) S1x16x1024 .f32), ⟨rAll, Z⟩] rHi.toLoadRect (ix3 (0 : Fin 1) s u)
      = Z (ix3 (0 : Fin 1) (hi s) u) := by
  rw [View.readCov_eq_canon']
  show View.canon _ (rHi.emb (ix3 (0 : Fin 1) s u)) = _
  rw [emb_hi]
  refine (View.canon_cons_of_not_mem (⟨rLo, P0⟩ : View.Piece (Elt Ideal) S1x16x1024 .f32) [⟨rAll, Z⟩]
    (hi_not_mem_lo s u)).trans ?_
  rw [View.canon_unit_zero hz3]

/-- A point that is not the first of its half adds, to row `lo s` of what the point before left, the block's sum over
    the groups of the hidden values of sublane `s`; -/
theorem out_B_lo (c : Dev nD) (i : grid0.Coords) (a2 : Memref sig .tc .vmem S512x256 .f32) (h2 : a2.IsWhole)
    (a3 : Memref sig .tc .vmem S256x1024 .f32) (h3 : a3.IsWhole) (a4 : Memref sig .tc .vmem S1x16x1024 .f32) (h4 : a4.IsWhole)
    (hc : ¬cond0_0 i) (x : Vec Ideal S512x256 .f32) (w : Vec Ideal S256x1024 .f32) (xo : Vec Ideal S1x16x1024 .f32)
    (s : Fin 8) (u : Fin 1024) :
    out0_B_2 c i a2 h2 a3 h3 a4 h4 hc x w xo (ix3 (0 : Fin 1) (lo s) u)
      = xo (ix3 (0 : Fin 1) (lo s) u) + ∑ q : Fin 64, hid x w (subR q s) u := by
  unfold out0_B_2
  rw [View.read_writes_eq_canon _ _ _ (cover0_B_2 c i a2 h2 a3 h3 a4 h4 hc x w xo)]
  unfold kernelRun0_B
  dsimp only
  sl_unfold_words
  refine (canon_lo _ _ _ s u).trans ?_
  refine (pay3_apply _ _ _ s u).trans ?_
  simp only [View.readAt_eq_ld, h2.read_unread, h3.read_unread, h4.read_unread,
    View.ld_unit_zero (S := S512x256) hz2, View.ld_unit_zero (S := S256x1024) hz2]
  show xo (rLo.emb (ix3 (0 : Fin 1) s u)) + _ = _
  rw [emb_lo]

/-- and to row `hi s` the sum of their squares. -/
theorem out_B_hi (c : Dev nD) (i : grid0.Coords) (a2 : Memref sig .tc .vmem S512x256 .f32) (h2 : a2.IsWhole)
    (a3 : Memref sig .tc .vmem S256x1024 .f32) (h3 : a3.IsWhole) (a4 : Memref sig .tc .vmem S1x16x1024 .f32) (h4 : a4.IsWhole)
    (hc : ¬cond0_0 i) (x : Vec Ideal S512x256 .f32) (w : Vec Ideal S256x1024 .f32) (xo : Vec Ideal S1x16x1024 .f32)
    (s : Fin 8) (u : Fin 1024) :
    out0_B_2 c i a2 h2 a3 h3 a4 h4 hc x w xo (ix3 (0 : Fin 1) (hi s) u)
      = xo (ix3 (0 : Fin 1) (hi s) u) + ∑ q : Fin 64, hid x w (subR q s) u * hid x w (subR q s) u := by
  unfold out0_B_2
  rw [View.read_writes_eq_canon _ _ _ (cover0_B_2 c i a2 h2 a3 h3 a4 h4 hc x w xo)]
  unfold kernelRun0_B
  dsimp only
  sl_unfold_words
  refine (canon_hi _ _ s u).trans ?_
  refine (pay4_apply _ _ _ s u).trans ?_
  simp only [View.readAt_eq_ld, h2.read_unread, h3.read_unread, h4.read_unread,
    View.ld_unit_zero (S := S512x256) hz2, View.ld_unit_zero (S := S256x1024) hz2]
  show xo (rHi.emb (ix3 (0 : Fin 1) s u)) + _ = _
  rw [emb_hi]

/-- The first point of a half zeroes the buffer first, so it leaves the block's sums alone: -/
theorem out_A_lo (c : Dev nD) (i : grid0.Coords) (a2 : Memref sig .tc .vmem S512x256 .f32) (h2 : a2.IsWhole)
    (a3 : Memref sig .tc .vmem S256x1024 .f32) (h3 : a3.IsWhole) (a4 : Memref sig .tc .vmem S1x16x1024 .f32) (h4 : a4.IsWhole)
    (hc : cond0_0 i) (x : Vec Ideal S512x256 .f32) (w : Vec Ideal S256x1024 .f32) (s : Fin 8) (u : Fin 1024) :
    out0_A_2 c i a2 h2 a3 h3 a4 h4 hc x w (ix3 (0 : Fin 1) (lo s) u) = ∑ q : Fin 64, hid x w (subR q s) u := by
  unfold out0_A_2
  rw [View.read_writes_eq_canon _ _ _ (cover0_A_2 c i a2 h2 a3 h3 a4 h4 hc x w)]
  unfold kernelRun0_A
  dsimp only
  sl_unfold_words
  refine (canon_lo _ _ _ s u).trans ?_
  refine (pay3_apply _ _ _ s u).trans ?_
  rw [readback_lo, pay1_apply, zero_add]
  simp only [View.readAt_eq_ld, h2.read_unread, h3.read_unread,
    View.ld_unit_zero (S := S512x256) hz2, View.ld_unit_zero (S := S256x1024) hz2]

/-- of the values in rows 0–7, of their squares in rows 8–15. -/
theorem out_A_hi (c : Dev nD) (i : grid0.Coords) (a2 : Memref sig .tc .vmem S512x256 .f32) (h2 : a2.IsWhole)
    (a3 : Memref sig .tc .vmem S256x1024 .f32) (h3 : a3.IsWhole) (a4 : Memref sig .tc .vmem S1x16x1024 .f32) (h4 : a4.IsWhole)
    (hc : cond0_0 i) (x : Vec Ideal S512x256 .f32) (w : Vec Ideal S256x1024 .f32) (s : Fin 8) (u : Fin 1024) :
    out0_A_2 c i a2 h2 a3 h3 a4 h4 hc x w (ix3 (0 : Fin 1) (hi s) u)
      = ∑ q : Fin 64, hid x w (subR q s) u * hid x w (subR q s) u := by
  unfold out0_A_2
  rw [View.read_writes_eq_canon _ _ _ (cover0_A_2 c i a2 h2 a3 h3 a4 h4 hc x w)]
  unfold kernelRun0_A
  dsimp only
  sl_unfold_words
  refine (canon_hi _ _ s u).trans ?_
  refine (pay4_apply _ _ _ s u).trans ?_
  rw [readback_hi, pay1_apply, zero_add]
  simp only [View.readAt_eq_ld, h2.read_unread, h3.read_unread,
    View.ld_unit_zero (S := S512x256) hz2, View.ld_unit_zero (S := S256x1024) hz2]

/-! ## The blocks a point reads

Point `t` of the 32 reads rows `512·t … 512·t + 511` of the input and the whole of the weights. -/

/-- The input block and the weights a point reads. -/
abbrev xblk (c : Dev nD) (t : Fin cfg0.N) : Vec Ideal S512x256 .f32 := iblk0 V c 0 t
abbrev wblk (c : Dev nD) (t : Fin cfg0.N) : Vec Ideal S256x1024 .f32 := iblk0 V c 1 t

/-- Row `r` of the `n`-th block of 512 rows. -/
def blkRow (n : ℕ) (hn : n < 32) (r : Fin 512) : Fin 16384 := ⟨n * 512 + r.val, by have := r.isLt; omega⟩

/-- The three windows' block indices at each of the 32 points: the input's is the point, the weights' is zero, and
    the accumulator's is the half `t / 16`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = t.val / 16 ∧ win0_2.index t (1 : Fin 3) = 0 ∧ win0_2.index t (2 : Fin 3) = 0 :=
  (by decide +kernel : ∀ t : Fin grid0.N, _)

theorem xblk_apply (c : Dev nD) (t : Fin cfg0.N) (ht : t.val < 32) (r : Fin 512) (f : Fin 256) :
    xblk V c t (ix2 r f) = featOf V c (blkRow t.val ht r) f := by
  obtain ⟨e0, e1, -⟩ := idx_facts t
  show V c main_arg0 (((cfg0.win 0).blk t).view.emb (ix2 r f)) = V c main_arg0 (ix2 (blkRow t.val ht r) f)
  refine congrArg (V c main_arg0) ?_
  funext a; apply Fin.ext
  match a with
  | ⟨0, _⟩ => show win0_0.index t (0 : Fin 2) * 512 + 1 * r.val = t.val * 512 + r.val; rw [e0]; omega
  | ⟨1, _⟩ => show win0_0.index t (1 : Fin 2) * 256 + 1 * f.val = f.val; rw [e1]; omega

theorem wblk_apply (c : Dev nD) (t : Fin cfg0.N) (f : Fin 256) (u : Fin 1024) :
    wblk V c t (ix2 f u) = w1tOf V c f u := by
  obtain ⟨-, -, e2, e3, -⟩ := idx_facts t
  show V c main_v0 (((cfg0.win 1).blk t).view.emb (ix2 f u)) = V c main_v0 (ix2 f u)
  refine congrArg (V c main_v0) ?_
  funext a; apply Fin.ext
  match a with
  | ⟨0, _⟩ => show win0_1.index t (0 : Fin 2) * 256 + 1 * f.val = f.val; rw [e2]; omega
  | ⟨1, _⟩ => show win0_1.index t (1 : Fin 2) * 1024 + 1 * u.val = u.val; rw [e3]; omega

/-- So a block's hidden values are the hidden values of its rows. -/
theorem hid_blk (c : Dev nD) (t : Fin cfg0.N) (ht : t.val < 32) (r : Fin 512) (u : Fin 1024) :
    hid (xblk V c t) (wblk V c t) r u = hidden (featOf V c) (w1tOf V c) (blkRow t.val ht r) u := by
  unfold Cert.Spec.hidden
  exact Finset.sum_congr rfl fun f _ => by rw [xblk_apply V c t ht, wblk_apply]

/-! ## The running sums

What block `n` adds to sublane `s` at unit `u`: the sum over its 64 groups of the hidden values, and of their squares. -/

def blkSum (c : Dev nD) (s : Fin 8) (u : Fin 1024) (n : ℕ) : EReal :=
  if h : n < 32 then ∑ q : Fin 64, hidden (featOf V c) (w1tOf V c) (blkRow n h (subR q s)) u else 0
def blkSq (c : Dev nD) (s : Fin 8) (u : Fin 1024) (n : ℕ) : EReal :=
  if h : n < 32 then ∑ q : Fin 64, hidden (featOf V c) (w1tOf V c) (blkRow n h (subR q s)) u
    * hidden (featOf V c) (w1tOf V c) (blkRow n h (subR q s)) u else 0

/-- A quantity that restarts at `B n` when `n` is a multiple of 16 and otherwise adds `B n` to what it was at `n - 1`
    is, at `n`, the sum of `B` from the last multiple of 16 up to `n`. -/
theorem fold_closed {N : ℕ} (O : (n : ℕ) → n < N → EReal) (B : ℕ → EReal)
    (hA : ∀ n (h : n < N), n % 16 = 0 → O n h = B n)
    (hB : ∀ n (h : n < N), ¬n % 16 = 0 → O n h = O (n - 1) (Nat.lt_of_le_of_lt (Nat.sub_le _ _) h) + B n) :
    ∀ n (h : n < N), O n h = ∑ j ∈ Finset.range (n % 16 + 1), B (n - n % 16 + j)
  | 0, h => by rw [hA 0 h rfl]; simp
  | n + 1, h => by
    by_cases h0 : (n + 1) % 16 = 0
    · rw [hA _ h h0, h0]; simp
    · have ih := fold_closed O B hA hB n (Nat.lt_of_succ_lt h)
      have hO : O (n + 1 - 1) (Nat.lt_of_le_of_lt (Nat.sub_le _ _) h) = O n (Nat.lt_of_succ_lt h) := rfl
      have e1 : (n + 1) % 16 = n % 16 + 1 := by omega
      have e2 : n + 1 - (n % 16 + 1) = n - n % 16 := by omega
      rw [hB _ h h0, hO, ih, e1, e2]
      refine Eq.trans ?_ (Finset.sum_range_succ (fun j => B (n - n % 16 + j)) (n % 16 + 1)).symm
      refine congrArg₂ (· + ·) rfl (congrArg B ?_)
      omega

/-- Row `lo s` at the first point of a half: the block's sum. -/
theorem step_A_lo (c : Dev nD) (t : Fin cfg0.N) (ht : t.val < 32) (h0 : t.val % 16 = 0) (s : Fin 8) (u : Fin 1024) :
    outsAt0 V c t.val t.isLt (ix3 (0 : Fin 1) (lo s) u) = blkSum V c s u t.val := by
  refine (congrFun (outsAt0_A V c t h0) (ix3 (0 : Fin 1) (lo s) u)).trans ?_
  refine (out_A_lo c (grid0.coords t) (ms0_0 t) (hs0_0 t) (ms0_1 t) (hs0_1 t) (ms0_2 t) (hs0_2 t)
    ((hcond0_0 t).mpr h0) (xblk V c t) (wblk V c t) s u).trans ?_
  rw [blkSum, dif_pos ht]
  exact Finset.sum_congr rfl fun q _ => hid_blk V c t ht (subR q s) u

/-- Row `lo s` at a later point: what the point before left plus the block's sum. -/
theorem step_B_lo (c : Dev nD) (t : Fin cfg0.N) (ht : t.val < 32) (h0 : ¬t.val % 16 = 0) (s : Fin 8) (u : Fin 1024) :
    outsAt0 V c t.val t.isLt (ix3 (0 : Fin 1) (lo s) u)
      = outsAt0 V c (t.val - 1) (Nat.lt_of_le_of_lt (Nat.sub_le _ _) t.isLt) (ix3 (0 : Fin 1) (lo s) u) + blkSum V c s u t.val := by
  refine (congrFun (outsAt0_B V c t h0) (ix3 (0 : Fin 1) (lo s) u)).trans ?_
  refine (out_B_lo c (grid0.coords t) (ms0_0 t) (hs0_0 t) (ms0_1 t) (hs0_1 t) (ms0_2 t) (hs0_2 t)
    (fun h => h0 ((hcond0_0 t).mp h)) (xblk V c t) (wblk V c t)
    (outsAt0 V c (t.val - 1) (Nat.lt_of_le_of_lt (Nat.sub_le _ _) t.isLt)) s u).trans ?_
  rw [blkSum, dif_pos ht]
  exact congrArg₂ (· + ·) rfl (Finset.sum_congr rfl fun q _ => hid_blk V c t ht (subR q s) u)

/-- Row `hi s` likewise, with the squares. -/
theorem step_A_hi (c : Dev nD) (t : Fin cfg0.N) (ht : t.val < 32) (h0 : t.val % 16 = 0) (s : Fin 8) (u : Fin 1024) :
    outsAt0 V c t.val t.isLt (ix3 (0 : Fin 1) (hi s) u) = blkSq V c s u t.val := by
  refine (congrFun (outsAt0_A V c t h0) (ix3 (0 : Fin 1) (hi s) u)).trans ?_
  refine (out_A_hi c (grid0.coords t) (ms0_0 t) (hs0_0 t) (ms0_1 t) (hs0_1 t) (ms0_2 t) (hs0_2 t)
    ((hcond0_0 t).mpr h0) (xblk V c t) (wblk V c t) s u).trans ?_
  rw [blkSq, dif_pos ht]
  exact Finset.sum_congr rfl fun q _ => by rw [hid_blk V c t ht (subR q s) u]

theorem step_B_hi (c : Dev nD) (t : Fin cfg0.N) (ht : t.val < 32) (h0 : ¬t.val % 16 = 0) (s : Fin 8) (u : Fin 1024) :
    outsAt0 V c t.val t.isLt (ix3 (0 : Fin 1) (hi s) u)
      = outsAt0 V c (t.val - 1) (Nat.lt_of_le_of_lt (Nat.sub_le _ _) t.isLt) (ix3 (0 : Fin 1) (hi s) u) + blkSq V c s u t.val := by
  refine (congrFun (outsAt0_B V c t h0) (ix3 (0 : Fin 1) (hi s) u)).trans ?_
  refine (out_B_hi c (grid0.coords t) (ms0_0 t) (hs0_0 t) (ms0_1 t) (hs0_1 t) (ms0_2 t) (hs0_2 t)
    (fun h => h0 ((hcond0_0 t).mp h)) (xblk V c t) (wblk V c t)
    (outsAt0 V c (t.val - 1) (Nat.lt_of_le_of_lt (Nat.sub_le _ _) t.isLt)) s u).trans ?_
  rw [blkSq, dif_pos ht]
  exact congrArg₂ (· + ·) rfl (Finset.sum_congr rfl fun q _ => by rw [hid_blk V c t ht (subR q s) u])

/-- After point `n` row `lo s` holds the blocks' sums from the first point of `n`'s half up to `n`; -/
theorem acc_lo (c : Dev nD) (s : Fin 8) (u : Fin 1024) (n : ℕ) (h : n < cfg0.N) :
    outsAt0 V c n h (ix3 (0 : Fin 1) (lo s) u) = ∑ j ∈ Finset.range (n % 16 + 1), blkSum V c s u (n - n % 16 + j) :=
  fold_closed (fun n h => outsAt0 V c n h (ix3 (0 : Fin 1) (lo s) u)) (blkSum V c s u)
    (fun n h h0 => step_A_lo V c ⟨n, h⟩ (lt_of_lt_of_eq h N_0) h0 s u)
    (fun n h h0 => step_B_lo V c ⟨n, h⟩ (lt_of_lt_of_eq h N_0) h0 s u) n h

/-- and row `hi s` the sums of squares. -/
theorem acc_hi (c : Dev nD) (s : Fin 8) (u : Fin 1024) (n : ℕ) (h : n < cfg0.N) :
    outsAt0 V c n h (ix3 (0 : Fin 1) (hi s) u) = ∑ j ∈ Finset.range (n % 16 + 1), blkSq V c s u (n - n % 16 + j) :=
  fold_closed (fun n h => outsAt0 V c n h (ix3 (0 : Fin 1) (hi s) u)) (blkSq V c s u)
    (fun n h h0 => step_A_hi V c ⟨n, h⟩ (lt_of_lt_of_eq h N_0) h0 s u)
    (fun n h h0 => step_B_hi V c ⟨n, h⟩ (lt_of_lt_of_eq h N_0) h0 s u) n h

/-- Block `16·cc + i` is tile `i` of half `cc`. -/
theorem blkRow_eq (cc : Fin 2) (i : Fin 16) (h : 16 * cc.val + i.val < 32) (r : Fin 512) :
    blkRow (16 * cc.val + i.val) h r = rowR cc i r :=
  Fin.ext (by show (16 * cc.val + i.val) * 512 + r.val = (cc.val * 16 + i.val) * 512 + r.val; omega)

/-- At the last point of half `cc` the sixteen blocks' sums are the half's per-sublane sums of h and of h². -/
theorem last_lo (c : Dev nD) (s : Fin 8) (u : Fin 1024) (cc : Fin 2) (h : 16 * cc.val + 15 < cfg0.N) :
    outsAt0 V c (16 * cc.val + 15) h (ix3 (0 : Fin 1) (lo s) u) = sumPartR (featOf V c) (w1tOf V c) cc s u := by
  have hcc := cc.isLt
  have e1 : (16 * cc.val + 15) % 16 + 1 = 16 := by omega
  have e2 : 16 * cc.val + 15 - (16 * cc.val + 15) % 16 = 16 * cc.val := by omega
  rw [acc_lo V c s u, e1, e2, Finset.sum_range]
  unfold sumPartR
  refine Finset.sum_congr rfl fun i _ => ?_
  have hi := i.isLt
  rw [blkSum, dif_pos (by omega)]
  exact Finset.sum_congr rfl fun q _ => by rw [blkRow_eq]

theorem last_hi (c : Dev nD) (s : Fin 8) (u : Fin 1024) (cc : Fin 2) (h : 16 * cc.val + 15 < cfg0.N) :
    outsAt0 V c (16 * cc.val + 15) h (ix3 (0 : Fin 1) (hi s) u) = sqPartR (featOf V c) (w1tOf V c) cc s u := by
  have hcc := cc.isLt
  have e1 : (16 * cc.val + 15) % 16 + 1 = 16 := by omega
  have e2 : 16 * cc.val + 15 - (16 * cc.val + 15) % 16 = 16 * cc.val := by omega
  rw [acc_hi V c s u, e1, e2, Finset.sum_range]
  unfold sqPartR
  refine Finset.sum_congr rfl fun i _ => ?_
  have hi := i.isLt
  rw [blkSq, dif_pos (by omega)]
  exact Finset.sum_congr rfl fun q _ => by rw [blkRow_eq]

/-! ## The array after the region

Half `cc`'s block of the 2×16×1024 array is written back once, after the half's last point, so the array ends
holding, in rows 0–7 of each half, the sums and, in rows 8–15, the sums of squares. -/

/-- The array's final contents as one function of the index. -/
def statsArr (c : Dev nD) : Vec Ideal S2x16x1024 .f32 := fun j =>
  if h : (j 1).val < 8 then sumPartR (featOf V c) (w1tOf V c) (j 0) ⟨(j 1).val, h⟩ (j 2)
  else sqPartR (featOf V c) (w1tOf V c) (j 0) ⟨(j 1).val - 8, by have : (j 1).val < 16 := (j 1).isLt; omega⟩ (j 2)

theorem statsArr_lo (c : Dev nD) (cc : Fin 2) (s : Fin 8) (u : Fin 1024) :
    statsArr V c (ix3 cc (lo s) u) = sumPartR (featOf V c) (w1tOf V c) cc s u := by
  unfold statsArr
  rw [dif_pos (show ((ix3 cc (lo s) u : S2x16x1024.Idx) 1).val < 8 from s.isLt)]
  rfl

theorem statsArr_hi (c : Dev nD) (cc : Fin 2) (s : Fin 8) (u : Fin 1024) :
    statsArr V c (ix3 cc (hi s) u) = sqPartR (featOf V c) (w1tOf V c) cc s u := by
  unfold statsArr
  rw [dif_neg (show ¬((ix3 cc (hi s) u : S2x16x1024.Idx) 1).val < 8 from fun h => by
    have h' : 8 + s.val < 8 := h; omega)]
  refine congrArg (fun s' => sqPartR (featOf V c) (w1tOf V c) cc s' u) (Fin.ext ?_)
  show 8 + s.val - 8 = s.val
  omega

/-- What a half's last point leaves at an index of the buffer is the array's function at the index it is written to. -/
theorem last_point (c : Dev nD) (t : Fin cfg0.N) (h15 : t.val % 16 = 15) (j : S1x16x1024.Idx) (i : S2x16x1024.Idx)
    (h0 : (i 0).val = t.val / 16) (h1 : (i 1).val = (j 1).val) (h2 : (i 2).val = (j 2).val) :
    outsAt0 V c t.val t.isLt j = statsArr V c i := by
  obtain ⟨z, r, u, rfl⟩ : ∃ (z : Fin 1) (r : Fin 16) (u : Fin 1024), j = ix3 z r u := ⟨j 0, j 1, j 2, eq_ix3 j⟩
  obtain ⟨cc, r', u', rfl⟩ : ∃ (cc : Fin 2) (r' : Fin 16) (u' : Fin 1024), i = ix3 cc r' u' := ⟨i 0, i 1, i 2, eq_ix3 i⟩
  obtain rfl : z = 0 := Subsingleton.elim _ _
  have hcc : cc.val = t.val / 16 := h0
  obtain rfl : r = r' := Fin.ext h1.symm
  obtain rfl : u = u' := Fin.ext h2.symm
  have ht : t.val = 16 * cc.val + 15 := by omega
  have key : ∀ (n : ℕ) (hn : n < cfg0.N), n = 16 * cc.val + 15 →
      outsAt0 V c n hn (ix3 (0 : Fin 1) r u) = statsArr V c (ix3 cc r u) := by
    intro n hn e; subst e
    by_cases hr : r.val < 8
    · have e := last_lo V c ⟨r.val, hr⟩ u cc hn
      have e' := statsArr_lo V c cc ⟨r.val, hr⟩ u
      have er : lo ⟨r.val, hr⟩ = r := Fin.ext rfl
      rw [er] at e e'
      exact e.trans e'.symm
    · have hr16 : r.val < 16 := r.isLt
      have e := last_hi V c ⟨r.val - 8, by omega⟩ u cc hn
      have e' := statsArr_hi V c cc ⟨r.val - 8, by omega⟩ u
      have er : hi ⟨r.val - 8, by omega⟩ = r := Fin.ext (by show 8 + (r.val - 8) = r.val; omega)
      rw [er] at e e'
      exact e.trans e'.symm
  exact key t.val t.isLt ht

/-- What a half's last point writes back is its block of that function. -/
theorem flushed_eq (c : Dev nD) (t : Fin cfg0.N) (hf : (cfg0.win 2).flush t = true) :
    (dat0 V c).flushed 2 t = ((cfg0.win 2).blk t).view.read (Elt Ideal) (statsArr V c) := by
  have h15 : t.val % 16 = 15 := (flush0_2 t).mp hf
  obtain ⟨-, -, -, -, e0, e1, e2⟩ := idx_facts t
  show (cfg0.win 2).cut (grid0.coords t) ((dat0 V c).after 2 t) = _
  rw [after0_2]
  funext j
  show outsAt0 V c t.val t.isLt ((cfg0.win 2).xinj (grid0.coords t) j)
    = statsArr V c (((cfg0.win 2).blk t).view.emb j)
  refine last_point V c t h15 _ _ ?_ ?_ ?_
  · show win0_2.index t (0 : Fin 3) * 1 + 1 * (j 0).val = t.val / 16
    have : (j 0).val < 1 := (j 0).isLt
    rw [e0]; omega
  · show win0_2.index t (1 : Fin 3) * 16 + 1 * (j 1).val = (j 1).val
    rw [e1]; omega
  · show win0_2.index t (2 : Fin 3) * 1024 + 1 * (j 2).val = (j 2).val
    rw [e2]; omega

/-- An index of the array is in point `t`'s block iff each coordinate is in the block's range on its axis. -/
theorem mem_blk (t : Fin cfg0.N) (i : S2x16x1024.Idx) :
    i ∈ ((cfg0.win 2).blk t).view.set ↔ ∀ a : Fin 3, win0_2.index t a * S1x16x1024.size a ≤ (i a).val
      ∧ (i a).val < win0_2.index t a * S1x16x1024.size a + S1x16x1024.size a := by
  show i ∈ ((View.whole main_v16).slice (win0_2.rect t)).set ↔ _
  rw [View.set_slice_whole, Rect.mem_set_unit]
  exact Iff.rfl

/-- Index (cc, ·, ·) lies in the block written back after the last point of half `cc`. -/
theorem covered (i : S2x16x1024.Idx) :
    ∃ t : Fin cfg0.N, (cfg0.win 2).flush t = true ∧ i ∈ ((cfg0.win 2).blk t).view.set := by
  have h0 : (i 0).val < 2 := (i 0).isLt
  have h1 : (i 1).val < 16 := (i 1).isLt
  have h2 : (i 2).val < 1024 := (i 2).isLt
  have hN : cfg0.N = 32 := N_0
  have hlt : 16 * (i 0).val + 15 < cfg0.N := by rw [hN]; omega
  obtain ⟨-, -, -, -, e0, e1, e2⟩ := idx_facts ⟨16 * (i 0).val + 15, hlt⟩
  refine ⟨⟨16 * (i 0).val + 15, hlt⟩, (flush0_2 _).mpr (by show (16 * (i 0).val + 15) % 16 = 15; omega), ?_⟩
  rw [mem_blk]
  intro a
  match a with
  | ⟨0, _⟩ =>
    show win0_2.index ⟨16 * (i 0).val + 15, hlt⟩ (0 : Fin 3) * 1 ≤ (i 0).val
      ∧ (i 0).val < win0_2.index ⟨16 * (i 0).val + 15, hlt⟩ (0 : Fin 3) * 1 + 1
    rw [e0]; show (16 * (i 0).val + 15) / 16 * 1 ≤ (i 0).val ∧ (i 0).val < (16 * (i 0).val + 15) / 16 * 1 + 1; omega
  | ⟨1, _⟩ =>
    show win0_2.index ⟨16 * (i 0).val + 15, hlt⟩ (1 : Fin 3) * 16 ≤ (i 1).val
      ∧ (i 1).val < win0_2.index ⟨16 * (i 0).val + 15, hlt⟩ (1 : Fin 3) * 16 + 16
    rw [e1]; omega
  | ⟨2, _⟩ =>
    show win0_2.index ⟨16 * (i 0).val + 15, hlt⟩ (2 : Fin 3) * 1024 ≤ (i 2).val
      ∧ (i 2).val < win0_2.index ⟨16 * (i 0).val + 15, hlt⟩ (2 : Fin 3) * 1024 + 1024
    rw [e2]; omega

/-- So the array ends holding that function. -/
theorem final (c : Dev nD) : (dat0 V c).arrAt 2 cfg0.N = statsArr V c :=
  (dat0 V c).arrAt_eq_of_cover 2 (statsArr V c) (flushed_eq V c) covered

theorem sums (c : Dev nD) (cc : Fin 2) (s : Fin 8) (u : Fin 1024) :
    ((dat0 V c).arrAt 2 cfg0.N : Vec Ideal S2x16x1024 .f32) (ix3 cc (lo s) u) = sumPartR (featOf V c) (w1tOf V c) cc s u :=
  (congrFun (final V c) (ix3 cc (lo s) u)).trans (statsArr_lo V c cc s u)

theorem squares (c : Dev nD) (cc : Fin 2) (s : Fin 8) (u : Fin 1024) :
    ((dat0 V c).arrAt 2 cfg0.N : Vec Ideal S2x16x1024 .f32) (ix3 cc (hi s) u) = sqPartR (featOf V c) (w1tOf V c) cc s u :=
  (congrFun (final V c) (ix3 cc (hi s) u)).trans (statsArr_hi V c cc s u)

end Cert.ReferenceIdeal.StatsValue

end
-- ==== Proof.R1Value.lean ====
import proofs.«160323_g2000403857960831_pallasbulk_229_4_alg».proof.Proof.Gen.ReferenceIdeal.Frame
import proofs.«160323_g2000403857960831_pallasbulk_229_4_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)
open Cert.Spec

namespace Cert.ReferenceIdeal.ApplyValue

open Cert.ReferenceIdeal Cert.ReferenceIdeal.Gen

variable (V : (c : Dev nD) → (b : Ref sig .tc) → Buf (Elt Ideal) ((c : Thread nD τ).loc b))

/-- Row r of the packed per-unit vectors (rows 5 and 6 the batch statistics) as the region finds them. -/
abbrev pvecOf (c : Dev nD) (r : Fin 8) : Fin 1024 → EReal := fun v => (V c main_v36 : Vec Ideal S8x1024 .f32) (ix2 r v)

/-! ## The two block products at an index

Each contracts the one inner axis: entry (r, k) of the product is the sum over that axis of the row's entries times
the column's. The operand indices of a product's dimension numbers are read coordinate by coordinate. -/

/-- The zero offsets are the constant zero. -/
theorem zero_off : (![0, 0] : Fin 2 → Nat) = fun _ => 0 := funext fun a => by fin_cases a <;> rfl

theorem lhs_feat_0 (i : S512x2048.Idx) (q : dot_S512x256_S256x2048_S512x2048_1_0_0_1_n_n.contr.Idx) :
    (dot_S512x256_S256x2048_S512x2048_1_0_0_1_n_n.lhsIdx i q 0).val = (i 0).val := by
  unfold DotDims.lhsIdx
  rw [dif_neg (show ¬(0 : Fin S512x256.rank) ∈ dot_S512x256_S256x2048_S512x2048_1_0_0_1_n_n.lhsBatch by decide), dif_pos (show (0 : Fin S512x256.rank) ∈ dot_S512x256_S256x2048_S512x2048_1_0_0_1_n_n.lhsNonContracting by decide)]
  rfl
theorem lhs_feat_1 (i : S512x2048.Idx) (q : dot_S512x256_S256x2048_S512x2048_1_0_0_1_n_n.contr.Idx) :
    (dot_S512x256_S256x2048_S512x2048_1_0_0_1_n_n.lhsIdx i q 1).val = (q ⟨0, by decide⟩).val :=
  dot_S512x256_S256x2048_S512x2048_1_0_0_1_n_n.lhsIdx_val_of_single rfl i q
theorem rhs_feat_0 (i : S512x2048.Idx) (q : dot_S512x256_S256x2048_S512x2048_1_0_0_1_n_n.contr.Idx) :
    (dot_S512x256_S256x2048_S512x2048_1_0_0_1_n_n.rhsIdx i q 0).val = (q ⟨0, by decide⟩).val :=
  dot_S512x256_S256x2048_S512x2048_1_0_0_1_n_n.rhsIdx_val_of_single rfl i q
theorem rhs_feat_1 (i : S512x2048.Idx) (q : dot_S512x256_S256x2048_S512x2048_1_0_0_1_n_n.contr.Idx) :
    (dot_S512x256_S256x2048_S512x2048_1_0_0_1_n_n.rhsIdx i q 1).val = (i 1).val := by
  unfold DotDims.rhsIdx
  rw [dif_neg (show ¬(1 : Fin S256x2048.rank) ∈ dot_S512x256_S256x2048_S512x2048_1_0_0_1_n_n.rhsBatch by decide), dif_pos (show (1 : Fin S256x2048.rank) ∈ dot_S512x256_S256x2048_S512x2048_1_0_0_1_n_n.rhsNonContracting by decide)]
  rfl

/-- The rows times the fused weights [W1ᵀ | Wsᵀ]: entry (r, k) is Σ_f a[r,f]·b[f,k]. -/
theorem featMul_apply (a : FVec Ideal S512x256 .f32) (b : FVec Ideal S256x2048 .f32) (r : Fin 512) (k : Fin 2048) :
    FloatOps.matmul dot_S512x256_S256x2048_S512x2048_1_0_0_1_n_n none a b (constant (F := Ideal) S512x2048 .f32 0x00000000#32) (ix2 r k)
      = ∑ f : Fin 256, a (ix2 r f) * b (ix2 f k) := by
  rw [Ideal.matmul_constant_zero_apply, ← Equiv.sum_comp (contrEquiv1 dot_S512x256_S256x2048_S512x2048_1_0_0_1_n_n 256 rfl rfl).symm]
  refine Finset.sum_congr rfl fun f _ => ?_
  have hk := contrEquiv1_symm_val dot_S512x256_S256x2048_S512x2048_1_0_0_1_n_n 256 rfl rfl f
  have el : dot_S512x256_S256x2048_S512x2048_1_0_0_1_n_n.lhsIdx (ix2 r k) ((contrEquiv1 dot_S512x256_S256x2048_S512x2048_1_0_0_1_n_n 256 rfl rfl).symm f) = ix2 r f := funext fun ax => Fin.ext (by
    match ax with
    | ⟨0, _⟩ => exact lhs_feat_0 _ _
    | ⟨1, _⟩ => exact (lhs_feat_1 _ _).trans hk)
  have er : dot_S512x256_S256x2048_S512x2048_1_0_0_1_n_n.rhsIdx (ix2 r k) ((contrEquiv1 dot_S512x256_S256x2048_S512x2048_1_0_0_1_n_n 256 rfl rfl).symm f) = ix2 f k := funext fun ax => Fin.ext (by
    match ax with
    | ⟨0, _⟩ => exact (rhs_feat_0 _ _).trans hk
    | ⟨1, _⟩ => exact rhs_feat_1 _ _)
  rw [el, er]

theorem lhs_hid_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_hid_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_hid_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_hid_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The activations times the second layer's weights: entry (r, u) is Σ_k a[r,k]·b[k,u]. -/
theorem hidMul_apply (a : FVec Ideal S512x1024 .f32) (b : FVec Ideal S1024x1024 .f32) (r : Fin 512) (k : Fin 1024) :
    FloatOps.matmul dot_S512x1024_S1024x1024_S512x1024_1_0_0_1_n_n none a b (constant (F := Ideal) S512x1024 .f32 0x00000000#32) (ix2 r k)
      = ∑ f : Fin 1024, a (ix2 r f) * b (ix2 f k) := by
  rw [Ideal.matmul_constant_zero_apply, ← Equiv.sum_comp (contrEquiv1 dot_S512x1024_S1024x1024_S512x1024_1_0_0_1_n_n 1024 rfl rfl).symm]
  refine Finset.sum_congr rfl fun f _ => ?_
  have hk := contrEquiv1_symm_val dot_S512x1024_S1024x1024_S512x1024_1_0_0_1_n_n 1024 rfl rfl f
  have el : dot_S512x1024_S1024x1024_S512x1024_1_0_0_1_n_n.lhsIdx (ix2 r k) ((contrEquiv1 dot_S512x1024_S1024x1024_S512x1024_1_0_0_1_n_n 1024 rfl rfl).symm f) = ix2 r f := funext fun ax => Fin.ext (by
    match ax with
    | ⟨0, _⟩ => exact lhs_hid_0 _ _
    | ⟨1, _⟩ => exact (lhs_hid_1 _ _).trans hk)
  have er : dot_S512x1024_S1024x1024_S512x1024_1_0_0_1_n_n.rhsIdx (ix2 r k) ((contrEquiv1 dot_S512x1024_S1024x1024_S512x1024_1_0_0_1_n_n 1024 rfl rfl).symm f) = ix2 f k := funext fun ax => Fin.ext (by
    match ax with
    | ⟨0, _⟩ => exact (rhs_hid_0 _ _).trans hk
    | ⟨1, _⟩ => exact rhs_hid_1 _ _)
  rw [el, er]

/-! ## Layout operations at an index -/

/-- The left half of the 2048 fused columns: column k of the slice at offset 0 is column `colH k`. -/
theorem sliceH_apply (x : FVec Ideal S512x2048 .f32) (r : Fin 512) (k : Fin 1024) :
    extractStridedSlice S512x1024 ![0, 0] x slices_S512x2048_o0_0_S512x1024 (ix2 r k) = x (ix2 r (colH k)) :=
  slice2_axis1_apply 0 x slices_S512x2048_o0_0_S512x1024 r k (colH k) (Nat.zero_add _).symm

/-- The right half: column k of the slice at offset 1024 is column `colS k`. -/
theorem sliceS_apply (x : FVec Ideal S512x2048 .f32) (r : Fin 512) (k : Fin 1024) :
    extractStridedSlice S512x1024 ![0, 1024] x slices_S512x2048_o0_1024_S512x1024 (ix2 r k) = x (ix2 r (colS k)) :=
  slice2_axis1_apply 1024 x slices_S512x2048_o0_1024_S512x1024 r k (colS k) rfl

/-- One row of 1024 per-unit values repeated over the 512 rows. -/
theorem rowBroadcast_apply (x : FVec Ideal S1x1024 .f32) (r : Fin 512) (k : Fin 1024) :
    broadcastTo S512x1024 x broadcasts_S1x1024_S512x1024 (ix2 r k) = x (ix2 (0 : Fin 1) k) :=
  broadcastTo_1b_ab_apply x broadcasts_S1x1024_S512x1024 r k

/-- One column of 512 per-row values repeated over the 1024 units. -/
theorem colBroadcast_apply (x : FVec Ideal S512x1 .f32) (r : Fin 512) (k : Fin 1024) :
    broadcastTo S512x1024 x broadcasts_S512x1_S512x1024 (ix2 r k) = x (ix2 r (0 : Fin 1)) := by
  refine broadcastTo_apply x broadcasts_S512x1_S512x1024 (ix2 r k) (ix2 r (0 : Fin 1)) fun ax => ?_
  match ax with
  | ⟨0, _⟩ => rfl
  | ⟨1, _⟩ => rfl

/-- A vector of 512 per-row values as a column: entry (r, 0) is entry r. -/
theorem keepCol_apply (x : FVec Ideal S512 .f32) (r : Fin 512) (z : Fin 1) :
    shapeCast S512x1 x shapeCasts_S512_S512x1 (ix2 r z) = x (ix1 r) :=
  shapeCast_apply x shapeCasts_S512_S512x1 _ _ (by
    have hz : z.val = 0 := by omega
    rw [Shape.rowMajor_val_two, Shape.rowMajor_val_one]
    show r.val = r.val * 1 + z.val
    rw [hz, Nat.mul_one, Nat.add_zero])

/-- The sum along a row: entry r of the reduction over the 1024 units is Σ_v x[r,v]. -/
theorem rowSum_apply (x : FVec Ideal S512x1024 .f32) (hφ : FKind.Formats .f32) (hacc : (0x00000000#32 : BitVec 32) = 0x00000000#32)
    (r : Fin 512) :
    multiReduction (F := Ideal) .add [1] S512 x 0x00000000#32 reduces_S512x1024_S512 hφ hacc (ix1 r)
      = ∑ v : Fin 1024, x (ix2 r v) := by
  refine (Ideal.multiReduction_add_single x 0x00000000#32 reduces_S512x1024_S512 hφ hacc (ix1 r)).trans ?_
  show ∑ v : Fin 1024, x (reduces_S512x1024_S512.lift (ix1 r) v) = _
  refine Finset.sum_congr rfl fun v _ => congrArg x (funext fun ax => Fin.ext ?_)
  match ax with
  | ⟨0, _⟩ => rfl
  | ⟨1, _⟩ => rfl

/-- The reciprocal square root, entry by entry. -/
theorem rsqrt_apply {s : Shape} (a : FVec Ideal s .f32) (i : s.Idx) : rsqrt a i = Ideal.rsqrt (a i) := rfl

/-- A scalar constant is the extended real its word encodes. -/
theorem scalar_ofBits (w : BitVec 32) : Scalar.ofBits (F := Ideal) .f32 w = Ideal.ofBits .f32 w := rfl

/-- Row ρ of the eight packed vectors, loaded as a 1×1024 block. -/
theorem row_ld (x3 : Vec Ideal S8x1024 .f32) (off : Fin 2 → Nat) (inb : ∀ a, off a + S1x1024.size a ≤ S8x1024.size a)
    (ρ : Fin 8) (h0 : off 0 = ρ.val) (h1 : off 1 = 0) (v : Fin 1024) :
    (View.ld x3 (Rect.unit (s := S8x1024) off S1x1024.size inb) : Vec Ideal S1x1024 .f32) (ix2 (0 : Fin 1) v) = x3 (ix2 ρ v) := by
  show x3 ((Rect.unit (s := S8x1024) off S1x1024.size inb).idx (ix2 (0 : Fin 1) v)) = _
  refine congrArg x3 (funext fun ax => Fin.ext ?_)
  match ax with
  | ⟨0, _⟩ => show off 0 + 1 * 0 = ρ.val; omega
  | ⟨1, _⟩ => show off 1 + 1 * v.val = v.val; omega

/-! ## The body's two stages at an index -/

/-- The pre-normalisation row: batch-norm and ReLU of the hidden half, the second layer, the shortcut half and the
    bias, at entry (r, u). -/
theorem pay4_apply (v0 : Vec Ideal S512x256 .f32) (v1 : Vec Ideal S256x2048 .f32) (v6 v8 v10 v16 v18 : Vec Ideal S1x1024 .f32)
    (v29 : Vec Ideal S1024x1024 .f32) (r : Fin 512) (u : Fin 1024) :
    k1_pay4 v0 v1 v6 v8 v10 v16 v18 v29 (ix2 r u)
      = fRow (fun k => ∑ f : Fin 256, v0 (ix2 r f) * v1 (ix2 f (colH k))) (fun k => ∑ f : Fin 256, v0 (ix2 r f) * v1 (ix2 f (colS k)))
          (fun k v => v29 (ix2 k v)) (fun v => v6 (ix2 (0 : Fin 1) v)) (fun v => v8 (ix2 (0 : Fin 1) v)) (fun v => v10 (ix2 (0 : Fin 1) v))
          (fun v => v16 (ix2 (0 : Fin 1) v)) (fun v => v18 (ix2 (0 : Fin 1) v)) u := by
  unfold k1_pay4 fRow bnrelu
  simp only [matmul, shapeCast_self, addf_apply, subf_apply, mulf_apply, maximumf_apply, broadcast_apply, hidMul_apply,
    featMul_apply, sliceH_apply, sliceS_apply, rowBroadcast_apply, scalar_ofBits, Ideal.ofBits_zero_f32]

/-- The layer normalisation of a row f with its affine map, at entry (r, u). -/
theorem pay1_apply (g b : FVec Ideal S1x1024 .f32) (f : FVec Ideal S512x1024 .f32) (r : Fin 512) (u : Fin 1024) :
    k1_pay1 g b f (ix2 r u) = lnRow (fun v => f (ix2 r v)) (fun v => g (ix2 (0 : Fin 1) v)) (fun v => b (ix2 (0 : Fin 1) v)) u := by
  have hs : ∀ x : FVec Ideal S512x1024 .f32,
      multiReduction (F := Ideal) .add [1] S512 x 0x00000000#32 reduces_S512x1024_S512 (.inl rfl) rfl (ix1 r)
        = ∑ v : Fin 1024, x (ix2 r v) := fun x => rowSum_apply x _ _ r
  unfold k1_pay1 lnRow
  simp only [addf_apply, subf_apply, mulf_apply, divf_apply, rsqrt_apply, broadcast_apply, colBroadcast_apply, keepCol_apply,
    hs, rowBroadcast_apply, scalar_ofBits]

/-! ## The body's result at an index of the block -/

/-- Entry (r, u) of what the body stores: the specification's output row of the block's row r, with the weights as
    loaded and rows 0 to 6 of the packed vectors. -/
theorem payload (x0 : Vec Ideal S512x256 .f32) (x1 : Vec Ideal S256x2048 .f32) (x2 : Vec Ideal S1024x1024 .f32)
    (x3 : Vec Ideal S8x1024 .f32) (r : Fin 512) (u : Fin 1024) :
    out1_4 x0 x1 x2 x3 (ix2 r u)
      = applyOut (fun f => x0 (ix2 r f)) (fun f k => x1 (ix2 f k)) (fun k v => x2 (ix2 k v))
          (fun v => x3 (ix2 (0 : Fin 8) v)) (fun v => x3 (ix2 (1 : Fin 8) v)) (fun v => x3 (ix2 (2 : Fin 8) v))
          (fun v => x3 (ix2 (3 : Fin 8) v)) (fun v => x3 (ix2 (4 : Fin 8) v)) (fun v => x3 (ix2 (5 : Fin 8) v))
          (fun v => x3 (ix2 (6 : Fin 8) v)) u := by
  have e2 : ∀ v, (View.ld x3 r1_2 : Vec Ideal S1x1024 .f32) (ix2 (0 : Fin 1) v) = x3 (ix2 (0 : Fin 8) v) :=
    fun v => row_ld x3 _ _ 0 rfl rfl v
  have e3 : ∀ v, (View.ld x3 r1_3 : Vec Ideal S1x1024 .f32) (ix2 (0 : Fin 1) v) = x3 (ix2 (1 : Fin 8) v) :=
    fun v => row_ld x3 _ _ 1 rfl rfl v
  have e4 : ∀ v, (View.ld x3 r1_4 : Vec Ideal S1x1024 .f32) (ix2 (0 : Fin 1) v) = x3 (ix2 (2 : Fin 8) v) :=
    fun v => row_ld x3 _ _ 2 rfl rfl v
  have e5 : ∀ v, (View.ld x3 r1_5 : Vec Ideal S1x1024 .f32) (ix2 (0 : Fin 1) v) = x3 (ix2 (3 : Fin 8) v) :=
    fun v => row_ld x3 _ _ 3 rfl rfl v
  have e6 : ∀ v, (View.ld x3 r1_6 : Vec Ideal S1x1024 .f32) (ix2 (0 : Fin 1) v) = x3 (ix2 (4 : Fin 8) v) :=
    fun v => row_ld x3 _ _ 4 rfl rfl v
  have e7 : ∀ v, (View.ld x3 r1_7 : Vec Ideal S1x1024 .f32) (ix2 (0 : Fin 1) v) = x3 (ix2 (5 : Fin 8) v) :=
    fun v => row_ld x3 _ _ 5 rfl rfl v
  have e8 : ∀ v, (View.ld x3 r1_8 : Vec Ideal S1x1024 .f32) (ix2 (0 : Fin 1) v) = x3 (ix2 (6 : Fin 8) v) :=
    fun v => row_ld x3 _ _ 6 rfl rfl v
  unfold out1_4
  rw [View.canon_unit_zero zero_off, pay1_apply]
  unfold applyOut
  simp only [pay4_apply, k1_pay2, k1_pay3, shapeCast_self, View.ld_unit_zero (S := S512x256) zero_off,
    View.ld_unit_zero (S := S256x2048) zero_off, View.ld_unit_zero (S := S1024x1024) zero_off, e2, e3, e4, e5, e6, e7, e8]

/-! ## From the blocks to the array -/

/-- The output array as one function of the four arrays the region reads: row n is the specification's output row of
    input row n. -/
def outFn (A0 : Vec Ideal S16384x256 .f32) (A1 : Vec Ideal S256x2048 .f32) (A2 : Vec Ideal S1024x1024 .f32)
    (A3 : Vec Ideal S8x1024 .f32) : Vec Ideal S16384x1024 .f32 := fun i =>
  applyOut (fun f => A0 (ix2 (⟨(i 0).val, idx2_lt0 i⟩ : Fin 16384) f)) (fun f k => A1 (ix2 f k)) (fun k v => A2 (ix2 k v))
    (fun v => A3 (ix2 (0 : Fin 8) v)) (fun v => A3 (ix2 (1 : Fin 8) v)) (fun v => A3 (ix2 (2 : Fin 8) v))
    (fun v => A3 (ix2 (3 : Fin 8) v)) (fun v => A3 (ix2 (4 : Fin 8) v)) (fun v => A3 (ix2 (5 : Fin 8) v))
    (fun v => A3 (ix2 (6 : Fin 8) v)) (⟨(i 1).val, idx2_lt1 i⟩ : Fin 1024)

/-- A block's entry is the array function's at the index it sits at: the input block holds rows 512·b … 512·b + 511 of
    the input, the other three blocks are their whole arrays, and block entry y sits at row 512·b + y₀, column y₁. -/
theorem block_value (A0 : Vec Ideal S16384x256 .f32) (A1 : Vec Ideal S256x2048 .f32) (A2 : Vec Ideal S1024x1024 .f32)
    (A3 : Vec Ideal S8x1024 .f32) (x0 : Vec Ideal S512x256 .f32) (x1 : Vec Ideal S256x2048 .f32)
    (x2 : Vec Ideal S1024x1024 .f32) (x3 : Vec Ideal S8x1024 .f32) (b : ℕ)
    (h0 : ∀ (r : Fin 512) (f : Fin 256) (n : Fin 16384), n.val = b * 512 + r.val → x0 (ix2 r f) = A0 (ix2 n f))
    (h1 : x1 = A1) (h2 : x2 = A2) (h3 : x3 = A3) (y : S512x1024.Idx) (i : S16384x1024.Idx)
    (hi0 : (i 0).val = b * 512 + (y 0).val) (hi1 : (i 1).val = (y 1).val) :
    out1_4 x0 x1 x2 x3 y = outFn A0 A1 A2 A3 i := by
  subst h1 h2 h3
  obtain ⟨r, u, rfl⟩ : ∃ (r : Fin 512) (u : Fin 1024), y = ix2 r u := ⟨y 0, y 1, eq_ix2 y⟩
  rw [payload]
  unfold outFn
  have hu : (⟨(i 1).val, idx2_lt1 i⟩ : Fin 1024) = u := Fin.ext hi1
  have hx : (fun f => x0 (ix2 r f)) = fun f => A0 (ix2 (⟨(i 0).val, idx2_lt0 i⟩ : Fin 16384) f) :=
    funext fun f => h0 r f ⟨(i 0).val, idx2_lt0 i⟩ hi0
  rw [hu, hx]

/-- The index maps over the 32 grid points: the input and the output move one block of 512 rows per point, the
    weights and the packed vectors stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The input's block at point t is rows 512·t … 512·t + 511 of the input. -/
theorem blk0_apply (c : Dev nD) (t : Fin cfg1.N) (r : Fin 512) (f : Fin 256) (n : Fin 16384)
    (hn : n.val = t.val * 512 + r.val) :
    (iblk1 V c 0 t : Vec Ideal S512x256 .f32) (ix2 r f) = (V c main_arg0 : Vec Ideal S16384x256 .f32) (ix2 n f) := by
  obtain ⟨e0, e1, -⟩ := idx_facts t
  show (V c main_arg0 : Vec Ideal S16384x256 .f32) (((cfg1.win 0).blk t).view.emb (ix2 r f)) = _
  refine congrArg _ (funext fun ax => Fin.ext ?_)
  match ax with
  | ⟨0, _⟩ => show win1_0.index t (0 : Fin 2) * 512 + 1 * r.val = n.val; rw [e0, hn]; omega
  | ⟨1, _⟩ => show win1_0.index t (1 : Fin 2) * 256 + 1 * f.val = f.val; rw [e1]; omega

/-- The fused weights' block is the whole array at every point. -/
theorem blk1_eq (c : Dev nD) (t : Fin cfg1.N) : @Eq (Vec Ideal S256x2048 .f32) (iblk1 V c 1 t) (V c main_v2) := by
  obtain ⟨-, -, e0, e1, -⟩ := idx_facts t
  funext y
  show (V c main_v2 : Vec Ideal S256x2048 .f32) (((cfg1.win 1).blk t).view.emb y) = (V c main_v2 : Vec Ideal S256x2048 .f32) y
  refine congrArg _ (funext fun ax => Fin.ext ?_)
  match ax with
  | ⟨0, _⟩ => show win1_1.index t (0 : Fin 2) * 256 + 1 * (y 0).val = (y 0).val; rw [e0]; omega
  | ⟨1, _⟩ => show win1_1.index t (1 : Fin 2) * 2048 + 1 * (y 1).val = (y 1).val; rw [e1]; omega

/-- So is the second layer's weights' block, -/
theorem blk2_eq (c : Dev nD) (t : Fin cfg1.N) : @Eq (Vec Ideal S1024x1024 .f32) (iblk1 V c 2 t) (V c main_v3) := by
  obtain ⟨-, -, -, -, e0, e1, -⟩ := idx_facts t
  funext y
  show (V c main_v3 : Vec Ideal S1024x1024 .f32) (((cfg1.win 2).blk t).view.emb y) = (V c main_v3 : Vec Ideal S1024x1024 .f32) y
  refine congrArg _ (funext fun ax => Fin.ext ?_)
  match ax with
  | ⟨0, _⟩ => show win1_2.index t (0 : Fin 2) * 1024 + 1 * (y 0).val = (y 0).val; rw [e0]; omega
  | ⟨1, _⟩ => show win1_2.index t (1 : Fin 2) * 1024 + 1 * (y 1).val = (y 1).val; rw [e1]; omega

/-- and the packed vectors' block. -/
theorem blk3_eq (c : Dev nD) (t : Fin cfg1.N) : @Eq (Vec Ideal S8x1024 .f32) (iblk1 V c 3 t) (V c main_v36) := by
  obtain ⟨-, -, -, -, -, -, e0, e1, -⟩ := idx_facts t
  funext y
  show (V c main_v36 : Vec Ideal S8x1024 .f32) (((cfg1.win 3).blk t).view.emb y) = (V c main_v36 : Vec Ideal S8x1024 .f32) y
  refine congrArg _ (funext fun ax => Fin.ext ?_)
  match ax with
  | ⟨0, _⟩ => show win1_3.index t (0 : Fin 2) * 8 + 1 * (y 0).val = (y 0).val; rw [e0]; omega
  | ⟨1, _⟩ => show win1_3.index t (1 : Fin 2) * 1024 + 1 * (y 1).val = (y 1).val; rw [e1]; omega

/-- What point t writes back is block t of the array function. -/
theorem flushed_eq (c : Dev nD) (t : Fin cfg1.N) :
    (dat1 V c).flushed 4 t
      = ((cfg1.win 4).blk t).view.read (Elt Ideal) (outFn (V c main_arg0) (V c main_v2) (V c main_v3) (V c main_v36)) := by
  show (cfg1.win 4).cut (grid1.coords t) ((dat1 V c).after 4 t) = _
  rw [after1_4]
  obtain ⟨-, -, -, -, -, -, -, -, e0, e1⟩ := idx_facts t
  funext y
  show out1_4 (iblk1 V c 0 t) (iblk1 V c 1 t) (iblk1 V c 2 t) (iblk1 V c 3 t) y
    = outFn (V c main_arg0) (V c main_v2) (V c main_v3) (V c main_v36) (((cfg1.win 4).blk t).view.emb y)
  refine block_value (V c main_arg0) (V c main_v2) (V c main_v3) (V c main_v36) (iblk1 V c 0 t) (iblk1 V c 1 t)
    (iblk1 V c 2 t) (iblk1 V c 3 t) t.val (fun r f n hn => blk0_apply V c t r f n hn) (blk1_eq V c t) (blk2_eq V c t)
    (blk3_eq V c t) y (((cfg1.win 4).blk t).view.emb y) ?_ ?_
  · show win1_4.index t (0 : Fin 2) * 512 + 1 * (y 0).val = t.val * 512 + (y 0).val; rw [e0]; omega
  · show win1_4.index t (1 : Fin 2) * 1024 + 1 * (y 1).val = (y 1).val; rw [e1]; omega

/-- An index of the output is in point t's block iff each coordinate is in the block's range on its axis. -/
theorem mem_blk (t : Fin cfg1.N) (i : S16384x1024.Idx) :
    i ∈ ((cfg1.win 4).blk t).view.set ↔ ∀ a : Fin 2, win1_4.index t a * S512x1024.size a ≤ (i a).val
      ∧ (i a).val < win1_4.index t a * S512x1024.size a + S512x1024.size a := by
  show i ∈ ((View.whole main_v37).slice (win1_4.rect t)).set ↔ _
  rw [View.set_slice_whole, Rect.mem_set_unit]
  exact Iff.rfl

/-- Row n lies in the block of point n / 512: the 32 blocks cover the array. -/
theorem cover (i : S16384x1024.Idx) :
    ∃ t : Fin cfg1.N, (cfg1.win 4).flush t = true ∧ i ∈ ((cfg1.win 4).blk t).view.set := by
  have hi0 : (i 0).val < 16384 := idx2_lt0 i
  have hi1 : (i 1).val < 1024 := idx2_lt1 i
  have hN : cfg1.N = 32 := N_1
  obtain ⟨t, ht⟩ : ∃ t : Fin cfg1.N, t.val = (i 0).val / 512 := ⟨⟨(i 0).val / 512, by rw [hN]; omega⟩, rfl⟩
  obtain ⟨-, -, -, -, -, -, -, -, e0, e1⟩ := idx_facts t
  refine ⟨t, flush1_4 t, ?_⟩
  rw [mem_blk]
  intro a
  match a with
  | ⟨0, _⟩ =>
    show win1_4.index t (0 : Fin 2) * 512 ≤ (i 0).val ∧ (i 0).val < win1_4.index t (0 : Fin 2) * 512 + 512
    rw [e0, ht]; omega
  | ⟨1, _⟩ =>
    show win1_4.index t (1 : Fin 2) * 1024 ≤ (i 1).val ∧ (i 1).val < win1_4.index t (1 : Fin 2) * 1024 + 1024
    rw [e1]; omega

/-- The output array after the region is the array function of the arrays the region found. -/
theorem final_arr (c : Dev nD) :
    (dat1 V c).arrAt 4 cfg1.N = outFn (V c main_arg0) (V c main_v2) (V c main_v3) (V c main_v36) :=
  (dat1 V c).arrAt_eq_of_cover 4 (outFn (V c main_arg0) (V c main_v2) (V c main_v3) (V c main_v36))
    (fun t _ => flushed_eq V c t) cover

theorem final (c : Dev nD) (n : Fin 16384) (u : Fin 1024) :
    ((dat1 V c).arrAt 4 cfg1.N : Vec Ideal S16384x1024 .f32) (ix2 n u)
      = applyOut (fun f => (V c main_arg0 : Vec Ideal S16384x256 .f32) (ix2 n f))
          (fun f k => (V c main_v2 : Vec Ideal S256x2048 .f32) (ix2 f k))
          (fun k v => (V c main_v3 : Vec Ideal S1024x1024 .f32) (ix2 k v))
          (pvecOf V c 0) (pvecOf V c 1) (pvecOf V c 2) (pvecOf V c 3) (pvecOf V c 4)
          (pvecOf V c 5) (pvecOf V c 6) u := by
  rw [final_arr V c]
  rfl

end Cert.ReferenceIdeal.ApplyValue

end
-- ==== Proof.RHostPre.lean ====
import proofs.«160323_g2000403857960831_pallasbulk_229_4_alg».proof.Proof.Gen.ReferenceIdeal.Launch
import proofs.«160323_g2000403857960831_pallasbulk_229_4_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)
open Cert.Spec

namespace Cert.ReferenceIdeal.HostValue

open Cert.ReferenceIdeal Cert.ReferenceIdeal.Gen Idealize.ShloMosaic.StableHlo

/-! ## A host scatter whose body returns the update, read at an index

The scatter is the left fold, over the update indices in row-major order, of the step "write the update at the place
its index lands at". When every update index lands inside the operand, at a place `ρ j` of its own (`ρ` injective),
the fold reads, at `ρ j`, update `j`, and at an index that is no update's place, the operand. -/

section ScatterRead
variable {α : Type} {s si u : Shape} {w : Nat}

/-- One step of the scatter's fold when the body returns the update. -/
def scatStep (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

/-- The scatter is the fold of that step over the row-major positions of the updates. -/
theorem scatter_eq_foldl (d : ScatterDims s si u) (x : s.Idx → α) (idx : IVec si w) (upd : u.Idx → α) :
    Host.scatter d (fun _ b => b) x idx upd = (List.finRange u.numel).foldl (scatStep d idx upd) x := rfl

/-- A step whose update lands at `i` writes the update there and keeps every other element. -/
theorem scatStep_of_some (d : ScatterDims s si u) (idx : IVec si w) (upd : u.Idx → α) (r : s.Idx → α) (n : Fin u.numel)
    (i : s.Idx) (h : d.resultIdx? (u.rowMajor.symm n) idx = some i) (i' : s.Idx) :
    scatStep d idx upd r n i' = if i' = i then upd (u.rowMajor.symm n) else r i' := by
  unfold scatStep; rw [h]

/-- Steps none of which lands at `i'` keep the element at `i'`. -/
theorem foldl_scatStep_miss (d : ScatterDims s si u) (idx : IVec si w) (upd : u.Idx → α) (ρ : u.Idx → s.Idx)
    (hρ : ∀ j, d.resultIdx? j idx = some (ρ j)) (i' : s.Idx) :
    ∀ (l : List (Fin u.numel)) (x : s.Idx → α), (∀ n ∈ l, ρ (u.rowMajor.symm n) ≠ i') →
      (l.foldl (scatStep d idx upd) x) i' = x i'
  | [], _, _ => rfl
  | n :: l, x, h => by
    rw [List.foldl_cons, foldl_scatStep_miss d idx upd ρ hρ i' l _ (fun m hm => h m (List.mem_cons_of_mem _ hm)),
      scatStep_of_some d idx upd x n _ (hρ _)]
    exact if_neg (fun e => h n List.mem_cons_self e.symm)

/-- Steps over distinct positions, one of them `n0`, leave update `n0` at its place: the places being pairwise distinct,
    no later step lands there. -/
theorem foldl_scatStep_hit (d : ScatterDims s si u) (idx : IVec si w) (upd : u.Idx → α) (ρ : u.Idx → s.Idx)
    (hρ : ∀ j, d.resultIdx? j idx = some (ρ j)) (hinj : Function.Injective ρ) (n0 : Fin u.numel) :
    ∀ (l : List (Fin u.numel)) (x : s.Idx → α), l.Nodup → n0 ∈ l →
      (l.foldl (scatStep d idx upd) x) (ρ (u.rowMajor.symm n0)) = upd (u.rowMajor.symm n0)
  | [], _, _, h => absurd h List.not_mem_nil
  | n :: l, x, hnd, hmem => by
    rw [List.foldl_cons]
    rcases List.mem_cons.mp hmem with rfl | hin
    · rw [foldl_scatStep_miss d idx upd ρ hρ (ρ (u.rowMajor.symm n0)) l _ (fun m hm e => (List.nodup_cons.mp hnd).1
          (by have hmn := u.rowMajor.symm.injective (hinj e); rwa [hmn] at hm)),
        scatStep_of_some d idx upd x n0 _ (hρ _)]
      exact if_pos rfl
    · exact foldl_scatStep_hit d idx upd ρ hρ hinj n0 l _ (List.nodup_cons.mp hnd).2 hin

/-- The scatter at the place of update index `j` reads that update, -/
theorem scatter_set_hit (d : ScatterDims s si u) (x : s.Idx → α) (idx : IVec si w) (upd : u.Idx → α) (ρ : u.Idx → s.Idx)
    (hρ : ∀ j, d.resultIdx? j idx = some (ρ j)) (hinj : Function.Injective ρ) (j : u.Idx) :
    Host.scatter d (fun _ b => b) x idx upd (ρ j) = upd j := by
  rw [scatter_eq_foldl]
  have := foldl_scatStep_hit d idx upd ρ hρ hinj (u.rowMajor j) (List.finRange u.numel) x (List.nodup_finRange _) (List.mem_finRange _)
  rwa [Equiv.symm_apply_apply] at this

/-- and at an index that is no update's place it reads the operand. -/
theorem scatter_set_miss (d : ScatterDims s si u) (x : s.Idx → α) (idx : IVec si w) (upd : u.Idx → α) (ρ : u.Idx → s.Idx)
    (hρ : ∀ j, d.resultIdx? j idx = some (ρ j)) (i' : s.Idx) (hi : ∀ j, ρ j ≠ i') :
    Host.scatter d (fun _ b => b) x idx upd i' = x i' := by
  rw [scatter_eq_foldl]
  exact foldl_scatStep_miss d idx upd ρ hρ i' _ x (fun n _ => hi _)

end ScatterRead

/-! ## The scatter of one row into the 8 × 1024 array

Its dimension numbers: the one scatter index names the row (operand axis 0, an inserted window axis), the update's one
axis is the window along operand axis 1. With the index word reading `k`, update `c` lands at `(k, c)`. -/

/-- The place of update index `j` when the index word reads `k`. -/
abbrev rowPlace (k : Fin 8) (j : S1024.Idx) : S8x1024.Idx := ix2 k (⟨(j 0).val, (j 0).isLt⟩ : Fin 1024)

/-- Every update index lands inside the array, at its place in row `k`: start `(k, 0)` plus window coordinate `(0, c)`. -/
theorem resultIdx_row (idx : IVec S1 32) (k : Fin 8) (hidx : ∀ i, (idx i).toInt = (k.val : Int)) (j : S1024.Idx) :
    scatter_S8x1024_S1_S1024_0_0_0_0.resultIdx? j idx = some (rowPlace k j) := by
  have hst0 : scatter_S8x1024_S1_S1024_0_0_0_0.start j idx (0 : Fin 2) = (k.val : Int) := by
    unfold ScatterDims.start; rw [dif_pos (by decide)]; exact hidx _
  have hst1 : scatter_S8x1024_S1_S1024_0_0_0_0.start j idx (1 : Fin 2) = 0 := by
    unfold ScatterDims.start; rw [dif_neg (by decide)]
  have hw0 : scatter_S8x1024_S1_S1024_0_0_0_0.window j (0 : Fin 2) = 0 := by
    unfold ScatterDims.window; rw [dif_neg (by decide)]
  have hw1 : scatter_S8x1024_S1_S1024_0_0_0_0.window j (1 : Fin 2) = (j 0).val := by
    unfold ScatterDims.window; rw [dif_pos (by decide)]; rfl
  have hk := k.isLt
  have hj : (j 0).val < 1024 := (j 0).isLt
  unfold ScatterDims.resultIdx?
  have hin : ∀ a : Fin 2, 0 ≤ scatter_S8x1024_S1_S1024_0_0_0_0.start j idx a + (scatter_S8x1024_S1_S1024_0_0_0_0.window j a : Int) ∧
      scatter_S8x1024_S1_S1024_0_0_0_0.start j idx a + (scatter_S8x1024_S1_S1024_0_0_0_0.window j a : Int) < ((S8x1024.size a : Nat) : Int) := by
    refine Fin.forall_fin_two.2 ⟨?_, ?_⟩
    · rw [hst0, hw0]; show (0 : Int) ≤ (k.val : Int) + ((0 : Nat) : Int) ∧ (k.val : Int) + ((0 : Nat) : Int) < ((8 : Nat) : Int); omega
    · rw [hst1, hw1]; show (0 : Int) ≤ 0 + ((j 0).val : Int) ∧ 0 + ((j 0).val : Int) < ((1024 : Nat) : Int); omega
  rw [dif_pos hin]
  congr 1
  funext a
  apply Fin.ext
  show (scatter_S8x1024_S1_S1024_0_0_0_0.start j idx a + (scatter_S8x1024_S1_S1024_0_0_0_0.window j a : Int)).toNat = (rowPlace k j a).val
  match a with
  | ⟨0, _⟩ =>
    show (scatter_S8x1024_S1_S1024_0_0_0_0.start j idx (0 : Fin 2) + (scatter_S8x1024_S1_S1024_0_0_0_0.window j (0 : Fin 2) : Int)).toNat = k.val
    rw [hst0, hw0]; omega
  | ⟨1, _⟩ =>
    show (scatter_S8x1024_S1_S1024_0_0_0_0.start j idx (1 : Fin 2) + (scatter_S8x1024_S1_S1024_0_0_0_0.window j (1 : Fin 2) : Int)).toNat = (j 0).val
    rw [hst1, hw1]; omega

/-- Distinct update indices land at distinct places. -/
theorem rowPlace_inj (k : Fin 8) : Function.Injective (rowPlace k) := by
  intro j j' h
  have h1 := congrFun h (1 : Fin 2)
  funext a
  match a with
  | ⟨0, _⟩ => exact Fin.ext (by have := congrArg Fin.val h1; exact this)

/-- THE ONE-ROW SCATTER READ AT `(r, c)`: update `c` in row `k`, the operand in every other row. -/
theorem scatter_row_apply {α : Type} (x : S8x1024.Idx → α) (idx : IVec S1 32) (upd : S1024.Idx → α) (k : Fin 8)
    (hidx : ∀ i, (idx i).toInt = (k.val : Int)) (r : Fin 8) (c : Fin 1024) :
    Host.scatter scatter_S8x1024_S1_S1024_0_0_0_0 (fun _ b => b) x idx upd (ix2 r c) = if r = k then upd (ix1 c) else x (ix2 r c) := by
  by_cases hr : r = k
  · subst hr
    rw [if_pos rfl]
    exact scatter_set_hit _ x idx upd (rowPlace r) (resultIdx_row idx r hidx) (rowPlace_inj r) (ix1 c)
  · rw [if_neg hr]
    refine scatter_set_miss _ x idx upd (rowPlace k) (resultIdx_row idx k hidx) _ (fun j e => hr ?_)
    have := congrFun e (0 : Fin 2)
    exact this.symm

-- The core's buffer contents before the host operations that precede the first region.
variable (W : Valuation τ sig (Elt Ideal))

/-- A rank-1 array of 1024 numbers, by its coordinate. -/
abbrev vec1 (x : (⟨1, ![1024]⟩ : Shape).Idx → EReal) : Fin 1024 → EReal := fun u => x (ix1 u)

/-- What those operations leave in each buffer. -/
abbrev aft : Valuation τ sig (Elt Ideal) := StableHlo.after (hostOps0 (F := Ideal)) W

/-! ## The weight matrices

Both weight matrices are transposed (1024 × 256 to 256 × 1024) and laid side by side along the columns: columns
0 to 1023 the first, columns 1024 to 2047 the second. -/

/-- A transpose of a matrix read at `(a, b)` is the matrix at `(b, a)`. -/
theorem transpose2_apply {m n : Nat} {α : Type} (x : (⟨2, ![m, n]⟩ : Shape).Idx → α)
    (h : (⟨2, ![m, n]⟩ : Shape).Transposes [1, 0] ⟨2, ![n, m]⟩) (a : Fin n) (b : Fin m) :
    transpose ⟨2, ![n, m]⟩ [1, 0] x h (ix2 a b) = x (ix2 b a) :=
  transpose_apply [1, 0] x h (ix2 a b) (ix2 b a) (fun c => match c with | ⟨0, _⟩ => rfl | ⟨1, _⟩ => rfl)

theorem w1t (f : Fin 256) (u : Fin 1024) :
    (aft W (Proc.devRef .tc main_v0) : Vec Ideal S256x1024 .f32) (ix2 f u)
      = (W (Proc.devRef .tc main_arg1) : Vec Ideal S1024x256 .f32) (ix2 u f) := by
  dsimp only [aft]
  after_results
  exact transpose2_apply _ _ f u

theorem wfeat_h (f : Fin 256) (u : Fin 1024) :
    (aft W (Proc.devRef .tc main_v2) : Vec Ideal S256x2048 .f32) (ix2 f (colH u))
      = (W (Proc.devRef .tc main_arg1) : Vec Ideal S1024x256 .f32) (ix2 u f) := by
  dsimp only [aft]
  after_results
  refine (concatenate_pair_apply_left (t := S256x2048) (s₁ := S256x1024) (s₂ := S256x1024) _ _ _ _ (ix2 f (colH u)) rfl (ix2 f u)
    (fun b => match b with | ⟨0, _⟩ => rfl | ⟨1, _⟩ => rfl)).trans ?_
  exact transpose2_apply _ _ f u

theorem wfeat_s (f : Fin 256) (u : Fin 1024) :
    (aft W (Proc.devRef .tc main_v2) : Vec Ideal S256x2048 .f32) (ix2 f (colS u))
      = (W (Proc.devRef .tc main_arg4) : Vec Ideal S1024x256 .f32) (ix2 u f) := by
  dsimp only [aft]
  after_results
  refine (concatenate_pair_apply_right (t := S256x2048) (s₁ := S256x1024) (s₂ := S256x1024) _ _ _ _ (ix2 f (colS u)) rfl rfl (ix2 f u)
    (fun b hb => match b, hb with | ⟨0, _⟩, _ => rfl | ⟨1, _⟩, hb => absurd rfl hb)
    (by show u.val + 1024 = 1024 + u.val; omega)).trans ?_
  exact transpose2_apply _ _ f u

theorem w2t (k v : Fin 1024) :
    (aft W (Proc.devRef .tc main_v3) : Vec Ideal S1024x1024 .f32) (ix2 k v)
      = (W (Proc.devRef .tc main_arg2) : Vec Ideal S1024x1024 .f32) (ix2 v k) := by
  dsimp only [aft]
  after_results
  exact transpose2_apply _ _ k v

/-! ## The packed per-unit vectors

The 8 × 1024 array starts as zeros and receives five one-row scatters, rows 0 to 4 in turn; reading row `r`, the later
scatters (rows above `r`) miss and scatter `r` writes its update. -/

theorem pvec0 (u : Fin 1024) :
    (aft W (Proc.devRef .tc main_v15) : Vec Ideal S8x1024 .f32) (ix2 (0 : Fin 8) u)
      = vec1 (W (Proc.devRef .tc main_arg3)) u + vec1 (W (Proc.devRef .tc main_arg5)) u := by
  dsimp only [aft]
  after_results
  refine (scatter_row_apply _ _ _ (4 : Fin 8) (fun _ => rfl) 0 u).trans ?_
  rw [if_neg (by decide)]
  refine (scatter_row_apply _ _ _ (3 : Fin 8) (fun _ => rfl) 0 u).trans ?_
  rw [if_neg (by decide)]
  refine (scatter_row_apply _ _ _ (2 : Fin 8) (fun _ => rfl) 0 u).trans ?_
  rw [if_neg (by decide)]
  refine (scatter_row_apply _ _ _ (1 : Fin 8) (fun _ => rfl) 0 u).trans ?_
  rw [if_neg (by decide)]
  refine (scatter_row_apply _ _ _ (0 : Fin 8) (fun _ => rfl) 0 u).trans ?_
  rw [if_pos rfl]
  rfl

theorem pvec1 (u : Fin 1024) :
    (aft W (Proc.devRef .tc main_v15) : Vec Ideal S8x1024 .f32) (ix2 (1 : Fin 8) u) = vec1 (W (Proc.devRef .tc main_arg6)) u := by
  dsimp only [aft]
  after_results
  refine (scatter_row_apply _ _ _ (4 : Fin 8) (fun _ => rfl) 1 u).trans ?_
  rw [if_neg (by decide)]
  refine (scatter_row_apply _ _ _ (3 : Fin 8) (fun _ => rfl) 1 u).trans ?_
  rw [if_neg (by decide)]
  refine (scatter_row_apply _ _ _ (2 : Fin 8) (fun _ => rfl) 1 u).trans ?_
  rw [if_neg (by decide)]
  refine (scatter_row_apply _ _ _ (1 : Fin 8) (fun _ => rfl) 1 u).trans ?_
  rw [if_pos rfl]

theorem pvec2 (u : Fin 1024) :
    (aft W (Proc.devRef .tc main_v15) : Vec Ideal S8x1024 .f32) (ix2 (2 : Fin 8) u) = vec1 (W (Proc.devRef .tc main_arg7)) u := by
  dsimp only [aft]
  after_results
  refine (scatter_row_apply _ _ _ (4 : Fin 8) (fun _ => rfl) 2 u).trans ?_
  rw [if_neg (by decide)]
  refine (scatter_row_apply _ _ _ (3 : Fin 8) (fun _ => rfl) 2 u).trans ?_
  rw [if_neg (by decide)]
  refine (scatter_row_apply _ _ _ (2 : Fin 8) (fun _ => rfl) 2 u).trans ?_
  rw [if_pos rfl]

theorem pvec3 (u : Fin 1024) :
    (aft W (Proc.devRef .tc main_v15) : Vec Ideal S8x1024 .f32) (ix2 (3 : Fin 8) u) = vec1 (W (Proc.devRef .tc main_arg8)) u := by
  dsimp only [aft]
  after_results
  refine (scatter_row_apply _ _ _ (4 : Fin 8) (fun _ => rfl) 3 u).trans ?_
  rw [if_neg (by decide)]
  refine (scatter_row_apply _ _ _ (3 : Fin 8) (fun _ => rfl) 3 u).trans ?_
  rw [if_pos rfl]

theorem pvec4 (u : Fin 1024) :
    (aft W (Proc.devRef .tc main_v15) : Vec Ideal S8x1024 .f32) (ix2 (4 : Fin 8) u) = vec1 (W (Proc.devRef .tc main_arg9)) u := by
  dsimp only [aft]
  after_results
  refine (scatter_row_apply _ _ _ (4 : Fin 8) (fun _ => rfl) 4 u).trans ?_
  rw [if_pos rfl]

/-- The input rows are not written by those operations. -/
theorem keeps_feat : aft W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, Finset.mem_singleton]
    repeat' apply And.intro
    all_goals exact StableHlo.devRef_ne_of_ne (by decide)))

end Cert.ReferenceIdeal.HostValue

end
-- ==== Proof.RHostMid.lean ====
import proofs.«160323_g2000403857960831_pallasbulk_229_4_alg».proof.Proof.Gen.ReferenceIdeal.Launch
import proofs.«160323_g2000403857960831_pallasbulk_229_4_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)
open Cert.Spec

namespace Cert.ReferenceIdeal.MidValue

open Cert.ReferenceIdeal Cert.ReferenceIdeal.Gen Idealize.ShloMosaic.StableHlo

-- The core's buffer contents when the statistics region has ended.
variable (W : Valuation τ sig (Elt Ideal))

/-- What the host operations between the two regions leave in each buffer. -/
abbrev aft : Valuation τ sig (Elt Ideal) := StableHlo.after (hostOps1 (F := Ideal)) W

/-- The accumulated sums (rows 0–7) and sums of squares (rows 8–15) of the two halves, as those operations find them. -/
abbrev sumsOf : Fin 2 → Fin 8 → Fin 1024 → EReal := fun cc s u => (W (Proc.devRef .tc main_v16) : Vec Ideal S2x16x1024 .f32) (ix3 cc (lo s) u)
abbrev sqsOf : Fin 2 → Fin 8 → Fin 1024 → EReal := fun cc s u => (W (Proc.devRef .tc main_v16) : Vec Ideal S2x16x1024 .f32) (ix3 cc (hi s) u)

/-! ## A scatter that writes the update, read at an index -/

section Fold
variable {ι κ α : Type}

/-- A fold of writes none of which touches position `i` leaves `i` as it was. -/
theorem foldl_untouched (step : (ι → α) → κ → (ι → α)) (i : ι) :
    ∀ (l : List κ) (x : ι → α), (∀ n ∈ l, ∀ r, step r n i = r i) → l.foldl step x i = x i
  | [], _, _ => rfl
  | n :: l, x, h => by
    rw [List.foldl_cons, foldl_untouched step i l _ fun m hm => h m (List.mem_cons_of_mem _ hm)]
    exact h n List.mem_cons_self x

/-- A fold of writes among which only `n₀` touches position `i`, writing `v`, leaves `v` there. -/
theorem foldl_written (step : (ι → α) → κ → (ι → α)) (i : ι) (n₀ : κ) (v : α) (h₀ : ∀ r, step r n₀ i = v) :
    ∀ (l : List κ) (x : ι → α), n₀ ∈ l → (∀ n ∈ l, n ≠ n₀ → ∀ r, step r n i = r i) → l.foldl step x i = v
  | [], _, hm, _ => absurd hm List.not_mem_nil
  | n :: l, x, hm, h => by
    rw [List.foldl_cons]
    by_cases hl : n₀ ∈ l
    · exact foldl_written step i n₀ v h₀ l _ hl fun m hm' => h m (List.mem_cons_of_mem _ hm')
    · have hn : n = n₀ := by
        rcases List.mem_cons.mp hm with e | e
        · exact e.symm
        · exact absurd e hl
      rw [foldl_untouched step i l _ fun m hm' r =>
        h m (List.mem_cons_of_mem _ hm') (fun e => hl (e ▸ hm')) r, hn]
      exact h₀ x

end Fold

section Scatter
variable {s si u : Shape} {w : Nat} {α : Type}

/-- An element no update index lands on is the operand's. -/
theorem scatter_set_of_not_hit (d : ScatterDims s si u) (x : s.Idx → α) (idx : IVec si w) (upd : u.Idx → α) (i : s.Idx)
    (h : ∀ j : u.Idx, d.resultIdx? j idx ≠ some i) :
    Host.scatter d (fun _ b => b) x idx upd i = x i := by
  unfold Host.scatter
  refine foldl_untouched _ i _ x fun n _ r => ?_
  have hn := h (u.rowMajor.symm n)
  dsimp only
  cases hres : d.resultIdx? (u.rowMajor.symm n) idx with
  | none => rfl
  | some i' =>
    dsimp only
    rw [if_neg fun e => hn (by rw [hres, e])]

/-- An element exactly one update index lands on is that update's. -/
theorem scatter_set_of_hit (d : ScatterDims s si u) (x : s.Idx → α) (idx : IVec si w) (upd : u.Idx → α) (i : s.Idx)
    (j₀ : u.Idx) (h₀ : d.resultIdx? j₀ idx = some i) (huniq : ∀ j : u.Idx, d.resultIdx? j idx = some i → j = j₀) :
    Host.scatter d (fun _ b => b) x idx upd i = upd j₀ := by
  unfold Host.scatter
  refine foldl_written _ i (u.rowMajor j₀) (upd j₀) (fun r => ?_) _ x (List.mem_finRange _) fun n _ hne r => ?_
  · dsimp only
    rw [Equiv.symm_apply_apply, h₀]
    dsimp only
    rw [if_pos rfl]
  · dsimp only
    cases hres : d.resultIdx? (u.rowMajor.symm n) idx with
    | none => rfl
    | some i' =>
      dsimp only
      rw [if_neg fun e => hne (by
        have := huniq (u.rowMajor.symm n) (by rw [hres, e])
        rw [← this, Equiv.apply_symm_apply])]

end Scatter

section Row
variable {α : Type}

private abbrev dRow := scatter_S8x1024_S1_S1024_0_0_0_0

theorem start0 (p : BitVec 32) (j : S1024.Idx) (h0) :
    dRow.start j (fun _ : S1.Idx => p) ⟨0, h0⟩ = p.toInt := rfl
theorem start1 (p : BitVec 32) (j : S1024.Idx) (h1) :
    dRow.start j (fun _ : S1.Idx => p) ⟨1, h1⟩ = 0 := rfl
theorem window0 (j : S1024.Idx) (h0) : dRow.window j ⟨0, h0⟩ = 0 := rfl
theorem window1 (j : S1024.Idx) (h1) : dRow.window j ⟨1, h1⟩ = (j 0).val := rfl

/-- With the one scatter index the word `p`, a row number below eight, update column `j` lands at `(p, j)`. -/
theorem landing (p : BitVec 32) (pr : Fin 8) (hp : p.toInt = (pr.val : Int)) (j : S1024.Idx) :
    dRow.resultIdx? j (fun _ : S1.Idx => p) = some (ix2 pr (j 0 : Fin 1024)) := by
  have hpr := pr.isLt
  have hj : (j 0).val < 1024 := (j 0).isLt
  unfold ScatterDims.resultIdx?
  rw [dif_pos (fun a => by
    match a with
    | ⟨0, h0⟩ => rw [start0, window0, hp]; exact ⟨by omega, by show ((pr.val : Int) + ((0 : Nat) : Int)) < ((8 : Nat) : Int); omega⟩
    | ⟨1, h1⟩ => rw [start1, window1]; exact ⟨by omega, by show ((0 : Int) + (((j 0).val : Nat) : Int)) < ((1024 : Nat) : Int); omega⟩)]
  refine congrArg some (funext fun a => Fin.ext ?_)
  match a with
  | ⟨0, h0⟩ => show (dRow.start j (fun _ : S1.Idx => p) ⟨0, h0⟩ + (dRow.window j ⟨0, h0⟩ : Int)).toNat = pr.val; rw [start0, window0, hp]; omega
  | ⟨1, h1⟩ => show (dRow.start j (fun _ : S1.Idx => p) ⟨1, h1⟩ + (dRow.window j ⟨1, h1⟩ : Int)).toNat = (j 0).val; rw [start1, window1]; omega

/-- The scatter of one row at the literal row number `p`: row `p` is the update, every other row the operand's. -/
theorem scatter_row (p : BitVec 32) (pr : Fin 8) (hp : p.toInt = (pr.val : Int)) (x : S8x1024.Idx → α) (upd : S1024.Idx → α)
    (r : Fin 8) (u : Fin 1024) :
    Host.scatter scatter_S8x1024_S1_S1024_0_0_0_0 (fun _ b => b) x (broadcastInDim S1 ![] bcast_S_S1 (constantI S_ 32 p)) upd (ix2 r u)
      = if r = pr then upd (ix1 u) else x (ix2 r u) := by
  have hidx : broadcastInDim S1 ![] bcast_S_S1 (constantI S_ 32 p) = fun _ : S1.Idx => p := rfl
  rw [hidx]
  by_cases hr : r = pr
  · rw [if_pos hr, hr]
    refine scatter_set_of_hit _ x _ upd _ (ix1 u) (landing p pr hp _) fun j hj => ?_
    rw [landing p pr hp j] at hj
    have e := congrFun (Option.some.inj hj) (⟨1, Nat.one_lt_two⟩ : Fin 2)
    have e' : (j 0 : Fin 1024) = u := e
    rw [eq_ix1 j]; exact congrArg ix1 e'
  · rw [if_neg hr]
    refine scatter_set_of_not_hit _ x _ upd _ fun j hj => hr ?_
    rw [landing p pr hp j] at hj
    have e := congrFun (Option.some.inj hj) (⟨0, Nat.zero_lt_two⟩ : Fin 2)
    exact e.symm

end Row

/-! ## The statistics rows read at a column -/

section Stats

/-- The sum over the two halves, the eight rows from `o` cut out, the sum over those rows: at column `u` the double
    sum, over the eight rows and the two halves, of the accumulator. -/
theorem colsum_apply (X : Vec Ideal S2x16x1024 .f32) (o : Nat) (hs : S16x1024.Slices ![o, 0] S8x1024)
    (row : Fin 8 → Fin 16) (hrow : ∀ s, (row s).val = o + s.val) (u : Fin 1024) :
    Host.reduceAdd (extractStridedSlice S8x1024 ![o, 0]
        (Host.reduceAdd X (constant (F := Ideal) S_ .f32 0x00000000#32) reducesTo_S2x16x1024_S16x1024_d0 h_S_) hs)
      (constant (F := Ideal) S_ .f32 0x00000000#32) reducesTo_S8x1024_S1024_d0 h_S_ (ix1 u)
      = ∑ s : Fin 8, ∑ cc : Fin 2, X (ix3 cc (row s) u) := by
  have h2 : S8x1024.Reduces [0] S1024 := by decide
  have h3 : S2x16x1024.Reduces [0] S16x1024 := by decide
  show Ideal.hostReduceAdd reducesTo_S8x1024_S1024_d0 _ (Ideal.ofBits .f32 0x00000000#32) (ix1 u) = _
  rw [Ideal.hostReduceAdd_single _ h2, Ideal.ofBits_zero_f32, zero_add]
  refine Finset.sum_congr rfl fun (s : Fin 8) _ => ?_
  have e2 : h2.lift (ix1 u) s = ix2 s u :=
    funext fun a => Fin.ext (by match a with | ⟨0, _⟩ => rfl | ⟨1, _⟩ => rfl)
  rw [e2, slice2_axis0_apply o _ hs s u (row s) (hrow s)]
  show Ideal.hostReduceAdd reducesTo_S2x16x1024_S16x1024_d0 X (Ideal.ofBits .f32 0x00000000#32) (ix2 (row s) u) = _
  rw [Ideal.hostReduceAdd_single _ h3, Ideal.ofBits_zero_f32, zero_add]
  refine Finset.sum_congr rfl fun (cc : Fin 2) _ => ?_
  have e3 : h3.lift (ix2 (row s) u) cc = ix3 cc (row s) u :=
    funext fun a => Fin.ext (by match a with | ⟨0, _⟩ => rfl | ⟨1, _⟩ => rfl | ⟨2, _⟩ => rfl)
  rw [e3]

/-- That double sum divided by the batch size. -/
theorem avg_apply (X : Vec Ideal S2x16x1024 .f32) (o : Nat) (hs : S16x1024.Slices ![o, 0] S8x1024)
    (row : Fin 8 → Fin 16) (hrow : ∀ s, (row s).val = o + s.val) (u : Fin 1024) :
    Host.divf (Host.reduceAdd (extractStridedSlice S8x1024 ![o, 0]
          (Host.reduceAdd X (constant (F := Ideal) S_ .f32 0x00000000#32) reducesTo_S2x16x1024_S16x1024_d0 h_S_) hs)
        (constant (F := Ideal) S_ .f32 0x00000000#32) reducesTo_S8x1024_S1024_d0 h_S_)
      (broadcastInDim S1024 ![] bcast_S_S1024 (constant (F := Ideal) S_ .f32 0x46800000#32)) (ix1 u)
      = avgR (fun cc s v => X (ix3 cc (row s) v)) u := by
  show Ideal.div (Host.reduceAdd (extractStridedSlice S8x1024 ![o, 0]
          (Host.reduceAdd X (constant (F := Ideal) S_ .f32 0x00000000#32) reducesTo_S2x16x1024_S16x1024_d0 h_S_) hs)
        (constant (F := Ideal) S_ .f32 0x00000000#32) reducesTo_S8x1024_S1024_d0 h_S_ (ix1 u)) nW = _
  rw [colsum_apply X o hs row hrow u]
  rfl

/-- The inverse standard deviation from the second moment `A` and the mean `B`, at a column. -/
theorem istd_apply (A B : Vec Ideal S1024 .f32) (u : Fin 1024) :
    Host.rsqrt (addf (maximumf (subf A (mulf B B))
          (broadcastInDim S1024 ![] bcast_S_S1024 (constant (F := Ideal) S_ .f32 0x00000000#32)))
        (broadcastInDim S1024 ![] bcast_S_S1024 (constant (F := Ideal) S_ .f32 0x3727C5AC#32))) (ix1 u)
      = istdOf (A (ix1 u)) (B (ix1 u)) := by
  show Ideal.rsqrt (max (A (ix1 u) - B (ix1 u) * B (ix1 u)) (Ideal.ofBits .f32 0x00000000#32) + epsW) = _
  rw [Ideal.ofBits_zero_f32]
  rfl

end Stats

/-! ## What the operations between the regions leave -/

/-- Rows 0–4 of the packed vectors pass through; -/
theorem pvec_keep (r : Fin 8) (hr : r.val < 5) (u : Fin 1024) :
    (aft W (Proc.devRef .tc main_v36) : Vec Ideal S8x1024 .f32) (ix2 r u)
      = (W (Proc.devRef .tc main_v15) : Vec Ideal S8x1024 .f32) (ix2 r u) := by
  dsimp only [aft]
  after_results_simp
  rw [scatter_row 6#32 6 (by decide), if_neg (fun e => by subst e; exact absurd hr (by decide)),
    scatter_row 5#32 5 (by decide), if_neg (fun e => by subst e; exact absurd hr (by decide))]

/-- row 5 receives the batch mean, -/
theorem pvec5 (u : Fin 1024) :
    (aft W (Proc.devRef .tc main_v36) : Vec Ideal S8x1024 .f32) (ix2 (5 : Fin 8) u) = avgR (sumsOf W) u := by
  dsimp only [aft]
  after_results_simp
  rw [scatter_row 6#32 6 (by decide), if_neg (by decide), scatter_row 5#32 5 (by decide), if_pos rfl]
  exact avg_apply _ 0 slices_S16x1024_S8x1024_0_0 lo (fun s => (Nat.zero_add _).symm) u

/-- row 6 the inverse standard deviation. -/
theorem pvec6 (u : Fin 1024) :
    (aft W (Proc.devRef .tc main_v36) : Vec Ideal S8x1024 .f32) (ix2 (6 : Fin 8) u)
      = istdOf (avgR (sqsOf W) u) (avgR (sumsOf W) u) := by
  dsimp only [aft]
  after_results_simp
  rw [scatter_row 6#32 6 (by decide), if_pos rfl, istd_apply,
    avg_apply _ 8 slices_S16x1024_S8x1024_8_0 hi (fun s => rfl) u,
    avg_apply _ 0 slices_S16x1024_S8x1024_0_0 lo (fun s => (Nat.zero_add _).symm) u]

/-- The buffers the second region reads besides the packed vectors are not written. -/
theorem keeps_feat : aft W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes,
      StableHlo.ternary_writes, Finset.mem_singleton]
    repeat' apply And.intro
    all_goals exact StableHlo.devRef_ne_of_ne (by decide)))
theorem keeps_wfeat : aft W (Proc.devRef .tc main_v2) = W (Proc.devRef .tc main_v2) :=
  StableHlo.after_of_forall_not_mem (b := Proc.devRef .tc main_v2) _ _ (List.forall_iff_forall_mem.mp (by
    simp only [hostOps1, List.Forall, StableHlo.nullary_writes, StableHlo.unary_writes, StableHlo.binary_writes,
      StableHlo.ternary_writes, Finset.mem_singleton]
    repeat' apply And.intro
    all_goals exact StableHlo.devRef_ne_of_ne (by decide)))
theorem keeps_w2t : aft W (Proc.devRef .tc main_v3) = W (Proc.devRef .tc main_v3) :=
  StableHlo.after_of_forall_not_mem (b := Proc.devRef .tc main_v3) _ _ (List.forall_iff_forall_mem.mp (by
    simp only [hostOps1, List.Forall, StableHlo.nullary_writes, StableHlo.unary_writes, StableHlo.binary_writes,
      StableHlo.ternary_writes, Finset.mem_singleton]
    repeat' apply And.intro
    all_goals exact StableHlo.devRef_ne_of_ne (by decide)))

end Cert.ReferenceIdeal.MidValue

end
-- ==== Proof.RChain.lean ====
import proofs.«160323_g2000403857960831_pallasbulk_229_4_alg».proof.Proof.Gen.ReferenceIdeal.Frame
import proofs.«160323_g2000403857960831_pallasbulk_229_4_alg».proof.Proof.R0Value
import proofs.«160323_g2000403857960831_pallasbulk_229_4_alg».proof.Proof.R1Value
import proofs.«160323_g2000403857960831_pallasbulk_229_4_alg».proof.Proof.RHostPre
import proofs.«160323_g2000403857960831_pallasbulk_229_4_alg».proof.Proof.RHostMid

set_option maxRecDepth 16384

noncomputable section

open scoped BigOperators
open Idealize.ShloMosaic Idealize.ShloMosaic.TcCoe Idealize.SL.Sem Idealize.ShloMosaic.ValueIdx
open Idealize.ShloMosaic.Pipeline (Dat)
open Cert.Spec

/-!
  The reference's result array, entry by entry, as a function of the argument arrays: its two regions' values and the
  host operations between them chained through the buffer contents at each boundary of @main. Rows 5 and 6 of the
  packed vectors the last region reads are the batch mean and inverse standard deviation the host formed from the
  sums and sums of squares the first region accumulated.
-/

namespace Cert.ReferenceIdeal.Chain

open Cert.ReferenceIdeal Cert.ReferenceIdeal.Gen

variable (m : (ℓ : Loc nD τ sig) → Buf (Elt Ideal) ℓ) (ρ : Dev nD → PrngReg)

/-- The input rows and the hidden layer's weights (transposed), by coordinates, as launched. -/
abbrev featM (c : Dev nD) : Mat 16384 256 := fun n f => (m ((c : Thread nD τ).loc main_arg0) : Vec Ideal S16384x256 .f32) (ix2 n f)
abbrev w1tM (c : Dev nD) : Mat 256 1024 := fun f u => (m ((c : Thread nD τ).loc main_arg1) : Vec Ideal S1024x256 .f32) (ix2 u f)

/-! ## The buffers each region finds -/

theorem V1_feat (c : Dev nD) : V1 m ρ c main_arg0 = m ((c : Thread nD τ).loc main_arg0) :=
  HostValue.keeps_feat (W0 m ρ c)

theorem V2_feat (c : Dev nD) : V2 m ρ c main_arg0 = m ((c : Thread nD τ).loc main_arg0) :=
  ((W2_arr m ρ c 0).trans (((dat0 (V1 m ρ) c).arrAt_in 0 rfl _).trans (A_eq0 (V1 m ρ) c 0))).trans (V1_feat m ρ c)

theorem V3_feat (c : Dev nD) : V3 m ρ c main_arg0 = m ((c : Thread nD τ).loc main_arg0) :=
  (MidValue.keeps_feat (W2 m ρ c)).trans (V2_feat m ρ c)

theorem V3_v2 (c : Dev nD) : V3 m ρ c main_v2 = HostValue.aft (W0 m ρ c) (Proc.devRef .tc main_v2) :=
  (MidValue.keeps_wfeat (W2 m ρ c)).trans (W2_of_ne m ρ c main_v2 (by decide))

theorem V3_v3 (c : Dev nD) : V3 m ρ c main_v3 = HostValue.aft (W0 m ρ c) (Proc.devRef .tc main_v3) :=
  (MidValue.keeps_w2t (W2 m ρ c)).trans (W2_of_ne m ρ c main_v3 (by decide))

theorem V2_v15 (c : Dev nD) : W2 m ρ c (Proc.devRef .tc main_v15) = HostValue.aft (W0 m ρ c) (Proc.devRef .tc main_v15) :=
  W2_of_ne m ρ c main_v15 (by decide)

theorem V2_v16 (c : Dev nD) : W2 m ρ c (Proc.devRef .tc main_v16) = (dat0 (V1 m ρ) c).arrAt 2 cfg0.N := W2_arr m ρ c 2

/-! ## The statistics -/

theorem feat1 (c : Dev nD) : StatsValue.featOf (V1 m ρ) c = featM m c := by
  funext n f
  show (V1 m ρ c main_arg0 : Vec Ideal S16384x256 .f32) (ix2 n f) = _
  rw [V1_feat]

theorem w1t1 (c : Dev nD) : StatsValue.w1tOf (V1 m ρ) c = w1tM m c := by
  funext f u
  show (HostValue.aft (W0 m ρ c) (Proc.devRef .tc main_v0) : Vec Ideal S256x1024 .f32) (ix2 f u) = _
  rw [HostValue.w1t]

theorem sums_eq (c : Dev nD) : MidValue.sumsOf (W2 m ρ c) = sumPartR (featM m c) (w1tM m c) := by
  funext cc s u
  show (W2 m ρ c (Proc.devRef .tc main_v16) : Vec Ideal S2x16x1024 .f32) (ix3 cc (lo s) u) = _
  rw [V2_v16, StatsValue.sums, feat1, w1t1]

theorem sqs_eq (c : Dev nD) : MidValue.sqsOf (W2 m ρ c) = sqPartR (featM m c) (w1tM m c) := by
  funext cc s u
  show (W2 m ρ c (Proc.devRef .tc main_v16) : Vec Ideal S2x16x1024 .f32) (ix3 cc (hi s) u) = _
  rw [V2_v16, StatsValue.squares, feat1, w1t1]

/-- Row 5 of the packed vectors the last region reads: the batch mean. -/
theorem mean_eq (c : Dev nD) (v : Fin 1024) :
    ApplyValue.pvecOf (V3 m ρ) c 5 v = avgR (sumPartR (featM m c) (w1tM m c)) v := by
  show (MidValue.aft (W2 m ρ c) (Proc.devRef .tc main_v36) : Vec Ideal S8x1024 .f32) (ix2 (5 : Fin 8) v) = _
  rw [MidValue.pvec5, sums_eq]

/-- Row 6: the inverse standard deviation. -/
theorem istd_eq (c : Dev nD) (v : Fin 1024) :
    ApplyValue.pvecOf (V3 m ρ) c 6 v
      = istdOf (avgR (sqPartR (featM m c) (w1tM m c)) v) (avgR (sumPartR (featM m c) (w1tM m c)) v) := by
  show (MidValue.aft (W2 m ρ c) (Proc.devRef .tc main_v36) : Vec Ideal S8x1024 .f32) (ix2 (6 : Fin 8) v) = _
  rw [MidValue.pvec6, sums_eq, sqs_eq]

/-! ## The result -/

/-- The result array at (n, u): one output entry of row n, from the region-entry arrays of the last region. -/
theorem result_eq (c : Dev nD) (n : Fin 16384) (u : Fin 1024) :
    (W4 m ρ c (Proc.devRef .tc main_v37) : Vec Ideal S16384x1024 .f32) (ix2 n u)
      = applyOut (fun f => (V3 m ρ c main_arg0 : Vec Ideal S16384x256 .f32) (ix2 n f))
          (fun f k => (V3 m ρ c main_v2 : Vec Ideal S256x2048 .f32) (ix2 f k))
          (fun k v => (V3 m ρ c main_v3 : Vec Ideal S1024x1024 .f32) (ix2 k v))
          (ApplyValue.pvecOf (V3 m ρ) c 0) (ApplyValue.pvecOf (V3 m ρ) c 1) (ApplyValue.pvecOf (V3 m ρ) c 2)
          (ApplyValue.pvecOf (V3 m ρ) c 3) (ApplyValue.pvecOf (V3 m ρ) c 4)
          (ApplyValue.pvecOf (V3 m ρ) c 5) (ApplyValue.pvecOf (V3 m ρ) c 6) u :=
  (congrFun (W4_arr m ρ c 4) (ix2 n u)).trans (ApplyValue.final (V3 m ρ) c n u)

/-! ## The last region's ingredients, from the arguments -/

theorem x_eq (c : Dev nD) (n : Fin 16384) (f : Fin 256) :
    (V3 m ρ c main_arg0 : Vec Ideal S16384x256 .f32) (ix2 n f) = featM m c n f := by
  rw [V3_feat]

theorem wh_eq (c : Dev nD) (f : Fin 256) (k : Fin 1024) :
    (V3 m ρ c main_v2 : Vec Ideal S256x2048 .f32) (ix2 f (colH k))
      = (m ((c : Thread nD τ).loc main_arg1) : Vec Ideal S1024x256 .f32) (ix2 k f) := by
  rw [V3_v2, HostValue.wfeat_h]

theorem ws_eq (c : Dev nD) (f : Fin 256) (k : Fin 1024) :
    (V3 m ρ c main_v2 : Vec Ideal S256x2048 .f32) (ix2 f (colS k))
      = (m ((c : Thread nD τ).loc main_arg4) : Vec Ideal S1024x256 .f32) (ix2 k f) := by
  rw [V3_v2, HostValue.wfeat_s]

theorem w2_eq (c : Dev nD) (k v : Fin 1024) :
    (V3 m ρ c main_v3 : Vec Ideal S1024x1024 .f32) (ix2 k v)
      = (m ((c : Thread nD τ).loc main_arg2) : Vec Ideal S1024x1024 .f32) (ix2 v k) := by
  rw [V3_v3, HostValue.w2t]

theorem p0_eq (c : Dev nD) (v : Fin 1024) :
    ApplyValue.pvecOf (V3 m ρ) c 0 v
      = HostValue.vec1 (m ((c : Thread nD τ).loc main_arg3)) v + HostValue.vec1 (m ((c : Thread nD τ).loc main_arg5)) v := by
  show (MidValue.aft (W2 m ρ c) (Proc.devRef .tc main_v36) : Vec Ideal S8x1024 .f32) (ix2 (0 : Fin 8) v) = _
  rw [MidValue.pvec_keep _ _ (by decide), V2_v15, HostValue.pvec0]

theorem p1_eq (c : Dev nD) (v : Fin 1024) :
    ApplyValue.pvecOf (V3 m ρ) c 1 v = HostValue.vec1 (m ((c : Thread nD τ).loc main_arg6)) v := by
  show (MidValue.aft (W2 m ρ c) (Proc.devRef .tc main_v36) : Vec Ideal S8x1024 .f32) (ix2 (1 : Fin 8) v) = _
  rw [MidValue.pvec_keep _ _ (by decide), V2_v15, HostValue.pvec1]

theorem p2_eq (c : Dev nD) (v : Fin 1024) :
    ApplyValue.pvecOf (V3 m ρ) c 2 v = HostValue.vec1 (m ((c : Thread nD τ).loc main_arg7)) v := by
  show (MidValue.aft (W2 m ρ c) (Proc.devRef .tc main_v36) : Vec Ideal S8x1024 .f32) (ix2 (2 : Fin 8) v) = _
  rw [MidValue.pvec_keep _ _ (by decide), V2_v15, HostValue.pvec2]

theorem p3_eq (c : Dev nD) (v : Fin 1024) :
    ApplyValue.pvecOf (V3 m ρ) c 3 v = HostValue.vec1 (m ((c : Thread nD τ).loc main_arg8)) v := by
  show (MidValue.aft (W2 m ρ c) (Proc.devRef .tc main_v36) : Vec Ideal S8x1024 .f32) (ix2 (3 : Fin 8) v) = _
  rw [MidValue.pvec_keep _ _ (by decide), V2_v15, HostValue.pvec3]

theorem p4_eq (c : Dev nD) (v : Fin 1024) :
    ApplyValue.pvecOf (V3 m ρ) c 4 v = HostValue.vec1 (m ((c : Thread nD τ).loc main_arg9)) v := by
  show (MidValue.aft (W2 m ρ c) (Proc.devRef .tc main_v36) : Vec Ideal S8x1024 .f32) (ix2 (4 : Fin 8) v) = _
  rw [MidValue.pvec_keep _ _ (by decide), V2_v15, HostValue.pvec4]

end Cert.ReferenceIdeal.Chain

end
-- ==== Proof.Algebra.lean ====
import proofs.«160323_g2000403857960831_pallasbulk_229_4_alg».proof.Proof.Spec
import Mathlib.Data.EReal.Basic
import Mathlib.Algebra.BigOperators.Fin

noncomputable section

open scoped BigOperators

namespace Cert.Spec

open Idealize.ShloMosaic

/-! ## Finite real sums inside the extended reals -/

/-- The inclusion of ℝ in the extended reals commutes with finite sums. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-! ## The two words -/

/-- The word 0x38800000 is 2⁻¹⁴. -/
theorem invNW_eq : Ideal.ofBits .f32 0x38800000#32 = ((1 / 16384 : ℝ) : EReal) := by
  simp [Ideal.ofBits, Ideal.ieee, -EReal.coe_mul]; norm_num

/-- The word 0x46800000 is 2¹⁴. -/
theorem nW_eq : Ideal.ofBits .f32 0x46800000#32 = ((16384 : ℝ) : EReal) := by
  simp [Ideal.ofBits, Ideal.ieee, -EReal.coe_mul]; norm_num

/-! ## Each tiling lists every row once -/

/-- n = (cc·4 + i)·2048 + q·8 + s for exactly one (s, cc, i, q). -/
theorem rowsK_bij : Function.Bijective
    (fun p : Fin 8 × Fin 2 × Fin 4 × Fin 256 => rowK p.2.1 p.2.2.1 (subK p.2.2.2 p.1)) := by
  constructor
  · rintro ⟨s, cc, i, q⟩ ⟨s', cc', i', q'⟩ h
    have h' : (cc.val * 4 + i.val) * 2048 + (q.val * 8 + s.val)
        = (cc'.val * 4 + i'.val) * 2048 + (q'.val * 8 + s'.val) := congrArg Fin.val h
    have := s.isLt; have := s'.isLt; have := cc.isLt; have := cc'.isLt
    have := i.isLt; have := i'.isLt; have := q.isLt; have := q'.isLt
    simp only [Prod.mk.injEq, Fin.ext_iff]
    omega
  · rintro ⟨n, hn⟩
    refine ⟨(⟨n % 8, by omega⟩, ⟨n / 8192, by omega⟩, ⟨n / 2048 % 4, by omega⟩, ⟨n % 2048 / 8, by omega⟩), ?_⟩
    apply Fin.ext
    show (n / 8192 * 4 + n / 2048 % 4) * 2048 + (n % 2048 / 8 * 8 + n % 8) = n
    omega

/-- n = (cc·4 + i)·2048 + r for exactly one (cc, i, r). -/
theorem tilesK_bij : Function.Bijective
    (fun p : Fin 2 × Fin 4 × Fin 2048 => rowK p.1 p.2.1 p.2.2) := by
  constructor
  · rintro ⟨cc, i, r⟩ ⟨cc', i', r'⟩ h
    have h' : (cc.val * 4 + i.val) * 2048 + r.val = (cc'.val * 4 + i'.val) * 2048 + r'.val :=
      congrArg Fin.val h
    have := cc.isLt; have := cc'.isLt; have := i.isLt; have := i'.isLt; have := r.isLt; have := r'.isLt
    simp only [Prod.mk.injEq, Fin.ext_iff]
    omega
  · rintro ⟨n, hn⟩
    refine ⟨(⟨n / 8192, by omega⟩, ⟨n / 2048 % 4, by omega⟩, ⟨n % 2048, by omega⟩), ?_⟩
    apply Fin.ext
    show (n / 8192 * 4 + n / 2048 % 4) * 2048 + n % 2048 = n
    omega

/-- n = (cc·16 + i)·512 + q·8 + s for exactly one (s, cc, i, q). -/
theorem rowsR_bij : Function.Bijective
    (fun p : Fin 8 × Fin 2 × Fin 16 × Fin 64 => rowR p.2.1 p.2.2.1 (subR p.2.2.2 p.1)) := by
  constructor
  · rintro ⟨s, cc, i, q⟩ ⟨s', cc', i', q'⟩ h
    have h' : (cc.val * 16 + i.val) * 512 + (q.val * 8 + s.val)
        = (cc'.val * 16 + i'.val) * 512 + (q'.val * 8 + s'.val) := congrArg Fin.val h
    have := s.isLt; have := s'.isLt; have := cc.isLt; have := cc'.isLt
    have := i.isLt; have := i'.isLt; have := q.isLt; have := q'.isLt
    simp only [Prod.mk.injEq, Fin.ext_iff]
    omega
  · rintro ⟨n, hn⟩
    refine ⟨(⟨n % 8, by omega⟩, ⟨n / 8192, by omega⟩, ⟨n / 512 % 16, by omega⟩, ⟨n % 512 / 8, by omega⟩), ?_⟩
    apply Fin.ext
    show (n / 8192 * 16 + n / 512 % 16) * 512 + (n % 512 / 8 * 8 + n % 8) = n
    omega

/-- A sum over sublanes, halves, tiles of 2048 rows and vreg rows is the sum over all rows. -/
theorem sum_rowsK (g : Fin 16384 → ℝ) :
    ∑ s : Fin 8, ∑ cc : Fin 2, ∑ i : Fin 4, ∑ q : Fin 256, g (rowK cc i (subK q s)) = ∑ n, g n := by
  rw [← Fintype.sum_bijective _ rowsK_bij (fun p => g (rowK p.2.1 p.2.2.1 (subK p.2.2.2 p.1))) g (fun _ => rfl)]
  simp only [Fintype.sum_prod_type]

/-- A sum over halves, tiles of 2048 rows and rows of a tile is the sum over all rows. -/
theorem sum_tilesK (g : Fin 16384 → ℝ) :
    ∑ cc : Fin 2, ∑ i : Fin 4, ∑ r : Fin 2048, g (rowK cc i r) = ∑ n, g n := by
  rw [← Fintype.sum_bijective _ tilesK_bij (fun p => g (rowK p.1 p.2.1 p.2.2)) g (fun _ => rfl)]
  simp only [Fintype.sum_prod_type]

/-- A sum over sublanes, halves, tiles of 512 rows and vreg rows is the sum over all rows. -/
theorem sum_rowsR (g : Fin 16384 → ℝ) :
    ∑ s : Fin 8, ∑ cc : Fin 2, ∑ i : Fin 16, ∑ q : Fin 64, g (rowR cc i (subR q s)) = ∑ n, g n := by
  rw [← Fintype.sum_bijective _ rowsR_bij (fun p => g (rowR p.2.1 p.2.2.1 (subR p.2.2.2 p.1))) g (fun _ => rfl)]
  simp only [Fintype.sum_prod_type]

/-! ## The identities over ℝ -/

/-- Σ_s Σ_f (rs₀[s,f] + rs₁[s,f])·w[f,u] = Σ_n Σ_f x[n,f]·w[f,u]. -/
theorem mean_real (X : Fin 16384 → Fin 256 → ℝ) (W : Fin 256 → Fin 1024 → ℝ) (u : Fin 1024) :
    ∑ s : Fin 8, ∑ f : Fin 256,
        ((∑ i : Fin 4, ∑ q : Fin 256, X (rowK 0 i (subK q s)) f)
          + ∑ i : Fin 4, ∑ q : Fin 256, X (rowK 1 i (subK q s)) f) * W f u
      = ∑ n : Fin 16384, ∑ f : Fin 256, X n f * W f u := by
  calc _ = ∑ f : Fin 256,
          (∑ s : Fin 8, ∑ cc : Fin 2, ∑ i : Fin 4, ∑ q : Fin 256, X (rowK cc i (subK q s)) f) * W f u := by
        rw [Finset.sum_comm]
        refine Finset.sum_congr rfl fun f _ => ?_
        rw [Finset.sum_mul]
        refine Finset.sum_congr rfl fun s _ => ?_
        rw [Fin.sum_univ_two]
    _ = ∑ f : Fin 256, ∑ n : Fin 16384, X n f * W f u := by
        refine Finset.sum_congr rfl fun f _ => ?_
        rw [sum_rowsK (fun n => X n f), Finset.sum_mul]
    _ = ∑ n : Fin 16384, ∑ f : Fin 256, X n f * W f u := Finset.sum_comm

/-- Σ_f w[f,u]·Σ_g (C₀[f,g] + C₁[f,g])·w[g,u] = Σ_n (Σ_f x[n,f]·w[f,u])². -/
theorem e2_real (X : Fin 16384 → Fin 256 → ℝ) (W : Fin 256 → Fin 1024 → ℝ) (u : Fin 1024) :
    ∑ f : Fin 256, W f u * ∑ g : Fin 256,
        ((∑ i : Fin 4, ∑ r : Fin 2048, X (rowK 0 i r) f * X (rowK 0 i r) g)
          + ∑ i : Fin 4, ∑ r : Fin 2048, X (rowK 1 i r) f * X (rowK 1 i r) g) * W g u
      = ∑ n : Fin 16384, (∑ f : Fin 256, X n f * W f u) * ∑ g : Fin 256, X n g * W g u := by
  have hC : ∀ f g : Fin 256,
      (∑ i : Fin 4, ∑ r : Fin 2048, X (rowK 0 i r) f * X (rowK 0 i r) g)
          + (∑ i : Fin 4, ∑ r : Fin 2048, X (rowK 1 i r) f * X (rowK 1 i r) g)
        = ∑ n : Fin 16384, X n f * X n g := by
    intro f g
    rw [← sum_tilesK (fun n => X n f * X n g), Fin.sum_univ_two]
  have hL : ∀ f : Fin 256, W f u * ∑ g : Fin 256, (∑ n : Fin 16384, X n f * X n g) * W g u
      = ∑ g : Fin 256, ∑ n : Fin 16384, W f u * (X n f * X n g * W g u) := by
    intro f
    rw [Finset.mul_sum]
    refine Finset.sum_congr rfl fun g _ => ?_
    rw [Finset.sum_mul, Finset.mul_sum]
  have hR : ∀ n : Fin 16384, (∑ f : Fin 256, X n f * W f u) * ∑ g : Fin 256, X n g * W g u
      = ∑ f : Fin 256, ∑ g : Fin 256, W f u * (X n f * X n g * W g u) := by
    intro n
    rw [Finset.sum_mul_sum]
    refine Finset.sum_congr rfl fun f _ => Finset.sum_congr rfl fun g _ => ?_
    ring
  calc _ = ∑ f : Fin 256, ∑ g : Fin 256, ∑ n : Fin 16384, W f u * (X n f * X n g * W g u) := by
        refine Finset.sum_congr rfl fun f _ => ?_
        rw [← hL f]
        refine congrArg (W f u * ·) (Finset.sum_congr rfl fun g _ => ?_)
        rw [hC f g]
    _ = ∑ f : Fin 256, ∑ n : Fin 16384, ∑ g : Fin 256, W f u * (X n f * X n g * W g u) :=
        Finset.sum_congr rfl fun f _ => Finset.sum_comm
    _ = ∑ n : Fin 16384, ∑ f : Fin 256, ∑ g : Fin 256, W f u * (X n f * X n g * W g u) := Finset.sum_comm
    _ = _ := Finset.sum_congr rfl fun n _ => (hR n).symm

/-! ## The two statistics agree -/

/-- Over finite inputs the mean of the hidden pre-activations is the same number whichever way it is accumulated:
    Σ_s Σ_f (Σ_n≡s x[n,f])·w[f,u] = Σ_s Σ_n≡s Σ_f x[n,f]·w[f,u], both tilings run over all 16384 rows once, and
    multiplying by 2⁻¹⁴ is dividing by 16384. -/
theorem meanK_eq_avgR (feat : Mat 16384 256) (w : Mat 256 1024)
    (hf : ∀ n f, ∃ r : ℝ, feat n f = (r : EReal)) (hw : ∀ f u, ∃ r : ℝ, w f u = (r : EReal)) (u : Fin 1024) :
    meanK (rsPart feat) w u = avgR (sumPartR feat w) u := by
  choose X hX using hf
  choose W hW using hw
  obtain rfl : feat = fun n f => (X n f : EReal) := funext fun n => funext fun f => hX n f
  obtain rfl : w = fun f u => (W f u : EReal) := funext fun f => funext fun u => hW f u
  have hL : meanK (rsPart fun n f => (X n f : EReal)) (fun f u => (W f u : EReal)) u
      = (((∑ s : Fin 8, ∑ f : Fin 256,
            ((∑ i : Fin 4, ∑ q : Fin 256, X (rowK 0 i (subK q s)) f)
              + ∑ i : Fin 4, ∑ q : Fin 256, X (rowK 1 i (subK q s)) f) * W f u) * (1 / 16384) : ℝ) : EReal) := by
    simp only [meanK, rsPart, invNW_eq, coe_sum, EReal.coe_mul, EReal.coe_add]
  have hR : avgR (sumPartR (fun n f => (X n f : EReal)) fun f u => (W f u : EReal)) u
      = (((∑ s : Fin 8, ∑ cc : Fin 2, ∑ i : Fin 16, ∑ q : Fin 64,
            ∑ f : Fin 256, X (rowR cc i (subR q s)) f * W f u) * (1 / 16384) : ℝ) : EReal) := by
    simp only [avgR, sumPartR, hidden, nW_eq]
    rw [Ideal.div_coe (by norm_num)]
    simp only [coe_sum, EReal.coe_mul]
  rw [hL, hR, mean_real, sum_rowsR (fun n => ∑ f : Fin 256, X n f * W f u)]

/-- and so is the mean of their squares: Σ_f w[f,u]·Σ_g (Σ_n x[n,f]·x[n,g])·w[g,u] = Σ_n (Σ_f x[n,f]·w[f,u])². -/
theorem e2K_eq_avgR (feat : Mat 16384 256) (w : Mat 256 1024)
    (hf : ∀ n f, ∃ r : ℝ, feat n f = (r : EReal)) (hw : ∀ f u, ∃ r : ℝ, w f u = (r : EReal)) (u : Fin 1024) :
    e2K (gramPart feat) w u = avgR (sqPartR feat w) u := by
  choose X hX using hf
  choose W hW using hw
  obtain rfl : feat = fun n f => (X n f : EReal) := funext fun n => funext fun f => hX n f
  obtain rfl : w = fun f u => (W f u : EReal) := funext fun f => funext fun u => hW f u
  have hL : e2K (gramPart fun n f => (X n f : EReal)) (fun f u => (W f u : EReal)) u
      = (((∑ f : Fin 256, W f u * ∑ g : Fin 256,
            ((∑ i : Fin 4, ∑ r : Fin 2048, X (rowK 0 i r) f * X (rowK 0 i r) g)
              + ∑ i : Fin 4, ∑ r : Fin 2048, X (rowK 1 i r) f * X (rowK 1 i r) g) * W g u)
            * (1 / 16384) : ℝ) : EReal) := by
    simp only [e2K, gramPart, invNW_eq, coe_sum, EReal.coe_mul, EReal.coe_add]
  have hR : avgR (sqPartR (fun n f => (X n f : EReal)) fun f u => (W f u : EReal)) u
      = (((∑ s : Fin 8, ∑ cc : Fin 2, ∑ i : Fin 16, ∑ q : Fin 64,
            (∑ f : Fin 256, X (rowR cc i (subR q s)) f * W f u)
              * ∑ g : Fin 256, X (rowR cc i (subR q s)) g * W g u) * (1 / 16384) : ℝ) : EReal) := by
    simp only [avgR, sqPartR, hidden, nW_eq]
    rw [Ideal.div_coe (by norm_num)]
    simp only [coe_sum, EReal.coe_mul]
  rw [hL, hR, e2_real,
    sum_rowsR (fun n => (∑ f : Fin 256, X n f * W f u) * ∑ g : Fin 256, X n g * W g u)]

end Cert.Spec

end
-- ==== Proof.Finite.lean ====
import proofs.«160323_g2000403857960831_pallasbulk_229_4_alg».proof.Defs
import proofs.«160323_g2000403857960831_pallasbulk_229_4_alg».proof.Proof.Gen.Pre_finite_inputs
import proofs.«160323_g2000403857960831_pallasbulk_229_4_alg».proof.Proof.Gen.KernelIdeal
import Idealize.ShloMosaic.Lib.ReduceAll
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.Proof.Finite

open Cert.KernelIdeal

/-- The f32 pattern with all-ones exponent and zero fraction denotes +∞. -/
theorem inf_bits : Ideal.ofBits .f32 0x7F800000#32 = (⊤ : EReal) := by
  simp [Ideal.ofBits, Ideal.ieee]

/-- An extended real whose absolute value max x (−x) is below +∞ is a real number. -/
theorem real_of_abs_lt_top (x : EReal) (hx : max x (-x) < ⊤) : ∃ r : ℝ, x = (r : EReal) := by
  induction x using EReal.rec with
  | bot => simp at hx
  | coe r => exact ⟨r, rfl⟩
  | top => simp at hx

/-- The scalar index set has one element. -/
instance subsingleton_scalar_idx : Subsingleton Cert.Pre_finite_inputs.S_.Idx :=
  ⟨fun a b => funext fun d => d.elim0⟩

/-- One conjunct of the precondition read back: if all(|x| < +∞) is true then every entry of x is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ix0 = 1#1)
    (i : s.Idx) : ∃ r : ℝ, x i = (r : EReal) := by
  have hi := Host.reduce_andi_all _ _ hr hu ix0 e i
  apply real_of_abs_lt_top
  simp only [cmpf, Host.absf, broadcastInDim, constant] at hi
  have hi' : BitVec.ofBool (decide (max (x i) (-x i) < Ideal.ofBits .f32 0x7F800000#32)) = 1#1 := hi
  rw [inf_bits] at hi'
  by_contra hn
  rw [decide_eq_false hn] at hi'
  exact absurd hi' (by decide)

/-- Under the precondition every input row entry is a real number, -/
theorem feat_real (m : (ℓ : Loc nD τ sig) → Buf (Elt Ideal) ℓ) (h : Cert.Pre_KernelIdeal m) (c : Dev nD) (n : Fin 16384) (f : Fin 256) :
    ∃ r : ℝ, (m ((c.tc : Thread nD τ).loc main_arg0) : Vec Ideal S16384x256 .f32) (ix2 n f) = (r : EReal) := by
  have h0 := congrFun (h c) ix0
  dsimp only [Cert.Pre_finite_inputs.fn, Cert.Pre_finite_inputs.fn_part1, Cert.Pre_finite_inputs.fn_part2, andi] at h0
  simp only [IntOp.andi_eq_one] at h0
  -- the ten conjuncts associate to the left; the first is the statement about the input rows
  exact all_real _ _ _ _ h0.1.1.1.1.1.1.1.1.1 (ix2 n f)

/-- and so is every entry of the hidden layer's weight matrix. -/
theorem w1_real (m : (ℓ : Loc nD τ sig) → Buf (Elt Ideal) ℓ) (h : Cert.Pre_KernelIdeal m) (c : Dev nD) (u : Fin 1024) (f : Fin 256) :
    ∃ r : ℝ, (m ((c.tc : Thread nD τ).loc main_arg1) : Vec Ideal S1024x256 .f32) (ix2 u f) = (r : EReal) := by
  have h0 := congrFun (h c) ix0
  dsimp only [Cert.Pre_finite_inputs.fn, Cert.Pre_finite_inputs.fn_part1, Cert.Pre_finite_inputs.fn_part2, andi] at h0
  simp only [IntOp.andi_eq_one] at h0
  -- the second conjunct is the statement about the hidden layer's weights
  exact all_real _ _ _ _ h0.1.1.1.1.1.1.1.1.2 (ix2 u f)

end Cert.Proof.Finite

end
-- ==== Proof.OutCongr.lean ====
import proofs.«160323_g2000403857960831_pallasbulk_229_4_alg».proof.Proof.Spec

noncomputable section

open scoped BigOperators

namespace Cert.Spec

/-- An output entry depends on the fused weight matrix only through its two halves' columns, and on every array only
    through its entries: two sets of ingredients that agree entry by entry give the same output entry. -/
theorem applyOut_congr {x x' : Fin 256 → EReal} {wf wf' : Mat 256 2048} {w2 w2' : Mat 1024 1024}
    {bias bias' bng bng' bnb bnb' lng lng' lnb lnb' mean mean' istd istd' : Fin 1024 → EReal}
    (hx : ∀ f, x f = x' f) (hh : ∀ f k, wf f (colH k) = wf' f (colH k)) (hs : ∀ f k, wf f (colS k) = wf' f (colS k))
    (hw2 : ∀ k v, w2 k v = w2' k v) (hbias : ∀ v, bias v = bias' v) (hbng : ∀ v, bng v = bng' v)
    (hbnb : ∀ v, bnb v = bnb' v) (hlng : ∀ v, lng v = lng' v) (hlnb : ∀ v, lnb v = lnb' v)
    (hmean : ∀ v, mean v = mean' v) (histd : ∀ v, istd v = istd' v) (u : Fin 1024) :
    applyOut x wf w2 bias bng bnb lng lnb mean istd u = applyOut x' wf' w2' bias' bng' bnb' lng' lnb' mean' istd' u := by
  obtain rfl : x = x' := funext hx
  obtain rfl : w2 = w2' := funext fun k => funext (hw2 k)
  obtain rfl : bias = bias' := funext hbias
  obtain rfl : bng = bng' := funext hbng
  obtain rfl : bnb = bnb' := funext hbnb
  obtain rfl : lng = lng' := funext hlng
  obtain rfl : lnb = lnb' := funext hlnb
  obtain rfl : mean = mean' := funext hmean
  obtain rfl : istd = istd' := funext histd
  unfold applyOut
  simp only [hh, hs]

end Cert.Spec

end
-- ==== Proof.lean ====
/-
  The certificate's claims.

  Frames: each program's generated frame. The idealization replaced one widening of a narrowing by its operand, which
  at the ideal instance is the identity.

  Equivalence over the extended reals. Both programs normalise each row of relu(bn(x·W1ᵀ))·W2ᵀ + x·Wsᵀ + (b2 + bs)
  over its 1024 units; they differ only in how the batch mean and variance of the hidden pre-activations h = x·W1ᵀ are
  obtained. The kernel accumulates the Gram matrix xᵀx and the column sums of x and forms E[h²] = w·(xᵀx)·w / N and
  E[h] = (Σ x)·w / N per unit; the reference accumulates Σ h and Σ h² directly. Under the precondition every input is
  a real number, where sums may be re-indexed and products distributed over them, so the two pairs of statistics are
  the same numbers (Algebra.lean), and multiplying by 2⁻¹⁴ is dividing by 16384. Every other ingredient of an output
  entry is the same entry of the same argument array on both sides (the packed weight matrices are transposes and a
  concatenation of the arguments; the narrowing to bf16 is the identity at the ideal instance), so the two results
  agree entry by entry.
-/
import proofs.«160323_g2000403857960831_pallasbulk_229_4_alg».proof.Defs
import proofs.«160323_g2000403857960831_pallasbulk_229_4_alg».proof.Proof.Gen.Kernel
import proofs.«160323_g2000403857960831_pallasbulk_229_4_alg».proof.Proof.Gen.Kernel.Frame
import proofs.«160323_g2000403857960831_pallasbulk_229_4_alg».proof.Proof.Gen.KernelIdeal
import proofs.«160323_g2000403857960831_pallasbulk_229_4_alg».proof.Proof.Gen.KernelIdeal.Frame
import proofs.«160323_g2000403857960831_pallasbulk_229_4_alg».proof.Proof.Gen.ReferenceIdeal
import proofs.«160323_g2000403857960831_pallasbulk_229_4_alg».proof.Proof.Gen.ReferenceIdeal.Frame
import proofs.«160323_g2000403857960831_pallasbulk_229_4_alg».proof.Proof.Gen.Pre_finite_inputs
import proofs.«160323_g2000403857960831_pallasbulk_229_4_alg».proof.Proof.KRun
import proofs.«160323_g2000403857960831_pallasbulk_229_4_alg».proof.Proof.RRun
import proofs.«160323_g2000403857960831_pallasbulk_229_4_alg».proof.Proof.KChain
import proofs.«160323_g2000403857960831_pallasbulk_229_4_alg».proof.Proof.RChain
import proofs.«160323_g2000403857960831_pallasbulk_229_4_alg».proof.Proof.Algebra
import proofs.«160323_g2000403857960831_pallasbulk_229_4_alg».proof.Proof.Finite
import proofs.«160323_g2000403857960831_pallasbulk_229_4_alg».proof.Proof.OutCongr
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.Spec

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The one rewrite of the idealization: widening the narrowed block back is the identity at the ideal instance and the
    rounding through bf16 at the word-level one. -/
theorem preserves : Cert.preserves_Kernel_KernelIdeal :=
  IdealRules.truncf_extf.statement Cert.KernelIdeal.S2048x256 .f32 .bf16

/-- Both runs end, and the two result arrays agree at every (row, unit). -/
theorem algebraic : Cert.algebraic_KernelIdeal_ReferenceIdeal := by
  intro m ρ m' ρ' hpre hagree
  refine ⟨fun c => Cert.KernelIdeal.Gen.W4 m ρ c (Proc.devRef .tc Cert.KernelIdeal.main_v20),
    Cert.KernelIdeal.ValueRun.run m ρ, ?_⟩
  refine (θ_run Cert.ReferenceIdeal.defs _ _).mono (fun r h c => ⟨(h c).1.trans ?_, (h c).2⟩)
    (Cert.ReferenceIdeal.ValueRun.run m' ρ')
  obtain ⟨h0, h1, h2, h3, h4, h5, h6, h7, h8, h9⟩ := hagree c
  refine funext fun (j : Cert.KernelIdeal.S16384x1024.Idx) => ?_
  obtain ⟨n, u, rfl⟩ : ∃ (n : Fin 16384) (u : Fin 1024), j = ix2 n u := ⟨j 0, j 1, eq_ix2 j⟩
  refine (Cert.ReferenceIdeal.Chain.result_eq m' ρ' c n u).trans
    (Eq.trans ?_ (Cert.KernelIdeal.Chain.result_eq m ρ c n u).symm)
  have hfeat : Cert.ReferenceIdeal.Chain.featM m' c = Cert.KernelIdeal.Chain.featM m c := by
    funext a f; exact congrFun h0 (ix2 a f)
  have hw1t : Cert.ReferenceIdeal.Chain.w1tM m' c = Cert.KernelIdeal.Chain.w1tM m c := by
    funext f a; exact congrFun h1 (ix2 a f)
  have hfR : ∀ a f, ∃ r : ℝ, Cert.KernelIdeal.Chain.featM m c a f = (r : EReal) := fun a f =>
    Cert.Proof.Finite.feat_real m hpre c a f
  have hwR : ∀ f a, ∃ r : ℝ, Cert.KernelIdeal.Chain.w1tM m c f a = (r : EReal) := fun f a =>
    Cert.Proof.Finite.w1_real m hpre c a f
  apply applyOut_congr
  · intro f
    rw [Cert.ReferenceIdeal.Chain.x_eq, Cert.KernelIdeal.Chain.x_eq, hfeat]
  · intro f k
    rw [Cert.ReferenceIdeal.Chain.wh_eq, Cert.KernelIdeal.Chain.wh_eq]; exact congrFun h1 (ix2 k f)
  · intro f k
    rw [Cert.ReferenceIdeal.Chain.ws_eq, Cert.KernelIdeal.Chain.ws_eq]; exact congrFun h4 (ix2 k f)
  · intro k v
    rw [Cert.ReferenceIdeal.Chain.w2_eq, Cert.KernelIdeal.Chain.w2_eq]; exact congrFun h2 (ix2 v k)
  · intro v
    rw [Cert.ReferenceIdeal.Chain.p0_eq, Cert.KernelIdeal.Chain.p0_eq, h3, h5]
  · intro v
    rw [Cert.ReferenceIdeal.Chain.p1_eq, Cert.KernelIdeal.Chain.p1_eq, h6]
  · intro v
    rw [Cert.ReferenceIdeal.Chain.p2_eq, Cert.KernelIdeal.Chain.p2_eq, h7]
  · intro v
    rw [Cert.ReferenceIdeal.Chain.p3_eq, Cert.KernelIdeal.Chain.p3_eq, h8]
  · intro v
    rw [Cert.ReferenceIdeal.Chain.p4_eq, Cert.KernelIdeal.Chain.p4_eq, h9]
  · intro v
    show Cert.ReferenceIdeal.ApplyValue.pvecOf (Cert.ReferenceIdeal.Gen.V3 m' ρ') c 5 v
      = (Cert.KernelIdeal.Gen.V3 m ρ c Cert.KernelIdeal.main_v19 : Vec Ideal Cert.KernelIdeal.S8x1024 .f32) (ix2 (0 : Fin 8) v)
    rw [Cert.ReferenceIdeal.Chain.mean_eq, Cert.KernelIdeal.Chain.mean_eq, hfeat, hw1t]
    exact (meanK_eq_avgR _ _ hfR hwR v).symm
  · intro v
    show Cert.ReferenceIdeal.ApplyValue.pvecOf (Cert.ReferenceIdeal.Gen.V3 m' ρ') c 6 v
      = (Cert.KernelIdeal.Gen.V3 m ρ c Cert.KernelIdeal.main_v19 : Vec Ideal Cert.KernelIdeal.S8x1024 .f32) (ix2 (1 : Fin 8) v)
    rw [Cert.ReferenceIdeal.Chain.istd_eq, Cert.KernelIdeal.Chain.istd_eq, hfeat, hw1t,
      meanK_eq_avgR _ _ hfR hwR v, e2K_eq_avgR _ _ hfR hwR v]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
